-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x100 : Shape := ⟨2, ![100000, 100]⟩
abbrev S2x1600000 : Shape := ⟨2, ![2, 1600000]⟩
abbrev S1600000 : Shape := ⟨1, ![1600000]⟩
abbrev S100000 : Shape := ⟨1, ![100000]⟩
abbrev S100x64 : Shape := ⟨2, ![100, 64]⟩
abbrev S64 : Shape := ⟨1, ![64]⟩
abbrev S64x64 : Shape := ⟨2, ![64, 64]⟩
abbrev S_ : Shape := ⟨0, ![]⟩

class Facts : Prop where
  bcast_S_S100000x100 : S_.BroadcastsInDim S100000x100 (![] : Fin 0 → Fin S100000x100.rank)
  reducesTo_S100000x100_S_d0_1 : S100000x100.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S100x64 : S_.BroadcastsInDim S100x64 (![] : Fin 0 → Fin S100x64.rank)
  reducesTo_S100x64_S_d0_1 : S100x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part5 {F : FTy → Type} [FloatOps F] (main_arg20 : FVec F S64 .f32) (main_arg21 : FVec F S64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg21
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  main_v98

def fn_part4 {F : FTy → Type} [FloatOps F] (main_arg16 : FVec F S64x64 .f32) (main_arg17 : FVec F S64 .f32) (main_arg18 : FVec F S64 .f32) (main_arg19 : FVec F S64 .f32) (main_arg20 : FVec F S64 .f32) (main_arg21 : FVec F S64 .f32) (main_v63 : IVec S_ 1) (main_v67 : IVec S_ 1) : IVec S_ 1 :=
  let main_v68 : IVec S_ 1 := andi main_v63 main_v67
  let main_v69 : FVec F S64x64 .f32 := Host.absf main_arg16
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_v83 main_v84 main_cst_32

def fn_part3 {F : FTy → Type} [FloatOps F] (main_arg13 : FVec F S64 .f32) (main_arg14 : FVec F S64 .f32) (main_arg15 : FVec F S64 .f32) (main_arg16 : FVec F S64x64 .f32) (main_arg17 : FVec F S64 .f32) (main_arg18 : FVec F S64 .f32) (main_arg19 : FVec F S64 .f32) (main_arg20 : FVec F S64 .f32) (main_arg21 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_arg20 main_arg21 main_v63 main_v67

def fn_part2 {F : FTy → Type} [FloatOps F] (main_arg9 : FVec F S64 .f32) (main_arg10 : FVec F S64x64 .f32) (main_arg11 : FVec F S64 .f32) (main_arg12 : FVec F S64 .f32) (main_arg13 : FVec F S64 .f32) (main_arg14 : FVec F S64 .f32) (main_arg15 : FVec F S64 .f32) (main_arg16 : FVec F S64x64 .f32) (main_arg17 : FVec F S64 .f32) (main_arg18 : FVec F S64 .f32) (main_arg19 : FVec F S64 .f32) (main_arg20 : FVec F S64 .f32) (main_arg21 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_v48 main_v49 main_v50

def fn_part1 {F : FTy → Type} [FloatOps F] (main_arg6 : FVec F S64 .f32) (main_arg7 : FVec F S64 .f32) (main_arg8 : FVec F S64 .f32) (main_arg9 : FVec F S64 .f32) (main_arg10 : FVec F S64x64 .f32) (main_arg11 : FVec F S64 .f32) (main_arg12 : FVec F S64 .f32) (main_arg13 : FVec F S64 .f32) (main_arg14 : FVec F S64 .f32) (main_arg15 : FVec F S64 .f32) (main_arg16 : FVec F S64x64 .f32) (main_arg17 : FVec F S64 .f32) (main_arg18 : FVec F S64 .f32) (main_arg19 : FVec F S64 .f32) (main_arg20 : FVec F S64 .f32) (main_arg21 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_v33

def fn {F : FTy → Type} [FloatOps F] (main_arg0 : FVec F S100000x100 .f32) (main_arg1 : IVec S2x1600000 32) (main_arg2 : FVec F S1600000 .f32) (main_arg3 : IVec S100000 32) (main_arg4 : FVec F S100x64 .f32) (main_arg5 : FVec F S64 .f32) (main_arg6 : FVec F S64 .f32) (main_arg7 : FVec F S64 .f32) (main_arg8 : FVec F S64 .f32) (main_arg9 : FVec F S64 .f32) (main_arg10 : FVec F S64x64 .f32) (main_arg11 : FVec F S64 .f32) (main_arg12 : FVec F S64 .f32) (main_arg13 : FVec F S64 .f32) (main_arg14 : FVec F S64 .f32) (main_arg15 : FVec F S64 .f32) (main_arg16 : FVec F S64x64 .f32) (main_arg17 : FVec F S64 .f32) (main_arg18 : FVec F S64 .f32) (main_arg19 : FVec F S64 .f32) (main_arg20 : FVec F S64 .f32) (main_arg21 : FVec F S64 .f32) : IVec S_ 1 :=
  let main_v0 : FVec F S100000x100 .f32 := Host.absf main_arg0
  let main_cst : FVec F S_ .f32 := constant S_ .f32 0x7F800000#32
  let main_v1 : FVec F S100000x100 .f32 := broadcastInDim S100000x100 ![] bcast_S_S100000x100 main_cst
  let main_v2 : IVec S100000x100 1 := cmpf .olt main_v0 main_v1
  let main_c : IVec S_ 1 := constantI S_ 1 1#1
  let main_v3 : IVec S_ 1 := (fun x v => Host.reduce IntOp.andi x v reducesTo_S100000x100_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S100x64 .f32 := Host.absf main_arg4
  let main_cst_2 : FVec F S_ .f32 := constant S_ .f32 0x7F800000#32
  let main_v10 : FVec F S100x64 .f32 := broadcastInDim S100x64 ![] bcast_S_S100x64 main_cst_2
  let main_v11 : IVec S100x64 1 := cmpf .olt main_v9 main_v10
  let main_c_3 : IVec S_ 1 := constantI S_ 1 1#1
  let main_v12 : IVec S_ 1 := (fun x v => Host.reduce IntOp.andi x v reducesTo_S100x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S100000x100 : Shape := ⟨2, ![100000, 100]⟩
abbrev S2x1600000 : Shape := ⟨2, ![2, 1600000]⟩
abbrev S1600000 : Shape := ⟨1, ![1600000]⟩
abbrev S100000 : Shape := ⟨1, ![100000]⟩
abbrev S100x64 : Shape := ⟨2, ![100, 64]⟩
abbrev S64 : Shape := ⟨1, ![64]⟩
abbrev S64x64 : Shape := ⟨2, ![64, 64]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x100 : Shape := ⟨2, ![5000, 100]⟩
abbrev S5000x64 : Shape := ⟨2, ![5000, 64]⟩
abbrev S1700000x64 : Shape := ⟨2, ![1700000, 64]⟩
abbrev S1x64 : Shape := ⟨2, ![1, 64]⟩
abbrev S100000x1 : Shape := ⟨2, ![100000, 1]⟩
abbrev S1024x64 : Shape := ⟨2, ![1024, 64]⟩
abbrev S2000x64 : Shape := ⟨2, ![2000, 64]⟩
abbrev S2000x1 : Shape := ⟨2, ![2000, 1]⟩
abbrev S2000x1024 : Shape := ⟨2, ![2000, 1024]⟩
abbrev S1000x64 : Shape := ⟨2, ![1000, 64]⟩
abbrev S1000 : Shape := ⟨1, ![1000]⟩
abbrev S1000x1 : Shape := ⟨2, ![1000, 1]⟩
abbrev S1000x128 : Shape := ⟨2, ![1000, 128]⟩

abbrev nBuf : Space → Nat
  | .hbm => 150
  | .vmem => 47
  | .smem => 0
  | _ => 0

abbrev hbmTy0_0 (i : Nat) : BufTy := match i % 128 with
  | 0 => ⟨S100000x100, .f32⟩
  | 1 => ⟨S2x1600000, .i32⟩
  | 2 => ⟨S1600000, .f32⟩
  | 3 => ⟨S100000, .i32⟩
  | 4 => ⟨S100x64, .f32⟩
  | 5 => ⟨S64, .f32⟩
  | 6 => ⟨S64, .f32⟩
  | 7 => ⟨S64, .f32⟩
  | 8 => ⟨S64, .f32⟩
  | 9 => ⟨S64, .f32⟩
  | 10 => ⟨S64x64, .f32⟩
  | 11 => ⟨S64, .f32⟩
  | 12 => ⟨S64, .f32⟩
  | 13 => ⟨S64, .f32⟩
  | 14 => ⟨S64, .f32⟩
  | 15 => ⟨S64, .f32⟩
  | 16 => ⟨S64x64, .f32⟩
  | 17 => ⟨S64, .f32⟩
  | 18 => ⟨S64, .f32⟩
  | 19 => ⟨S64, .f32⟩
  | 20 => ⟨S64, .f32⟩
  | 21 => ⟨S64, .f32⟩
  | 22 => ⟨S1600000, .f32⟩
  | 23 => ⟨S100000, .i32⟩
  | 24 => ⟨S1x1600000, .i32⟩
  | 25 => ⟨S1600000, .i32⟩
  | 26 => ⟨S1700000, .i32⟩
  | 27 => ⟨S1x1600000, .i32⟩
  | 28 => ⟨S1600000, .i32⟩
  | 29 => ⟨S1700000, .i32⟩
  | 30 => ⟨S_, .f32⟩
  | 31 => ⟨S100000, .f32⟩
  | 32 => ⟨S1700000, .f32⟩
  | 33 => ⟨S_, .f32⟩
  | 34 => ⟨S100000, .f32⟩
  | 35 => ⟨S1700000x1, .i32⟩
  | 36 => ⟨S100000, .f32⟩
  | 37 => ⟨S_, .f32⟩
  | 38 => ⟨S100000, .f32⟩
  | 39 => ⟨S100000, .i1⟩
  | 40 => ⟨S100000, .f32⟩
  | 41 => ⟨S_, .f32⟩
  | 42 => ⟨S_, .f32⟩
  | 43 => ⟨S100000, .f32⟩
  | 44 => ⟨S100000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000, .f32⟩
  | 64 => ⟨S1700000, .f32⟩
  | 65 => ⟨S100000x64, .f32⟩
  | 66 => ⟨S_, .i32⟩
  | 67 => ⟨S1700000, .i32⟩
  | 68 => ⟨S1700000, .i1⟩
  | 69 => ⟨S_, .i32⟩
  | 70 => ⟨S1700000, .i32⟩
  | 71 => ⟨S1700000, .i32⟩
  | 72 => ⟨S1700000, .i32⟩
  | 73 => ⟨S1700000x1, .i32⟩
  | 74 => ⟨S1700000x64, .f32⟩
  | 75 => ⟨S1700000x1, .f32⟩
  | 76 => ⟨S1700000x64, .f32⟩
  | 77 => ⟨S1700000x64, .f32⟩
  | 78 => ⟨S_, .f32⟩
  | 79 => ⟨S100000x64, .f32⟩
  | 80 => ⟨S1700000x1, .i32⟩
  | 81 => ⟨S100000x64, .f32⟩
  | 82 => ⟨S1x64, .f32⟩
  | 83 => ⟨S1x64, .f32⟩
  | 84 => ⟨S1x64, .f32⟩
  | 85 => ⟨S1x64, .f32⟩
  | 86 => ⟨S1x64, .f32⟩
  | 87 => ⟨S100000x64, .f32⟩
  | 88 => ⟨S100000x64, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S1700000x64, .f32⟩
  | 98 => ⟨S1700000x1, .f32⟩
  | 99 => ⟨S1700000x64, .f32⟩
  | 100 => ⟨S1700000x64, .f32⟩
  | 101 => ⟨S_, .f32⟩
  | 102 => ⟨S100000x64, .f32⟩
  | 103 => ⟨S1700000x1, .i32⟩
  | 104 => ⟨S100000x64, .f32⟩
  | 105 => ⟨S1x64, .f32⟩
  | 106 => ⟨S1x64, .f32⟩
  | 107 => ⟨S1x64, .f32⟩
  | 108 => ⟨S1x64, .f32⟩
  | 109 => ⟨S1x64, .f32⟩
  | 110 => ⟨S100000x64, .f32⟩
  | 111 => ⟨S100000x64, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x64, .f32⟩
  | 121 => ⟨S1700000x1, .f32⟩
  | 122 => ⟨S1700000x64, .f32⟩
  | 123 => ⟨S1700000x64, .f32⟩
  | 124 => ⟨S_, .f32⟩
  | 125 => ⟨S100000x64, .f32⟩
  | 126 => ⟨S1700000x1, .i32⟩
  | 127 => ⟨S100000x64, .f32⟩
  | _ => ⟨S100000x100, .f32⟩

abbrev hbmTy0_1 (i : Nat) : BufTy := match i % 128 with
  | 0 => ⟨S1x64, .f32⟩
  | 1 => ⟨S1x64, .f32⟩
  | 2 => ⟨S1x64, .f32⟩
  | 3 => ⟨S1x64, .f32⟩
  | 4 => ⟨S1x64, .f32⟩
  | 5 => ⟨S100000x64, .f32⟩
  | 6 => ⟨S100000x1, .i32⟩
  | 7 => ⟨S1024x64, .f32⟩
  | 8 => ⟨S1000x64, .f32⟩
  | 9 => ⟨S_, .f32⟩
  | 10 => ⟨S100000, .f32⟩
  | 11 => ⟨S_, .f32⟩
  | 12 => ⟨S1000, .f32⟩
  | 13 => ⟨S100000x1, .i32⟩
  | 14 => ⟨S1000, .f32⟩
  | 15 => ⟨S_, .f32⟩
  | 16 => ⟨S1000, .f32⟩
  | 17 => ⟨S1000, .f32⟩
  | 18 => ⟨S1000x1, .f32⟩
  | 19 => ⟨S1000x64, .f32⟩
  | 20 => ⟨S1000x64, .f32⟩
  | 21 => ⟨S1000x128, .f32⟩
  | _ => ⟨S100000x100, .f32⟩

abbrev hbmTy (i : Nat) : BufTy := match i / 128 with
  | 0 => hbmTy0_0 i
  | 1 => hbmTy0_1 i
  | _ => ⟨S100000x100, .f32⟩

abbrev bufTy : (tb : Table) → Fin (tcTables nBuf tb) → BufTy
  | .hbm, ⟨i, _⟩ => hbmTy i
  | .local _ .vmem, ⟨0, _⟩ => ⟨S5000x100, .f32⟩
  | .local _ .vmem, ⟨1, _⟩ => ⟨S5000x100, .f32⟩
  | .local _ .vmem, ⟨2, _⟩ => ⟨S100x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S1x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S1x64, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S2000x64, .f32⟩
  | .local _ .vmem, ⟨43, _⟩ => ⟨S2000x64, .f32⟩
  | .local _ .vmem, ⟨44, _⟩ => ⟨S2000x1, .i32⟩
  | .local _ .vmem, ⟨45, _⟩ => ⟨S2000x1, .i32⟩
  | .local _ .vmem, ⟨46, _⟩ => ⟨S1024x64, .f32⟩
  | _, _ => ⟨S100000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_cst_0 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_1 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_2 : Ref sig .tc := ⟨.hbm, 41, rfl⟩
abbrev main_call0_v0 : Ref sig .tc := ⟨.hbm, 42, rfl⟩
abbrev main_call0_v1 : Ref sig .tc := ⟨.hbm, 43, rfl⟩
abbrev main_v16 : Ref sig .tc := ⟨.hbm, 44, rfl⟩
abbrev main_c : Ref sig .tc := ⟨.hbm, 45, rfl⟩
abbrev main_v17 : Ref sig .tc := ⟨.hbm, 46, rfl⟩
abbrev main_v18 : Ref sig .tc := ⟨.hbm, 47, rfl⟩
abbrev main_c_3 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_c_4 : Ref sig .tc := ⟨.hbm, 55, rfl⟩
abbrev main_v25 : Ref sig .tc := ⟨.hbm, 56, rfl⟩
abbrev main_v26 : Ref sig .tc := ⟨.hbm, 57, rfl⟩
abbrev main_c_5 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_c_6 : Ref sig .tc := ⟨.hbm, 66, rfl⟩
abbrev main_v34 : Ref sig .tc := ⟨.hbm, 67, rfl⟩
abbrev main_v35 : Ref sig .tc := ⟨.hbm, 68, rfl⟩
abbrev main_c_7 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_8 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_c_9 : Ref sig .tc := ⟨.hbm, 89, rfl⟩
abbrev main_v54 : Ref sig .tc := ⟨.hbm, 90, rfl⟩
abbrev main_v55 : Ref sig .tc := ⟨.hbm, 91, rfl⟩
abbrev main_c_10 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_11 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_c_12 : Ref sig .tc := ⟨.hbm, 112, rfl⟩
abbrev main_v74 : Ref sig .tc := ⟨.hbm, 113, rfl⟩
abbrev main_v75 : Ref sig .tc := ⟨.hbm, 114, rfl⟩
abbrev main_c_13 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_14 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_15 : Ref sig .tc := ⟨.hbm, 137, rfl⟩
abbrev main_v96 : Ref sig .tc := ⟨.hbm, 138, rfl⟩
abbrev main_cst_16 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_17 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg5_0 : Ref sig .tc := ⟨.vmem, 39, rfl⟩
abbrev cc5_stg6_0 : Ref sig .tc := ⟨.vmem, 40, rfl⟩
abbrev cc5_stg6_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem4_0 : DmaSem sig := 38
abbrev cc5_sem5_0 : DmaSem sig := 39
abbrev cc5_sem6_0 : DmaSem sig := 40
abbrev cc5_sem6_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1024x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x100_S5000x100_0_0 : ∀ a, (![0, 0] : Fin 2 → Nat) a + S5000x100.size a ≤ S5000x100.size a
  h_S5000x100 : 0 < S5000x100.numel
  bitsLt_bf16_f32 : FTy.bits .bf16 < FTy.bits .f32
  inb_S100x64_S100x64_0_0 : ∀ a, (![0, 0] : Fin 2 → Nat) a + S100x64.size a ≤ S100x64.size a
  h_S100x64 : 0 < S100x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S100000_S100000x1 : S100000.ShapeCasts S100000x1
  inb_S1024x64_S1024x64_0_0 : ∀ a, (![0, 0] : Fin 2 → Nat) a + S1024x64.size a ≤ S1024x64.size a
  h_S1024x64 : 0 < S1024x64.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x1024_d1_w32 : S2000x1024.Iotas .tc 32 [1]
  broadcasts_S2000x1_S2000x1024 : S2000x1.Broadcasts S2000x1024
  natLt_1_32 : 1 < 32
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  shapeCasts_S1024x64_S1024x64 : S1024x64.ShapeCasts S1024x64
  slices_S1024x64_S1000x64_0_0 : S1024x64.Slices ![0, 0] S1000x64
  bcast_S_S1000 : S_.BroadcastsInDim S1000 (![] : Fin 0 → Fin S1000.rank)
  bcast_S100000_S100000x1_0 : S100000.BroadcastsInDim S100000x1 (![0] : Fin 1 → Fin S100000x1.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  concatenates_S1000x64_S1000x64_S1000x128_d1 : Shape.Concatenates [S1000x64, S1000x64] S1000x128 1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x100_S100x64_S5000x64_1_0_0_1_n_n_wf : DotDims.WF S5000x100 S100x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  dot_S2000x1024_S2000x64_S1024x64_0_0_1_1_n_n_wf : DotDims.WF S2000x1024 S2000x64 S1024x64 [0] [0] [1] [1] [] []
  scatter_S1000_S100000x1_S100000_n_0_0_1_wf : ScatterDims.WF S1000 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x100.size a ≤ S100000x100.size a
  hwx0_0 : ∀ i : grid0.Coords, EltTy.bits .f32 = 32 ∨ (Rect.block (s := S100000x100) S5000x100.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x64.size a ≤ S100x64.size a
  hwx0_1 : ∀ i : grid0.Coords, EltTy.bits .f32 = 32 ∨ (Rect.block (s := S100x64) S100x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x64.size a ≤ S1x64.size a
  hwx5_5 : ∀ i : grid5.Coords, EltTy.bits .f32 = 32 ∨ (Rect.block (s := S1x64) S1x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x64.size a ≤ S100000x64.size a
  hwx5_6 : ∀ i : grid5.Coords, EltTy.bits .f32 = 32 ∨ (Rect.block (s := S100000x64) S5000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S100000x64.size a
  hwx6_0 : ∀ i : grid6.Coords, EltTy.bits .f32 = 32 ∨ (Rect.block (s := S100000x64) S2000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S100000x1.size a
  hwx6_1 : ∀ i : grid6.Coords, EltTy.bits .i32 = 32 ∨ (Rect.block (s := S100000x1) S2000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1024x64.size a ≤ S1024x64.size a
  hwx6_2 : ∀ i : grid6.Coords, EltTy.bits .f32 = 32 ∨ (Rect.block (s := S1024x64) S1024x64.size (cc6_transform_2 i) (hinb6_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x100_S100x64_S5000x64_1_0_0_1_n_n : DotDims S5000x100 S100x64 S5000x64 where
  lhsContracting := [1]
  rhsContracting := [0]
  lhsNonContracting := [0]
  rhsNonContracting := [1]
  lhsBatch := []
  rhsBatch := []
  wf := dot_S5000x100_S100x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S2000x1024_S2000x64_S1024x64_0_0_1_1_n_n : DotDims S2000x1024 S2000x64 S1024x64 where
  lhsContracting := [0]
  rhsContracting := [0]
  lhsNonContracting := [1]
  rhsNonContracting := [1]
  lhsBatch := []
  rhsBatch := []
  wf := dot_S2000x1024_S2000x64_S1024x64_0_0_1_1_n_n_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf

abbrev win0_0 : Pipeline.Window sig grid0 :=
  Pipeline.Window.ofSpec (Memref.whole main_arg0) S5000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S100x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v52) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v52) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v66) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v68) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v69) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v70) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v71) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v72) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v72) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg16) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v73) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v86) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v87) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v88) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v89) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v90) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v91) S1x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v92) S5000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v92) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v93) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v94) S1024x64.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x100 : Shape := ⟨2, ![100000, 100]⟩
abbrev S2x1600000 : Shape := ⟨2, ![2, 1600000]⟩
abbrev S1600000 : Shape := ⟨1, ![1600000]⟩
abbrev S100000 : Shape := ⟨1, ![100000]⟩
abbrev S100x64 : Shape := ⟨2, ![100, 64]⟩
abbrev S64 : Shape := ⟨1, ![64]⟩
abbrev S64x64 : Shape := ⟨2, ![64, 64]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S1000x64 : Shape := ⟨2, ![1000, 64]⟩
abbrev S100000x1 : Shape := ⟨2, ![100000, 1]⟩
abbrev S1000 : Shape := ⟨1, ![1000]⟩
abbrev S1000x1 : Shape := ⟨2, ![1000, 1]⟩
abbrev S1000x128 : Shape := ⟨2, ![1000, 128]⟩

abbrev nBuf : Space → Nat
  | .hbm => 263
  | .vmem => 0
  | .smem => 0
  | _ => 0

abbrev hbmTy0_0 (i : Nat) : BufTy := match i % 128 with
  | 0 => ⟨S100000x100, .f32⟩
  | 1 => ⟨S2x1600000, .i32⟩
  | 2 => ⟨S1600000, .f32⟩
  | 3 => ⟨S100000, .i32⟩
  | 4 => ⟨S100x64, .f32⟩
  | 5 => ⟨S64, .f32⟩
  | 6 => ⟨S64, .f32⟩
  | 7 => ⟨S64, .f32⟩
  | 8 => ⟨S64, .f32⟩
  | 9 => ⟨S64, .f32⟩
  | 10 => ⟨S64x64, .f32⟩
  | 11 => ⟨S64, .f32⟩
  | 12 => ⟨S64, .f32⟩
  | 13 => ⟨S64, .f32⟩
  | 14 => ⟨S64, .f32⟩
  | 15 => ⟨S64, .f32⟩
  | 16 => ⟨S64x64, .f32⟩
  | 17 => ⟨S64, .f32⟩
  | 18 => ⟨S64, .f32⟩
  | 19 => ⟨S64, .f32⟩
  | 20 => ⟨S64, .f32⟩
  | 21 => ⟨S64, .f32⟩
  | 22 => ⟨S1600000, .f32⟩
  | 23 => ⟨S100000, .i32⟩
  | 24 => ⟨S1x1600000, .i32⟩
  | 25 => ⟨S1600000, .i32⟩
  | 26 => ⟨S1700000, .i32⟩
  | 27 => ⟨S1x1600000, .i32⟩
  | 28 => ⟨S1600000, .i32⟩
  | 29 => ⟨S1700000, .i32⟩
  | 30 => ⟨S_, .f32⟩
  | 31 => ⟨S100000, .f32⟩
  | 32 => ⟨S1700000, .f32⟩
  | 33 => ⟨S_, .f32⟩
  | 34 => ⟨S100000, .f32⟩
  | 35 => ⟨S1700000x1, .i32⟩
  | 36 => ⟨S100000, .f32⟩
  | 37 => ⟨S_, .f32⟩
  | 38 => ⟨S100000, .f32⟩
  | 39 => ⟨S100000, .i1⟩
  | 40 => ⟨S100000, .f32⟩
  | 41 => ⟨S_, .f32⟩
  | 42 => ⟨S_, .f32⟩
  | 43 => ⟨S100000, .f32⟩
  | 44 => ⟨S100000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000, .f32⟩
  | 64 => ⟨S1700000, .f32⟩
  | 65 => ⟨S100000x64, .f32⟩
  | 66 => ⟨S1700000x1, .f32⟩
  | 67 => ⟨S_, .i32⟩
  | 68 => ⟨S1700000, .i32⟩
  | 69 => ⟨S1700000, .i1⟩
  | 70 => ⟨S_, .i32⟩
  | 71 => ⟨S1700000, .i32⟩
  | 72 => ⟨S1700000, .i32⟩
  | 73 => ⟨S1700000, .i32⟩
  | 74 => ⟨S1700000x1, .i32⟩
  | 75 => ⟨S1700000x64, .f32⟩
  | 76 => ⟨S1700000x64, .f32⟩
  | 77 => ⟨S1700000x64, .f32⟩
  | 78 => ⟨S_, .f32⟩
  | 79 => ⟨S100000x64, .f32⟩
  | 80 => ⟨S1700000x1, .i32⟩
  | 81 => ⟨S100000x64, .f32⟩
  | 82 => ⟨S1x64, .f32⟩
  | 83 => ⟨S100000x64, .f32⟩
  | 84 => ⟨S100000x64, .f32⟩
  | 85 => ⟨S1x64, .f32⟩
  | 86 => ⟨S100000x64, .f32⟩
  | 87 => ⟨S100000x64, .f32⟩
  | 88 => ⟨S_, .f32⟩
  | 89 => ⟨S64, .f32⟩
  | 90 => ⟨S64, .f32⟩
  | 91 => ⟨S64, .f32⟩
  | 92 => ⟨S1x64, .f32⟩
  | 93 => ⟨S100000x64, .f32⟩
  | 94 => ⟨S100000x64, .f32⟩
  | 95 => ⟨S1x64, .f32⟩
  | 96 => ⟨S100000x64, .f32⟩
  | 97 => ⟨S100000x64, .f32⟩
  | 98 => ⟨S1x64, .f32⟩
  | 99 => ⟨S100000x64, .f32⟩
  | 100 => ⟨S100000x64, .f32⟩
  | 101 => ⟨S_, .f32⟩
  | 102 => ⟨S100000x64, .f32⟩
  | 103 => ⟨S100000x64, .f32⟩
  | 104 => ⟨S_, .f32⟩
  | 105 => ⟨S100000, .f32⟩
  | 106 => ⟨S1700000x1, .i32⟩
  | 107 => ⟨S100000, .f32⟩
  | 108 => ⟨S_, .f32⟩
  | 109 => ⟨S100000, .f32⟩
  | 110 => ⟨S100000, .i1⟩
  | 111 => ⟨S100000, .f32⟩
  | 112 => ⟨S_, .f32⟩
  | 113 => ⟨S_, .f32⟩
  | 114 => ⟨S100000, .f32⟩
  | 115 => ⟨S100000, .f32⟩
  | 116 => ⟨S_, .i32⟩
  | 117 => ⟨S1700000, .i32⟩
  | 118 => ⟨S1700000, .i1⟩
  | 119 => ⟨S_, .i32⟩
  | 120 => ⟨S1700000, .i32⟩
  | 121 => ⟨S1700000, .i32⟩
  | 122 => ⟨S1700000, .i32⟩
  | 123 => ⟨S1700000x1, .i32⟩
  | 124 => ⟨S1700000, .f32⟩
  | 125 => ⟨S1700000, .f32⟩
  | 126 => ⟨S_, .i32⟩
  | 127 => ⟨S1700000, .i32⟩
  | _ => ⟨S100000x100, .f32⟩

abbrev hbmTy0_1 (i : Nat) : BufTy := match i % 128 with
  | 0 => ⟨S1700000, .i1⟩
  | 1 => ⟨S_, .i32⟩
  | 2 => ⟨S1700000, .i32⟩
  | 3 => ⟨S1700000, .i32⟩
  | 4 => ⟨S1700000, .i32⟩
  | 5 => ⟨S1700000x1, .i32⟩
  | 6 => ⟨S1700000, .f32⟩
  | 7 => ⟨S1700000, .f32⟩
  | 8 => ⟨S100000x64, .f32⟩
  | 9 => ⟨S1700000x1, .f32⟩
  | 10 => ⟨S_, .i32⟩
  | 11 => ⟨S1700000, .i32⟩
  | 12 => ⟨S1700000, .i1⟩
  | 13 => ⟨S_, .i32⟩
  | 14 => ⟨S1700000, .i32⟩
  | 15 => ⟨S1700000, .i32⟩
  | 16 => ⟨S1700000, .i32⟩
  | 17 => ⟨S1700000x1, .i32⟩
  | 18 => ⟨S1700000x64, .f32⟩
  | 19 => ⟨S1700000x64, .f32⟩
  | 20 => ⟨S1700000x64, .f32⟩
  | 21 => ⟨S_, .f32⟩
  | 22 => ⟨S100000x64, .f32⟩
  | 23 => ⟨S1700000x1, .i32⟩
  | 24 => ⟨S100000x64, .f32⟩
  | 25 => ⟨S1x64, .f32⟩
  | 26 => ⟨S100000x64, .f32⟩
  | 27 => ⟨S100000x64, .f32⟩
  | 28 => ⟨S1x64, .f32⟩
  | 29 => ⟨S100000x64, .f32⟩
  | 30 => ⟨S100000x64, .f32⟩
  | 31 => ⟨S_, .f32⟩
  | 32 => ⟨S64, .f32⟩
  | 33 => ⟨S64, .f32⟩
  | 34 => ⟨S64, .f32⟩
  | 35 => ⟨S1x64, .f32⟩
  | 36 => ⟨S100000x64, .f32⟩
  | 37 => ⟨S100000x64, .f32⟩
  | 38 => ⟨S1x64, .f32⟩
  | 39 => ⟨S100000x64, .f32⟩
  | 40 => ⟨S100000x64, .f32⟩
  | 41 => ⟨S1x64, .f32⟩
  | 42 => ⟨S100000x64, .f32⟩
  | 43 => ⟨S100000x64, .f32⟩
  | 44 => ⟨S_, .f32⟩
  | 45 => ⟨S100000x64, .f32⟩
  | 46 => ⟨S100000x64, .f32⟩
  | 47 => ⟨S_, .f32⟩
  | 48 => ⟨S100000, .f32⟩
  | 49 => ⟨S1700000x1, .i32⟩
  | 50 => ⟨S100000, .f32⟩
  | 51 => ⟨S_, .f32⟩
  | 52 => ⟨S100000, .f32⟩
  | 53 => ⟨S100000, .i1⟩
  | 54 => ⟨S100000, .f32⟩
  | 55 => ⟨S_, .f32⟩
  | 56 => ⟨S_, .f32⟩
  | 57 => ⟨S100000, .f32⟩
  | 58 => ⟨S100000, .f32⟩
  | 59 => ⟨S_, .i32⟩
  | 60 => ⟨S1700000, .i32⟩
  | 61 => ⟨S1700000, .i1⟩
  | 62 => ⟨S_, .i32⟩
  | 63 => ⟨S1700000, .i32⟩
  | 64 => ⟨S1700000, .i32⟩
  | 65 => ⟨S1700000, .i32⟩
  | 66 => ⟨S1700000x1, .i32⟩
  | 67 => ⟨S1700000, .f32⟩
  | 68 => ⟨S1700000, .f32⟩
  | 69 => ⟨S_, .i32⟩
  | 70 => ⟨S1700000, .i32⟩
  | 71 => ⟨S1700000, .i1⟩
  | 72 => ⟨S_, .i32⟩
  | 73 => ⟨S1700000, .i32⟩
  | 74 => ⟨S1700000, .i32⟩
  | 75 => ⟨S1700000, .i32⟩
  | 76 => ⟨S1700000x1, .i32⟩
  | 77 => ⟨S1700000, .f32⟩
  | 78 => ⟨S1700000, .f32⟩
  | 79 => ⟨S100000x64, .f32⟩
  | 80 => ⟨S1700000x1, .f32⟩
  | 81 => ⟨S_, .i32⟩
  | 82 => ⟨S1700000, .i32⟩
  | 83 => ⟨S1700000, .i1⟩
  | 84 => ⟨S_, .i32⟩
  | 85 => ⟨S1700000, .i32⟩
  | 86 => ⟨S1700000, .i32⟩
  | 87 => ⟨S1700000, .i32⟩
  | 88 => ⟨S1700000x1, .i32⟩
  | 89 => ⟨S1700000x64, .f32⟩
  | 90 => ⟨S1700000x64, .f32⟩
  | 91 => ⟨S1700000x64, .f32⟩
  | 92 => ⟨S_, .f32⟩
  | 93 => ⟨S100000x64, .f32⟩
  | 94 => ⟨S1700000x1, .i32⟩
  | 95 => ⟨S100000x64, .f32⟩
  | 96 => ⟨S1x64, .f32⟩
  | 97 => ⟨S100000x64, .f32⟩
  | 98 => ⟨S100000x64, .f32⟩
  | 99 => ⟨S1x64, .f32⟩
  | 100 => ⟨S100000x64, .f32⟩
  | 101 => ⟨S100000x64, .f32⟩
  | 102 => ⟨S_, .f32⟩
  | 103 => ⟨S64, .f32⟩
  | 104 => ⟨S64, .f32⟩
  | 105 => ⟨S64, .f32⟩
  | 106 => ⟨S1x64, .f32⟩
  | 107 => ⟨S100000x64, .f32⟩
  | 108 => ⟨S100000x64, .f32⟩
  | 109 => ⟨S1x64, .f32⟩
  | 110 => ⟨S100000x64, .f32⟩
  | 111 => ⟨S100000x64, .f32⟩
  | 112 => ⟨S1x64, .f32⟩
  | 113 => ⟨S100000x64, .f32⟩
  | 114 => ⟨S100000x64, .f32⟩
  | 115 => ⟨S_, .f32⟩
  | 116 => ⟨S100000x64, .f32⟩
  | 117 => ⟨S100000x64, .f32⟩
  | 118 => ⟨S_, .f32⟩
  | 119 => ⟨S1000x64, .f32⟩
  | 120 => ⟨S100000x1, .i32⟩
  | 121 => ⟨S1000x64, .f32⟩
  | 122 => ⟨S_, .f32⟩
  | 123 => ⟨S100000, .f32⟩
  | 124 => ⟨S_, .f32⟩
  | 125 => ⟨S1000, .f32⟩
  | 126 => ⟨S100000x1, .i32⟩
  | 127 => ⟨S1000, .f32⟩
  | _ => ⟨S100000x100, .f32⟩

abbrev hbmTy0_2 (i : Nat) : BufTy := match i % 128 with
  | 0 => ⟨S_, .f32⟩
  | 1 => ⟨S1000, .f32⟩
  | 2 => ⟨S1000, .f32⟩
  | 3 => ⟨S1000x1, .f32⟩
  | 4 => ⟨S1000x64, .f32⟩
  | 5 => ⟨S1000x64, .f32⟩
  | 6 => ⟨S1000x128, .f32⟩
  | _ => ⟨S100000x100, .f32⟩

abbrev hbmTy (i : Nat) : BufTy := match i / 128 with
  | 0 => hbmTy0_0 i
  | 1 => hbmTy0_1 i
  | 2 => hbmTy0_2 i
  | _ => ⟨S100000x100, .f32⟩

abbrev bufTy : (tb : Table) → Fin (tcTables nBuf tb) → BufTy
  | .hbm, ⟨i, _⟩ => hbmTy i
  | _, _ => ⟨S100000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_v9 : Ref sig .tc := ⟨.hbm, 32, rfl⟩
abbrev main_cst_0 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst_1 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_2 : Ref sig .tc := ⟨.hbm, 41, rfl⟩
abbrev main_call0_v0 : Ref sig .tc := ⟨.hbm, 42, rfl⟩
abbrev main_call0_v1 : Ref sig .tc := ⟨.hbm, 43, rfl⟩
abbrev main_v16 : Ref sig .tc := ⟨.hbm, 44, rfl⟩
abbrev main_c : Ref sig .tc := ⟨.hbm, 45, rfl⟩
abbrev main_v17 : Ref sig .tc := ⟨.hbm, 46, rfl⟩
abbrev main_v18 : Ref sig .tc := ⟨.hbm, 47, rfl⟩
abbrev main_c_3 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_c_4 : Ref sig .tc := ⟨.hbm, 55, rfl⟩
abbrev main_v25 : Ref sig .tc := ⟨.hbm, 56, rfl⟩
abbrev main_v26 : Ref sig .tc := ⟨.hbm, 57, rfl⟩
abbrev main_c_5 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_c_6 : Ref sig .tc := ⟨.hbm, 67, rfl⟩
abbrev main_v35 : Ref sig .tc := ⟨.hbm, 68, rfl⟩
abbrev main_v36 : Ref sig .tc := ⟨.hbm, 69, rfl⟩
abbrev main_c_7 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_8 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_9 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_call1_cst : Ref sig .tc := ⟨.hbm, 101, rfl⟩
abbrev main_call1_v0 : Ref sig .tc := ⟨.hbm, 102, rfl⟩
abbrev main_v65 : Ref sig .tc := ⟨.hbm, 103, rfl⟩
abbrev main_cst_10 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_11 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_cst_12 : Ref sig .tc := ⟨.hbm, 112, rfl⟩
abbrev main_call2_v0 : Ref sig .tc := ⟨.hbm, 113, rfl⟩
abbrev main_call2_v1 : Ref sig .tc := ⟨.hbm, 114, rfl⟩
abbrev main_v72 : Ref sig .tc := ⟨.hbm, 115, rfl⟩
abbrev main_c_13 : Ref sig .tc := ⟨.hbm, 116, rfl⟩
abbrev main_v73 : Ref sig .tc := ⟨.hbm, 117, rfl⟩
abbrev main_v74 : Ref sig .tc := ⟨.hbm, 118, rfl⟩
abbrev main_c_14 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_c_15 : Ref sig .tc := ⟨.hbm, 126, rfl⟩
abbrev main_v81 : Ref sig .tc := ⟨.hbm, 127, rfl⟩
abbrev main_v82 : Ref sig .tc := ⟨.hbm, 128, rfl⟩
abbrev main_c_16 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_c_17 : Ref sig .tc := ⟨.hbm, 138, rfl⟩
abbrev main_v91 : Ref sig .tc := ⟨.hbm, 139, rfl⟩
abbrev main_v92 : Ref sig .tc := ⟨.hbm, 140, rfl⟩
abbrev main_c_18 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_cst_19 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_cst_20 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_call3_cst : Ref sig .tc := ⟨.hbm, 172, rfl⟩
abbrev main_call3_v0 : Ref sig .tc := ⟨.hbm, 173, rfl⟩
abbrev main_v121 : Ref sig .tc := ⟨.hbm, 174, rfl⟩
abbrev main_cst_21 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_cst_22 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_cst_23 : Ref sig .tc := ⟨.hbm, 183, rfl⟩
abbrev main_call4_v0 : Ref sig .tc := ⟨.hbm, 184, rfl⟩
abbrev main_call4_v1 : Ref sig .tc := ⟨.hbm, 185, rfl⟩
abbrev main_v128 : Ref sig .tc := ⟨.hbm, 186, rfl⟩
abbrev main_c_24 : Ref sig .tc := ⟨.hbm, 187, rfl⟩
abbrev main_v129 : Ref sig .tc := ⟨.hbm, 188, rfl⟩
abbrev main_v130 : Ref sig .tc := ⟨.hbm, 189, rfl⟩
abbrev main_c_25 : Ref sig .tc := ⟨.hbm, 190, rfl⟩
abbrev main_v131 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_c_26 : Ref sig .tc := ⟨.hbm, 197, rfl⟩
abbrev main_v137 : Ref sig .tc := ⟨.hbm, 198, rfl⟩
abbrev main_v138 : Ref sig .tc := ⟨.hbm, 199, rfl⟩
abbrev main_c_27 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_c_28 : Ref sig .tc := ⟨.hbm, 209, rfl⟩
abbrev main_v147 : Ref sig .tc := ⟨.hbm, 210, rfl⟩
abbrev main_v148 : Ref sig .tc := ⟨.hbm, 211, rfl⟩
abbrev main_c_29 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_v152 : Ref sig .tc := ⟨.hbm, 216, rfl⟩
abbrev main_v153 : Ref sig .tc := ⟨.hbm, 217, rfl⟩
abbrev main_v154 : Ref sig .tc := ⟨.hbm, 218, rfl⟩
abbrev main_v155 : Ref sig .tc := ⟨.hbm, 219, rfl⟩
abbrev main_cst_30 : Ref sig .tc := ⟨.hbm, 220, rfl⟩
abbrev main_v156 : Ref sig .tc := ⟨.hbm, 221, rfl⟩
abbrev main_v157 : Ref sig .tc := ⟨.hbm, 222, rfl⟩
abbrev main_v158 : Ref sig .tc := ⟨.hbm, 223, rfl⟩
abbrev main_v159 : Ref sig .tc := ⟨.hbm, 224, rfl⟩
abbrev main_v160 : Ref sig .tc := ⟨.hbm, 225, rfl⟩
abbrev main_v161 : Ref sig .tc := ⟨.hbm, 226, rfl⟩
abbrev main_v162 : Ref sig .tc := ⟨.hbm, 227, rfl⟩
abbrev main_v163 : Ref sig .tc := ⟨.hbm, 228, rfl⟩
abbrev main_v164 : Ref sig .tc := ⟨.hbm, 229, rfl⟩
abbrev main_cst_31 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_call5_cst : Ref sig .tc := ⟨.hbm, 243, rfl⟩
abbrev main_call5_v0 : Ref sig .tc := ⟨.hbm, 244, rfl⟩
abbrev main_v177 : Ref sig .tc := ⟨.hbm, 245, rfl⟩
abbrev main_cst_32 : Ref sig .tc := ⟨.hbm, 246, rfl⟩
abbrev main_v178 : Ref sig .tc := ⟨.hbm, 247, rfl⟩
abbrev main_v179 : Ref sig .tc := ⟨.hbm, 248, rfl⟩
abbrev main_v180 : Ref sig .tc := ⟨.hbm, 249, rfl⟩
abbrev main_cst_33 : Ref sig .tc := ⟨.hbm, 250, rfl⟩
abbrev main_v181 : Ref sig .tc := ⟨.hbm, 251, rfl⟩
abbrev main_cst_34 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_cst_35 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S_S1000x64 : S_.BroadcastsInDim S1000x64 (![] : Fin 0 → Fin S1000x64.rank)
  bcast_S100000_S100000x1_0 : S100000.BroadcastsInDim S100000x1 (![0] : Fin 1 → Fin S100000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  concatenates_S1000x64_S1000x64_S1000x128_d1 : Shape.Concatenates [S1000x64, S1000x64] S1000x128 1
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x100_S100x64_S100000x64_1_0_0_1_n_n_wf : DotDims.WF S100000x100 S100x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  scatter_S1000x64_S100000x1_S100000x64_1_0_0_1_wf : ScatterDims.WF S1000x64 S100000x1 S100000x64 [1] [0] [0] 1
  scatter_S1000_S100000x1_S100000_n_0_0_1_wf : ScatterDims.WF S1000 S100000x1 S100000 [] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x100_S100x64_S100000x64_1_0_0_1_n_n : DotDims S100000x100 S100x64 S100000x64 where
  lhsContracting := [1]
  rhsContracting := [0]
  lhsNonContracting := [0]
  rhsNonContracting := [1]
  lhsBatch := []
  rhsBatch := []
  wf := dot_S100000x100_S100x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf

class Facts : Prop extends Facts₀ where

variable [Facts]
-- ==== Proof.Keep.lean ====
/-
  What each stretch of host operations and each region leaves untouched: a buffer none of them writes holds, at
  every later boundary, what it held before.  The argument arrays are written by nobody, so they read the launch
  memory at every boundary.
-/
import proofs.«431411_j11312943857689_1_alg».proof.Proof.Gen.KernelIdeal.Frame

set_option maxRecDepth 16384

noncomputable section

open Idealize.ShloMosaic Idealize.ShloMosaic.TcCoe Idealize.SL.Sem

namespace Cert.KernelIdeal.Keep

open Cert.KernelIdeal Cert.KernelIdeal.Gen

variable {F : FTy → Type} [FloatOps F]
variable (m : (ℓ : Loc nD τ sig) → Buf (Elt F) ℓ) (ρ : Dev nD → PrngReg)

/-! ## The buffers each host stretch writes -/

abbrev wr0 : List (Ref sig .tc) := [main_v0, main_v1, main_v2, main_v3, main_v4, main_v5, main_v6, main_v7, main_cst, main_v8, main_v9, main_cst_0, main_v10, main_v11, main_v12, main_cst_1, main_v13, main_v14, main_v15, main_cst_2]
theorem writes0 : (hostOps0 : List (HloOp τ sig (Elt F))).Forall fun op => op.writes ⊆ (wr0.map (Proc.devRef (τ := τ) .tc)).toFinset := by
  simp only [hostOps0, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev wr0_1 : List (Ref sig .tc) := [main_call0_v0, main_call0_v1, main_v16]
theorem writes0_1 : (hostOps0_1 : List (HloOp τ sig (Elt F))).Forall fun op => op.writes ⊆ (wr0_1.map (Proc.devRef (τ := τ) .tc)).toFinset := by
  simp only [hostOps0_1, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev wr0_2 : List (Ref sig .tc) := [main_c, main_v17, main_v18, main_c_3, main_v19, main_v20, main_v21, main_v22, main_v23, main_v24, main_c_4, main_v25, main_v26, main_c_5, main_v27, main_v28, main_v29, main_v30, main_v31, main_v32]
theorem writes0_2 : (hostOps0_2 : List (HloOp τ sig (Elt F))).Forall fun op => op.writes ⊆ (wr0_2.map (Proc.devRef (τ := τ) .tc)).toFinset := by
  simp only [hostOps0_2, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev wr1 : List (Ref sig .tc) := [main_c_6, main_v34, main_v35, main_c_7, main_v36, main_v37, main_v38, main_v39, main_v40, main_v41, main_v42, main_v43, main_cst_8, main_v44, main_v45, main_v46, main_v47, main_v48, main_v49, main_v50, main_v51]
theorem writes1 : (hostOps1 : List (HloOp τ sig (Elt F))).Forall fun op => op.writes ⊆ (wr1.map (Proc.devRef (τ := τ) .tc)).toFinset := by
  simp only [hostOps1, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev wr3 : List (Ref sig .tc) := [main_c_9, main_v54, main_v55, main_c_10, main_v56, main_v57, main_v58, main_v59, main_v60, main_v61, main_v62, main_v63, main_cst_11, main_v64, main_v65, main_v66, main_v67, main_v68, main_v69, main_v70, main_v71]
theorem writes3 : (hostOps3 : List (HloOp τ sig (Elt F))).Forall fun op => op.writes ⊆ (wr3.map (Proc.devRef (τ := τ) .tc)).toFinset := by
  simp only [hostOps3, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev wr5 : List (Ref sig .tc) := [main_c_12, main_v74, main_v75, main_c_13, main_v76, main_v77, main_v78, main_v79, main_v80, main_v81, main_v82, main_v83, main_cst_14, main_v84, main_v85, main_v86, main_v87, main_v88, main_v89, main_v90, main_v91]
theorem writes5 : (hostOps5 : List (HloOp τ sig (Elt F))).Forall fun op => op.writes ⊆ (wr5.map (Proc.devRef (τ := τ) .tc)).toFinset := by
  simp only [hostOps5, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev wr6 : List (Ref sig .tc) := [main_v93]
theorem writes6 : (hostOps6 : List (HloOp τ sig (Elt F))).Forall fun op => op.writes ⊆ (wr6.map (Proc.devRef (τ := τ) .tc)).toFinset := by
  simp only [hostOps6, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev wr7 : List (Ref sig .tc) := [main_v95, main_cst_15, main_v96, main_cst_16, main_v97, main_v98, main_v99, main_cst_17, main_v100, main_v101, main_v102, main_v103, main_v104, main_v105]
theorem writes7 : (hostOps7 : List (HloOp τ sig (Elt F))).Forall fun op => op.writes ⊆ (wr7.map (Proc.devRef (τ := τ) .tc)).toFinset := by
  simp only [hostOps7, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-! ## One step back through the boundaries -/

theorem W1_of (c : Dev nD) (r : Ref sig .tc) (h : r ∉ wr0) : W1 m ρ c (Proc.devRef .tc r) = m ((c : Thread nD τ).loc r) :=
  StableHlo.after_of_writes_sub hostOps0 _ writes0 h
theorem W2_of (c : Dev nD) (r : Ref sig .tc) (h : r ∉ wr0_1) : W2 m ρ c (Proc.devRef .tc r) = W1 m ρ c (Proc.devRef .tc r) :=
  StableHlo.after_of_writes_sub hostOps0_1 _ writes0_1 h
theorem W3_of (c : Dev nD) (r : Ref sig .tc) (h : r ∉ wr0_2) : W3 m ρ c (Proc.devRef .tc r) = W2 m ρ c (Proc.devRef .tc r) :=
  StableHlo.after_of_writes_sub hostOps0_2 _ writes0_2 h
theorem W5_of (c : Dev nD) (r : Ref sig .tc) (h : r ∉ wr1) : W5 m ρ c (Proc.devRef .tc r) = W4 m ρ c (Proc.devRef .tc r) :=
  StableHlo.after_of_writes_sub hostOps1 _ writes1 h
theorem W8_of (c : Dev nD) (r : Ref sig .tc) (h : r ∉ wr3) : W8 m ρ c (Proc.devRef .tc r) = W7 m ρ c (Proc.devRef .tc r) :=
  StableHlo.after_of_writes_sub hostOps3 _ writes3 h
theorem W11_of (c : Dev nD) (r : Ref sig .tc) (h : r ∉ wr5) : W11 m ρ c (Proc.devRef .tc r) = W10 m ρ c (Proc.devRef .tc r) :=
  StableHlo.after_of_writes_sub hostOps5 _ writes5 h
theorem W13_of (c : Dev nD) (r : Ref sig .tc) (h : r ∉ wr6) : W13 m ρ c (Proc.devRef .tc r) = W12 m ρ c (Proc.devRef .tc r) :=
  StableHlo.after_of_writes_sub hostOps6 _ writes6 h
theorem W15_of (c : Dev nD) (r : Ref sig .tc) (h : r ∉ wr7) : W15 m ρ c (Proc.devRef .tc r) = W14 m ρ c (Proc.devRef .tc r) :=
  StableHlo.after_of_writes_sub hostOps7 _ writes7 h

end Cert.KernelIdeal.Keep

end
-- ==== Proof.Mid.lean ====
/-
  The reference's computation in named pieces, at the ideal instance.

  Edges: the given 1.6 million (source, target) pairs followed by one self loop per node; weights: the absolute
  given weights followed by ones.  `deg` adds each edge's weight into its target node, `dinv` is deg^(-1/2)
  where deg > 0 and 0 elsewhere, and an edge's coefficient `norm` is dinv(source) · weight · dinv(target).
  One layer maps the node features h to  relu(BN(agg(h·W) + b)), where `agg` gathers the source node's row
  for every edge, scales it by the edge's coefficient and adds it into the target node's row.  The result is,
  per graph, the sum of its nodes' rows (`pool`) and that sum divided by max(node count, 1), side by side (`tail`).
-/
import proofs.«431411_j11312943857689_1_alg».proof.ReferenceIdeal
import proofs.«431411_j11312943857689_1_alg».proof.Proof.Gen.ReferenceIdeal
import Idealize.ShloMosaic.PureOps.Ideal

set_option maxRecDepth 16384

noncomputable section

open Idealize.ShloMosaic Idealize.ShloMosaic.TcCoe

namespace Cert.ReferenceIdeal.Mid

open Cert.ReferenceIdeal Cert.ReferenceIdeal.Gen

/-- Edge sources: row 0 of the pair array, then every node once. -/
def row (x1 : IVec S2x1600000 32) : IVec S1700000 32 :=
  concatenate S1700000 0 [⟨S1600000, (shapeCast _ (extractStridedSlice S1x1600000 ![0, 0] x1 slices_S2x1600000_S1x1600000_0_0) shapeCasts_S1x1600000_S1600000)⟩, ⟨S100000, (iotaInDim S100000 32 0)⟩] concatenates_S1600000_S100000_S1700000_d0

/-- Edge targets: row 1 of the pair array, then every node once. -/
def col (x1 : IVec S2x1600000 32) : IVec S1700000 32 :=
  concatenate S1700000 0 [⟨S1600000, (shapeCast _ (extractStridedSlice S1x1600000 ![1, 0] x1 slices_S2x1600000_S1x1600000_1_0) shapeCasts_S1x1600000_S1600000)⟩, ⟨S100000, (iotaInDim S100000 32 0)⟩] concatenates_S1600000_S100000_S1700000_d0

/-- Edge weights: the absolute given weights, then a one for every self loop. -/
def wts (x2 : FVec Ideal S1600000 .f32) : FVec Ideal S1700000 .f32 :=
  concatenate S1700000 0 [⟨S1600000, (Host.absf x2)⟩, ⟨S100000, (broadcastInDim S100000 ![] bcast_S_S100000 (constant S_ .f32 0x3F800000#32))⟩] concatenates_S1600000_S100000_S1700000_d0

/-- An index vector as one column, the form a gather or scatter takes its indices in. -/
abbrev asCol (ix : IVec S1700000 32) : IVec S1700000x1 32 :=
  broadcastInDim S1700000x1 ![0] bcast_S1700000_S1700000x1_0 ix

/-- Python's negative-index convention for a gather: a negative word has the node count added. -/
abbrev wrap (ix : IVec S1700000 32) : IVec S1700000 32 :=
  select (cmpi .slt ix (broadcastInDim S1700000 ![] bcast_S_S1700000 (constantI S_ 32 0#32)))
    (addi ix (broadcastInDim S1700000 ![] bcast_S_S1700000 (constantI S_ 32 100000#32))) ix

/-- Weighted in-degree of every node. -/
def deg (x1 : IVec S2x1600000 32) (x2 : FVec Ideal S1600000 .f32) : FVec Ideal S100000 .f32 :=
  Host.scatterAdd scatter_S100000_S1700000x1_S1700000_n_0_0_1 (broadcastInDim S100000 ![] bcast_S_S100000 (constant S_ .f32 0x00000000#32)) (asCol (col x1)) (wts x2)

/-- deg^(-1/2) where the degree is positive, zero elsewhere. -/
def dinv (x1 : IVec S2x1600000 32) (x2 : FVec Ideal S1600000 .f32) : FVec Ideal S100000 .f32 :=
  select (cmpf .ogt (deg x1 x2) (broadcastInDim S100000 ![] bcast_S_S100000 (constant S_ .f32 0x00000000#32)))
    (Host.rsqrt (deg x1 x2)) (broadcastInDim S100000 ![] bcast_S_S100000 (id (constant S_ .f32 0x00000000#32)))

/-- The symmetric normalisation coefficient of every edge. -/
def norm (x1 : IVec S2x1600000 32) (x2 : FVec Ideal S1600000 .f32) : FVec Ideal S1700000 .f32 :=
  mulf (mulf (Host.gather gather_S100000_S1700000x1_S1700000_n_0_n_n_0_1_1 (dinv x1 x2) (asCol (wrap (row x1)))) (wts x2))
    (Host.gather gather_S100000_S1700000x1_S1700000_n_0_n_n_0_1_1 (dinv x1 x2) (asCol (wrap (col x1))))

/-- The sparse aggregation of projected node rows `xw`: for every edge the source's row times the edge's
    coefficient, added into the target's row. -/
def agg (x1 : IVec S2x1600000 32) (x2 : FVec Ideal S1600000 .f32) (xw : FVec Ideal S100000x64 .f32) :
    FVec Ideal S100000x64 .f32 :=
  Host.scatterAdd scatter_S100000x64_S1700000x1_S1700000x64_1_0_0_1 (broadcastInDim S100000x64 ![] bcast_S_S100000x64 (constant S_ .f32 0x00000000#32)) (asCol (col x1))
    (mulf (broadcastInDim S1700000x64 ![0, 1] bcast_S1700000x1_S1700000x64_0_1 (broadcastInDim S1700000x1 ![0] bcast_S1700000_S1700000x1_0 (norm x1 x2)))
      (Host.gather gather_S100000x64_S1700000x1_S1700000x64_1_0_n_n_0_1_164 xw (asCol (wrap (row x1)))))

/-- A length-64 parameter repeated down the 100000 rows. -/
abbrev rows (v : FVec Ideal S64 .f32) : FVec Ideal S100000x64 .f32 :=
  broadcastInDim S100000x64 ![0, 1] bcast_S1x64_S100000x64_0_1 (broadcastInDim S1x64 ![1] bcast_S64_S1x64_1 v)

/-- Bias, batch normalisation (inference form) and relu of an aggregate. -/
def act (a : FVec Ideal S100000x64 .f32) (b g β μ v : FVec Ideal S64 .f32) : FVec Ideal S100000x64 .f32 :=
  maximumf
    (addf (mulf (mulf (subf (addf a (rows b)) (rows μ))
      (rows (Host.rsqrt (addf v (broadcastInDim S64 ![] bcast_S_S64 (constant S_ .f32 0x3727C5AC#32))))))
      (rows g)) (rows β))
    (broadcastInDim S100000x64 ![] bcast_S_S100000x64 (constant S_ .f32 0x00000000#32))

/-- The segment words as one column. -/
abbrev segCol (x3 : IVec S100000 32) : IVec S100000x1 32 :=
  broadcastInDim S100000x1 ![0] bcast_S100000_S100000x1_0 x3

/-- Per-graph sums of the node rows. -/
def pool (h : FVec Ideal S100000x64 .f32) (x3 : IVec S100000 32) : FVec Ideal S1000x64 .f32 :=
  Host.scatterAdd scatter_S1000x64_S100000x1_S100000x64_1_0_0_1 (broadcastInDim S1000x64 ![] bcast_S_S1000x64 (constant S_ .f32 0x00000000#32)) (segCol x3) h

/-- The means (sums over max(count, 1)) and the sums, side by side. -/
def tail (s : FVec Ideal S1000x64 .f32) (x3 : IVec S100000 32) : FVec Ideal S1000x128 .f32 :=
  concatenate S1000x128 1 [⟨S1000x64, (Host.divf s (broadcastInDim S1000x64 ![0, 1] bcast_S1000x1_S1000x64_0_1 (broadcastInDim S1000x1 ![0] bcast_S1000_S1000x1_0 (maximumf (Host.scatterAdd scatter_S1000_S100000x1_S100000_n_0_0_1 (broadcastInDim S1000 ![] bcast_S_S1000 (constant S_ .f32 0x00000000#32)) (segCol x3) (broadcastInDim S100000 ![] bcast_S_S100000 (constant S_ .f32 0x3F800000#32))) (broadcastInDim S1000 ![] bcast_S_S1000 (constant S_ .f32 0x3F800000#32))))))⟩, ⟨S1000x64, s⟩] concatenates_S1000x64_S1000x64_S1000x128_d1

/-- The three layers' outputs. -/
def h1 (x0 : FVec Ideal S100000x100 .f32) (x1 : IVec S2x1600000 32) (x2 : FVec Ideal S1600000 .f32) (x4 : FVec Ideal S100x64 .f32)
    (x5 x6 x7 x8 x9 : FVec Ideal S64 .f32) : FVec Ideal S100000x64 .f32 :=
  act (agg x1 x2 (Host.dotGeneral dot_S100000x100_S100x64_S100000x64_1_0_0_1_n_n none x0 x4)) x5 x6 x7 x8 x9

def next (h : FVec Ideal S100000x64 .f32) (x1 : IVec S2x1600000 32) (x2 : FVec Ideal S1600000 .f32) (w : FVec Ideal S64x64 .f32)
    (b g β μ v : FVec Ideal S64 .f32) : FVec Ideal S100000x64 .f32 :=
  act (agg x1 x2 (Host.dotGeneral dot_S100000x64_S64x64_S100000x64_1_0_0_1_n_n none h w)) b g β μ v

/-- The whole reference as one function of its twenty-two arguments. -/
def ref (x0 : FVec Ideal S100000x100 .f32) (x1 : IVec S2x1600000 32) (x2 : FVec Ideal S1600000 .f32) (x3 : IVec S100000 32)
    (x4 : FVec Ideal S100x64 .f32) (x5 x6 x7 x8 x9 : FVec Ideal S64 .f32) (x10 : FVec Ideal S64x64 .f32)
    (x11 x12 x13 x14 x15 : FVec Ideal S64 .f32) (x16 : FVec Ideal S64x64 .f32) (x17 x18 x19 x20 x21 : FVec Ideal S64 .f32) :
    FVec Ideal S1000x128 .f32 :=
  tail (pool (next (next (h1 x0 x1 x2 x4 x5 x6 x7 x8 x9) x1 x2 x10 x11 x12 x13 x14 x15) x1 x2 x16 x17 x18 x19 x20 x21) x3) x3

end Cert.ReferenceIdeal.Mid

end
-- ==== Proof.Spec.lean ====
/-
  The mathematics both programs compute, as index-by-index functions over the extended reals.

  A graph-convolution layer is  h ↦ relu(BN(S (h·W) + b))  where S is the fixed sparse aggregation
  (gather rows, scale by the edge norm, scatter-add by target node).  The kernel realises the three dense
  pieces — the product h·W, the normalisation-and-relu, and the final per-graph sum — by tiled programs; the
  reference writes them as whole-array operations.  This file names the three dense pieces:

    * `mm x w`      : (x·w)(r, c) = ∑ₖ x(r, k) · w(k, c);
    * `bn a b g β μ v`: max(((a(r,c) + b(c)) − μ(c)) · rsqrt(v(c) + ε) · g(c) + β(c), 0), the parameters given as
                      one-row matrices;
    * `pool h s`    : (g, c) ↦ ∑ᵣ [s(r) = g] · h(r, c), the sum of the rows of `h` whose segment word is `g`.
-/
import Idealize.ShloMosaic.PureOps.Ideal
import Idealize.ShloMosaic.Lib.ValueIdx

noncomputable section

open scoped BigOperators

namespace Cert.Spec

open Idealize.ShloMosaic Idealize.ShloMosaic.ValueIdx

/-- The matrix product of an `n × k` by a `k × p` matrix, entry by entry. -/
def mm {n k p : Nat} (x : FVec Ideal (⟨2, ![n, k]⟩ : Shape) .f32) (w : FVec Ideal (⟨2, ![k, p]⟩ : Shape) .f32) :
    FVec Ideal (⟨2, ![n, p]⟩ : Shape) .f32 :=
  fun i => ∑ q : Fin k, x (ix2 (n0 := n) (n1 := k) (i 0) q) * w (ix2 (n0 := k) (n1 := p) q (i 1))

/-- The single-precision pattern of the batch-norm epsilon, and of zero. -/
abbrev epsW : BitVec 32 := 0x3727C5AC#32

/-- Bias, batch normalisation in inference form, and relu, entry by entry; each parameter is a one-row matrix
    read at the entry's column. -/
def bn {n p : Nat} (a : FVec Ideal (⟨2, ![n, p]⟩ : Shape) .f32)
    (b g β μ v : FVec Ideal (⟨2, ![1, p]⟩ : Shape) .f32) : FVec Ideal (⟨2, ![n, p]⟩ : Shape) .f32 :=
  fun i =>
    let c : (⟨2, ![1, p]⟩ : Shape).Idx := ix2 (n0 := 1) (n1 := p) 0 (i 1)
    max ((((a i + b c) - μ c) * Ideal.rsqrt (v c + Ideal.ofBits .f32 epsW)) * g c + β c)
      (Ideal.ofBits .f32 0x00000000#32)

/-- The per-segment sum: entry `(g, c)` is the sum over the rows `r` whose segment word is the number `g` of
    `h(r, c)`; the segment words are a one-column matrix of 32-bit words. -/
def pool {n p G : Nat} (h : FVec Ideal (⟨2, ![n, p]⟩ : Shape) .f32) (s : IVec (⟨2, ![n, 1]⟩ : Shape) 32) :
    FVec Ideal (⟨2, ![G, p]⟩ : Shape) .f32 :=
  fun i => ∑ r : Fin n,
    if s (ix2 (n0 := n) (n1 := 1) r 0) = BitVec.ofNat 32 (i 0).val then h (ix2 (n0 := n) (n1 := p) r (i 1)) else 0

end Cert.Spec

end
-- ==== Proof.RegMM0.lean ====
/-
  The first dense product, tile by tile: the grid's twenty points each write rows 5000·t … 5000·t + 4999 of
  x·W, so the result array ends at the whole product.

  A point's tile is the product of a 5000 × 100 block of x by the whole of W, accumulated from zero: entry
  (p, q) of the tile is ∑ₖ block(p, k) · W(k, q).  The block at point t is rows 5000·t … 5000·t + 4999 of x,
  so that entry is entry (5000·t + p, q) of x·W; the tile is written back to the same rows of the result.
  Row r of the result lies in the tile of point r / 5000, and every r below 100000 has such a point.
-/
import proofs.«431411_j11312943857689_1_alg».proof.Proof.Gen.KernelIdeal.Frame
import proofs.«431411_j11312943857689_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.RegMM0

open Cert.KernelIdeal Cert.KernelIdeal.Gen

/-! ## The tile product's operand indices

For output entry `j` and contraction position `κ` the left operand is read at (row of `j`, `κ`) and the right
operand at (`κ`, column of `j`). -/

theorem left_row (j : S5000x64.Idx) (κ : dot_S5000x100_S100x64_S5000x64_1_0_0_1_n_n.contr.Idx) :
    (dot_S5000x100_S100x64_S5000x64_1_0_0_1_n_n.lhsIdx j κ 0).val = (j 0).val := by
  unfold DotDims.lhsIdx
  rw [dif_neg (show ¬(0 : Fin S5000x100.rank) ∈ dot_S5000x100_S100x64_S5000x64_1_0_0_1_n_n.lhsBatch by decide),
    dif_pos (show (0 : Fin S5000x100.rank) ∈ dot_S5000x100_S100x64_S5000x64_1_0_0_1_n_n.lhsNonContracting by decide)]
  rfl

theorem left_depth (j : S5000x64.Idx) (κ : dot_S5000x100_S100x64_S5000x64_1_0_0_1_n_n.contr.Idx) :
    (dot_S5000x100_S100x64_S5000x64_1_0_0_1_n_n.lhsIdx j κ 1).val = (κ ⟨0, by decide⟩).val :=
  dot_S5000x100_S100x64_S5000x64_1_0_0_1_n_n.lhsIdx_val_of_single rfl j κ

theorem right_depth (j : S5000x64.Idx) (κ : dot_S5000x100_S100x64_S5000x64_1_0_0_1_n_n.contr.Idx) :
    (dot_S5000x100_S100x64_S5000x64_1_0_0_1_n_n.rhsIdx j κ 0).val = (κ ⟨0, by decide⟩).val :=
  dot_S5000x100_S100x64_S5000x64_1_0_0_1_n_n.rhsIdx_val_of_single rfl j κ

theorem right_col (j : S5000x64.Idx) (κ : dot_S5000x100_S100x64_S5000x64_1_0_0_1_n_n.contr.Idx) :
    (dot_S5000x100_S100x64_S5000x64_1_0_0_1_n_n.rhsIdx j κ 1).val = (j 1).val := by
  unfold DotDims.rhsIdx
  rw [dif_neg (show ¬(1 : Fin S100x64.rank) ∈ dot_S5000x100_S100x64_S5000x64_1_0_0_1_n_n.rhsBatch by decide),
    dif_pos (show (1 : Fin S100x64.rank) ∈ dot_S5000x100_S100x64_S5000x64_1_0_0_1_n_n.rhsNonContracting by decide)]
  rfl

/-! ## One tile -/

/-- Entry (p, q) of a tile: the sum over the hundred depth positions of block(p, k) · w(k, q).  The narrowing of
    the operands changes nothing over the extended reals, and the accumulator starts at zero. -/
theorem tile_entry (x : Vec Ideal S5000x100 .f32) (w : Vec Ideal S100x64 .f32) (p : Fin 5000) (q : Fin 64) :
    k0_pay1 (F := Ideal) x w (ix2 p q)
      = ∑ k : Fin 100, x (ix2 (n0 := 5000) (n1 := 100) p k) * w (ix2 (n0 := 100) (n1 := 64) k q) := by
  unfold k0_pay1
  simp only [matmul]
  rw [Ideal.matmul_constant_zero_apply,
    ← Equiv.sum_comp (contrEquiv1 dot_S5000x100_S100x64_S5000x64_1_0_0_1_n_n 100 rfl rfl).symm]
  refine Finset.sum_congr rfl fun k _ => ?_
  have hk := contrEquiv1_symm_val dot_S5000x100_S100x64_S5000x64_1_0_0_1_n_n 100 rfl rfl k
  have el : dot_S5000x100_S100x64_S5000x64_1_0_0_1_n_n.lhsIdx (ix2 p q)
      ((contrEquiv1 dot_S5000x100_S100x64_S5000x64_1_0_0_1_n_n 100 rfl rfl).symm k)
        = ix2 (n0 := 5000) (n1 := 100) p k := funext fun a => Fin.ext (by
    match a with
    | ⟨0, _⟩ => exact left_row _ _
    | ⟨1, _⟩ => exact (left_depth _ _).trans hk)
  have er : dot_S5000x100_S100x64_S5000x64_1_0_0_1_n_n.rhsIdx (ix2 p q)
      ((contrEquiv1 dot_S5000x100_S100x64_S5000x64_1_0_0_1_n_n 100 rfl rfl).symm k)
        = ix2 (n0 := 100) (n1 := 64) k q := funext fun a => Fin.ext (by
    match a with
    | ⟨0, _⟩ => exact (right_depth _ _).trans hk
    | ⟨1, _⟩ => exact right_col _ _)
  rw [el, er]
  rfl

/-- A tile whose block is the rows `row p` of `X`, against the whole of `W`, is those rows of `X · W`. -/
theorem tile_is_rows (X : Vec Ideal S100000x100 .f32) (W : Vec Ideal S100x64 .f32)
    (x : Vec Ideal S5000x100 .f32) (w : Vec Ideal S100x64 .f32) (row : Fin 5000 → Fin 100000)
    (hx : ∀ (p : Fin 5000) (k : Fin 100),
      x (ix2 (n0 := 5000) (n1 := 100) p k) = X (ix2 (n0 := 100000) (n1 := 100) (row p) k))
    (hw : w = W) (p : Fin 5000) (q : Fin 64) :
    k0_pay1 (F := Ideal) x w (ix2 p q)
      = Cert.Spec.mm (n := 100000) (k := 100) (p := 64) X W (ix2 (n0 := 100000) (n1 := 64) (row p) q) := by
  rw [tile_entry]
  subst hw
  show _ = ∑ k : Fin 100, X (ix2 (n0 := 100000) (n1 := 100) (row p) k) * w (ix2 (n0 := 100) (n1 := 64) k q)
  exact Finset.sum_congr rfl fun k _ => by rw [hx]

/-! ## The grid -/

theorem origin : (![0, 0] : Fin 2 → Nat) = fun _ => 0 :=
  funext fun a => match a with | ⟨0, _⟩ => rfl | ⟨1, _⟩ => rfl

/-- Point `t` takes block row `t` of x and of the result, and the one block of W. -/
theorem block_of_point : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 20 := lt_of_lt_of_eq t.isLt N_0

variable (V : (c : Dev nD) → (b : Ref sig .tc) → Buf (Elt Ideal) ((c : Thread nD τ).loc b))

/-- What point `t` writes back is its block of `x · W`. -/
theorem flushed_is_block (c : Dev nD) (t : Fin cfg0.N) :
    (dat0 (F := Ideal) V c).flushed 2 t
      = ((cfg0.win 2).blk t).view.read (Elt Ideal)
          (Cert.Spec.mm (n := 100000) (k := 100) (p := 64) (V c main_arg0) (V c main_arg4)) := by
  show (cfg0.win 2).cut (grid0.coords t) ((dat0 (F := Ideal) V c).after 2 t) = _
  rw [after0_2]
  unfold out0_2
  rw [View.canon_unit_zero origin]
  simp only [View.ld_unit_zero (S := S5000x100) origin, View.ld_unit_zero (S := S100x64) origin]
  obtain ⟨e00, e01, e10, e11, e20, e21⟩ := block_of_point t
  have ht := point_lt t
  funext j
  obtain ⟨p, q, rfl⟩ : ∃ (p : Fin 5000) (q : Fin 64), j = ix2 p q := ⟨j 0, j 1, eq_ix2 j⟩
  refine (tile_is_rows (V c main_arg0) (V c main_arg4) (iblk0 (F := Ideal) V c 0 t) (iblk0 (F := Ideal) V c 1 t)
    (fun p => ⟨t.val * 5000 + p.val, by have := p.isLt; omega⟩) ?_ ?_ p q).trans ?_
  · intro p k
    show V c main_arg0 (((cfg0.win 0).blk t).view.emb (ix2 (n0 := 5000) (n1 := 100) p k)) = V c main_arg0 _
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 100 + 1 * k.val = k.val; omega
  · funext y
    show V c main_arg4 (((cfg0.win 1).blk t).view.emb y) = V c main_arg4 y
    refine congrArg (V c main_arg4) (funext fun a => Fin.ext ?_)
    match a with
    | ⟨0, _⟩ => show win0_1.index t (0 : Fin 2) * 100 + 1 * (y 0).val = (y 0).val; omega
    | ⟨1, _⟩ => show win0_1.index t (1 : Fin 2) * 64 + 1 * (y 1).val = (y 1).val; omega
  · show Cert.Spec.mm (n := 100000) (k := 100) (p := 64) (V c main_arg0) (V c main_arg4) _
      = Cert.Spec.mm (n := 100000) (k := 100) (p := 64) (V c main_arg0) (V c main_arg4)
          (((cfg0.win 2).blk t).view.emb (ix2 (n0 := 5000) (n1 := 64) p q))
    refine congrArg (Cert.Spec.mm (n := 100000) (k := 100) (p := 64) (V c main_arg0) (V c main_arg4))
      (funext fun a => Fin.ext ?_)
    match a with
    | ⟨0, _⟩ => show t.val * 5000 + p.val = win0_2.index t (0 : Fin 2) * 5000 + 1 * p.val; omega
    | ⟨1, _⟩ => show q.val = win0_2.index t (1 : Fin 2) * 64 + 1 * q.val; omega

/-! ## The tiles fill the result -/

/-- An entry of the result is in point `t`'s block iff each coordinate is in the block's range. -/
theorem mem_block (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v33).slice (win0_2.rect t)).set ↔ _
  rw [View.set_slice_whole, Rect.mem_set_unit]
  exact Iff.rfl

/-- Row `r` is written by point `r / 5000`. -/
theorem every_row_written (i : S100000x64.Idx) :
    ∃ t : Fin cfg0.N, (cfg0.win 2).flush t = true ∧ i ∈ ((cfg0.win 2).blk t).view.set := by
  have hr : (i 0).val < 100000 := (i 0).isLt
  have hc : (i 1).val < 64 := (i 1).isLt
  have hN : (i 0).val / 5000 < cfg0.N := lt_of_lt_of_eq (by omega : (i 0).val / 5000 < 20) N_0.symm
  refine ⟨⟨(i 0).val / 5000, hN⟩, flush0_2 _, ?_⟩
  obtain ⟨-, -, -, -, e20, e21⟩ := block_of_point ⟨(i 0).val / 5000, hN⟩
  have e20' : win0_2.index ⟨(i 0).val / 5000, hN⟩ (0 : Fin 2) = (i 0).val / 5000 := e20
  rw [mem_block]
  intro a
  match a with
  | ⟨0, _⟩ =>
    show win0_2.index ⟨(i 0).val / 5000, hN⟩ (0 : Fin 2) * 5000 ≤ (i 0).val
      ∧ (i 0).val < win0_2.index ⟨(i 0).val / 5000, hN⟩ (0 : Fin 2) * 5000 + 5000
    omega
  | ⟨1, _⟩ =>
    show win0_2.index ⟨(i 0).val / 5000, hN⟩ (1 : Fin 2) * 64 ≤ (i 1).val
      ∧ (i 1).val < win0_2.index ⟨(i 0).val / 5000, hN⟩ (1 : Fin 2) * 64 + 64
    omega

/-- After the region the product's array holds `x · W` of the two arrays the region found. -/
theorem final (c : Dev nD) :
    (dat0 (F := Ideal) V c).arrAt 2 cfg0.N = Cert.Spec.mm (n := 100000) (k := 100) (p := 64) (V c main_arg0) (V c main_arg4) :=
  (dat0 (F := Ideal) V c).arrAt_eq_of_cover 2
    (Cert.Spec.mm (n := 100000) (k := 100) (p := 64) (V c main_arg0) (V c main_arg4))
    (fun t _ => flushed_is_block V c t) every_row_written

end Cert.KernelIdeal.RegMM0

end
-- ==== Proof.RegMM2.lean ====
/-
  The second layer's dense product, tile by tile: the grid's twenty points each write rows 5000·t … 5000·t + 4999
  of h·W, so the result array ends at the whole product.

  Here h is the 100000 × 64 output of the first layer and W is 64 × 64.  A point's tile is the product of a
  5000 × 64 block of h by the whole of W, accumulated from zero: entry (p, q) of the tile is
  ∑ₖ block(p, k) · W(k, q) over the 64 depth positions.  The block at point t is rows 5000·t … 5000·t + 4999 of h,
  so that entry is entry (5000·t + p, q) of h·W, and the tile goes back to those rows of the result.  Row r of
  the result lies in the tile of point r / 5000.
-/
import proofs.«431411_j11312943857689_1_alg».proof.Proof.Gen.KernelIdeal.Frame
import proofs.«431411_j11312943857689_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.RegMM2

open Cert.KernelIdeal Cert.KernelIdeal.Gen

/-! ## The tile product's operand indices

For output entry `j` and depth position `κ` the block of h is read at (row of `j`, `κ`) and W at
(`κ`, column of `j`). -/

theorem h_row (j : S5000x64.Idx) (κ : dot_S5000x64_S64x64_S5000x64_1_0_0_1_n_n.contr.Idx) :
    (dot_S5000x64_S64x64_S5000x64_1_0_0_1_n_n.lhsIdx j κ 0).val = (j 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

theorem h_depth (j : S5000x64.Idx) (κ : dot_S5000x64_S64x64_S5000x64_1_0_0_1_n_n.contr.Idx) :
    (dot_S5000x64_S64x64_S5000x64_1_0_0_1_n_n.lhsIdx j κ 1).val = (κ ⟨0, by decide⟩).val :=
  dot_S5000x64_S64x64_S5000x64_1_0_0_1_n_n.lhsIdx_val_of_single rfl j κ

theorem w_depth (j : S5000x64.Idx) (κ : dot_S5000x64_S64x64_S5000x64_1_0_0_1_n_n.contr.Idx) :
    (dot_S5000x64_S64x64_S5000x64_1_0_0_1_n_n.rhsIdx j κ 0).val = (κ ⟨0, by decide⟩).val :=
  dot_S5000x64_S64x64_S5000x64_1_0_0_1_n_n.rhsIdx_val_of_single rfl j κ

theorem w_col (j : S5000x64.Idx) (κ : dot_S5000x64_S64x64_S5000x64_1_0_0_1_n_n.contr.Idx) :
    (dot_S5000x64_S64x64_S5000x64_1_0_0_1_n_n.rhsIdx j κ 1).val = (j 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-! ## One tile -/

/-- Entry (p, q) of a tile: the sum over the 64 depth positions of block(p, k) · w(k, q).  The block is first
    recast to the shape it already has, which changes nothing; neither does the narrowing of the operands over
    the extended reals; and the accumulator starts at zero. -/
theorem tile_entry (x : Vec Ideal S5000x64 .f32) (w : Vec Ideal S64x64 .f32) (p : Fin 5000) (q : Fin 64) :
    k2_pay1 (F := Ideal) x w (ix2 p q)
      = ∑ k : Fin 64, x (ix2 (n0 := 5000) (n1 := 64) p k) * w (ix2 (n0 := 64) (n1 := 64) k q) := by
  unfold k2_pay1
  simp only [matmul]
  rw [shapeCast_self, Ideal.matmul_constant_zero_apply,
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q)
      ((contrEquiv1 dot_S5000x64_S64x64_S5000x64_1_0_0_1_n_n 64 rfl rfl).symm k)
        = ix2 (n0 := 5000) (n1 := 64) p k := funext fun a => Fin.ext (by
    match a with
    | ⟨0, _⟩ => exact h_row _ _
    | ⟨1, _⟩ => exact (h_depth _ _).trans hk)
  have er : dot_S5000x64_S64x64_S5000x64_1_0_0_1_n_n.rhsIdx (ix2 p q)
      ((contrEquiv1 dot_S5000x64_S64x64_S5000x64_1_0_0_1_n_n 64 rfl rfl).symm k)
        = ix2 (n0 := 64) (n1 := 64) k q := funext fun a => Fin.ext (by
    match a with
    | ⟨0, _⟩ => exact (w_depth _ _).trans hk
    | ⟨1, _⟩ => exact w_col _ _)
  rw [el, er]
  rfl

/-- A tile whose block is the rows `row p` of `H`, against the whole of `W`, is those rows of `H · W`. -/
theorem tile_is_rows (H : Vec Ideal S100000x64 .f32) (W : Vec Ideal S64x64 .f32)
    (x : Vec Ideal S5000x64 .f32) (w : Vec Ideal S64x64 .f32) (row : Fin 5000 → Fin 100000)
    (hx : ∀ (p : Fin 5000) (k : Fin 64),
      x (ix2 (n0 := 5000) (n1 := 64) p k) = H (ix2 (n0 := 100000) (n1 := 64) (row p) k))
    (hw : w = W) (p : Fin 5000) (q : Fin 64) :
    k2_pay1 (F := Ideal) x w (ix2 p q)
      = Cert.Spec.mm (n := 100000) (k := 64) (p := 64) H W (ix2 (n0 := 100000) (n1 := 64) (row p) q) := by
  rw [tile_entry]
  subst hw
  show _ = ∑ k : Fin 64, H (ix2 (n0 := 100000) (n1 := 64) (row p) k) * w (ix2 (n0 := 64) (n1 := 64) k q)
  exact Finset.sum_congr rfl fun k _ => by rw [hx]

/-! ## The grid -/

theorem origin : (![0, 0] : Fin 2 → Nat) = fun _ => 0 :=
  funext fun a => match a with | ⟨0, _⟩ => rfl | ⟨1, _⟩ => rfl

/-- Point `t` takes block row `t` of h and of the result, and the one block of W. -/
theorem block_of_point : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem point_lt (t : Fin cfg2.N) : t.val < 20 := lt_of_lt_of_eq t.isLt N_2

variable (V : (c : Dev nD) → (b : Ref sig .tc) → Buf (Elt Ideal) ((c : Thread nD τ).loc b))

/-- What point `t` writes back is its block of `h · W`. -/
theorem flushed_is_block (c : Dev nD) (t : Fin cfg2.N) :
    (dat2 (F := Ideal) V c).flushed 2 t
      = ((cfg2.win 2).blk t).view.read (Elt Ideal)
          (Cert.Spec.mm (n := 100000) (k := 64) (p := 64) (V c main_v52) (V c main_arg10)) := by
  show (cfg2.win 2).cut (grid2.coords t) ((dat2 (F := Ideal) V c).after 2 t) = _
  rw [after2_2]
  unfold out2_2
  rw [View.canon_unit_zero origin]
  simp only [View.ld_unit_zero (S := S5000x64) origin, View.ld_unit_zero (S := S64x64) origin]
  obtain ⟨e00, e01, e10, e11, e20, e21⟩ := block_of_point t
  have ht := point_lt t
  funext j
  obtain ⟨p, q, rfl⟩ : ∃ (p : Fin 5000) (q : Fin 64), j = ix2 p q := ⟨j 0, j 1, eq_ix2 j⟩
  refine (tile_is_rows (V c main_v52) (V c main_arg10) (iblk2 (F := Ideal) V c 0 t) (iblk2 (F := Ideal) V c 1 t)
    (fun p => ⟨t.val * 5000 + p.val, by have := p.isLt; omega⟩) ?_ ?_ p q).trans ?_
  · intro p k
    show V c main_v52 (((cfg2.win 0).blk t).view.emb (ix2 (n0 := 5000) (n1 := 64) p k)) = V c main_v52 _
    refine congrArg (V c main_v52) (funext fun a => Fin.ext ?_)
    match a with
    | ⟨0, _⟩ => show win2_0.index t (0 : Fin 2) * 5000 + 1 * p.val = t.val * 5000 + p.val; omega
    | ⟨1, _⟩ => show win2_0.index t (1 : Fin 2) * 64 + 1 * k.val = k.val; omega
  · funext y
    show V c main_arg10 (((cfg2.win 1).blk t).view.emb y) = V c main_arg10 y
    refine congrArg (V c main_arg10) (funext fun a => Fin.ext ?_)
    match a with
    | ⟨0, _⟩ => show win2_1.index t (0 : Fin 2) * 64 + 1 * (y 0).val = (y 0).val; omega
    | ⟨1, _⟩ => show win2_1.index t (1 : Fin 2) * 64 + 1 * (y 1).val = (y 1).val; omega
  · show Cert.Spec.mm (n := 100000) (k := 64) (p := 64) (V c main_v52) (V c main_arg10) _
      = Cert.Spec.mm (n := 100000) (k := 64) (p := 64) (V c main_v52) (V c main_arg10)
          (((cfg2.win 2).blk t).view.emb (ix2 (n0 := 5000) (n1 := 64) p q))
    refine congrArg (Cert.Spec.mm (n := 100000) (k := 64) (p := 64) (V c main_v52) (V c main_arg10))
      (funext fun a => Fin.ext ?_)
    match a with
    | ⟨0, _⟩ => show t.val * 5000 + p.val = win2_2.index t (0 : Fin 2) * 5000 + 1 * p.val; omega
    | ⟨1, _⟩ => show q.val = win2_2.index t (1 : Fin 2) * 64 + 1 * q.val; omega

/-! ## The tiles fill the result -/

/-- An entry of the result is in point `t`'s block iff each coordinate is in the block's range. -/
theorem mem_block (t : Fin cfg2.N) (i : S100000x64.Idx) :
    i ∈ ((cfg2.win 2).blk t).view.set ↔ ∀ a : Fin 2, win2_2.index t a * S5000x64.size a ≤ (i a).val
      ∧ (i a).val < win2_2.index t a * S5000x64.size a + S5000x64.size a := by
  show i ∈ ((View.whole main_v53).slice (win2_2.rect t)).set ↔ _
  rw [View.set_slice_whole, Rect.mem_set_unit]
  exact Iff.rfl

/-- Row `r` is written by point `r / 5000`. -/
theorem every_row_written (i : S100000x64.Idx) :
    ∃ t : Fin cfg2.N, (cfg2.win 2).flush t = true ∧ i ∈ ((cfg2.win 2).blk t).view.set := by
  have hr : (i 0).val < 100000 := (i 0).isLt
  have hc : (i 1).val < 64 := (i 1).isLt
  have hN : (i 0).val / 5000 < cfg2.N := lt_of_lt_of_eq (by omega : (i 0).val / 5000 < 20) N_2.symm
  refine ⟨⟨(i 0).val / 5000, hN⟩, flush2_2 _, ?_⟩
  obtain ⟨-, -, -, -, e20, e21⟩ := block_of_point ⟨(i 0).val / 5000, hN⟩
  have e20' : win2_2.index ⟨(i 0).val / 5000, hN⟩ (0 : Fin 2) = (i 0).val / 5000 := e20
  rw [mem_block]
  intro a
  match a with
  | ⟨0, _⟩ =>
    show win2_2.index ⟨(i 0).val / 5000, hN⟩ (0 : Fin 2) * 5000 ≤ (i 0).val
      ∧ (i 0).val < win2_2.index ⟨(i 0).val / 5000, hN⟩ (0 : Fin 2) * 5000 + 5000
    omega
  | ⟨1, _⟩ =>
    show win2_2.index ⟨(i 0).val / 5000, hN⟩ (1 : Fin 2) * 64 ≤ (i 1).val
      ∧ (i 1).val < win2_2.index ⟨(i 0).val / 5000, hN⟩ (1 : Fin 2) * 64 + 64
    omega

/-- After the region the product's array holds `h · W` of the two arrays the region found. -/
theorem final (c : Dev nD) :
    (dat2 (F := Ideal) V c).arrAt 2 cfg2.N = Cert.Spec.mm (n := 100000) (k := 64) (p := 64) (V c main_v52) (V c main_arg10) :=
  (dat2 (F := Ideal) V c).arrAt_eq_of_cover 2
    (Cert.Spec.mm (n := 100000) (k := 64) (p := 64) (V c main_v52) (V c main_arg10))
    (fun t _ => flushed_is_block V c t) every_row_written

end Cert.KernelIdeal.RegMM2

end
-- ==== Proof.RegMM4.lean ====
/-
  The third layer's dense product, tile by tile: the grid's twenty points each write rows 5000·t … 5000·t + 4999
  of h·W, so the result array ends at the whole product.

  Here h is the 100000 × 64 output of the second layer and W is the third layer's 64 × 64 weight.  A point's
  tile is a 5000 × 64 block of h times the whole of W, accumulated from zero, so its entry (p, q) is
  ∑ₖ block(p, k) · W(k, q) over the 64 depth positions.  Point t's block is rows 5000·t … 5000·t + 4999 of h:
  the entry is entry (5000·t + p, q) of h·W, and the tile is stored to those same rows.  The point r / 5000
  writes row r, and there is one for every r below 100000.
-/
import proofs.«431411_j11312943857689_1_alg».proof.Proof.Gen.KernelIdeal.Frame
import proofs.«431411_j11312943857689_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.RegMM4

open Cert.KernelIdeal Cert.KernelIdeal.Gen

/-! ## The tile product's operand indices

For output entry `j` and depth position `κ` the block of h is read at (row of `j`, `κ`) and W at
(`κ`, column of `j`). -/

theorem h_row (j : S5000x64.Idx) (κ : dot_S5000x64_S64x64_S5000x64_1_0_0_1_n_n.contr.Idx) :
    (dot_S5000x64_S64x64_S5000x64_1_0_0_1_n_n.lhsIdx j κ 0).val = (j 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

theorem h_depth (j : S5000x64.Idx) (κ : dot_S5000x64_S64x64_S5000x64_1_0_0_1_n_n.contr.Idx) :
    (dot_S5000x64_S64x64_S5000x64_1_0_0_1_n_n.lhsIdx j κ 1).val = (κ ⟨0, by decide⟩).val :=
  dot_S5000x64_S64x64_S5000x64_1_0_0_1_n_n.lhsIdx_val_of_single rfl j κ

theorem w_depth (j : S5000x64.Idx) (κ : dot_S5000x64_S64x64_S5000x64_1_0_0_1_n_n.contr.Idx) :
    (dot_S5000x64_S64x64_S5000x64_1_0_0_1_n_n.rhsIdx j κ 0).val = (κ ⟨0, by decide⟩).val :=
  dot_S5000x64_S64x64_S5000x64_1_0_0_1_n_n.rhsIdx_val_of_single rfl j κ

theorem w_col (j : S5000x64.Idx) (κ : dot_S5000x64_S64x64_S5000x64_1_0_0_1_n_n.contr.Idx) :
    (dot_S5000x64_S64x64_S5000x64_1_0_0_1_n_n.rhsIdx j κ 1).val = (j 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-! ## One tile -/

/-- Entry (p, q) of a tile: the sum over the 64 depth positions of block(p, k) · w(k, q).  Recasting the block
    to its own shape and narrowing the operands are the identity over the extended reals, and the accumulator
    starts at zero. -/
theorem tile_entry (x : Vec Ideal S5000x64 .f32) (w : Vec Ideal S64x64 .f32) (p : Fin 5000) (q : Fin 64) :
    k4_pay1 (F := Ideal) x w (ix2 p q)
      = ∑ k : Fin 64, x (ix2 (n0 := 5000) (n1 := 64) p k) * w (ix2 (n0 := 64) (n1 := 64) k q) := by
  unfold k4_pay1
  simp only [matmul]
  rw [shapeCast_self, Ideal.matmul_constant_zero_apply,
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q)
      ((contrEquiv1 dot_S5000x64_S64x64_S5000x64_1_0_0_1_n_n 64 rfl rfl).symm k)
        = ix2 (n0 := 5000) (n1 := 64) p k := funext fun a => Fin.ext (by
    match a with
    | ⟨0, _⟩ => exact h_row _ _
    | ⟨1, _⟩ => exact (h_depth _ _).trans hk)
  have er : dot_S5000x64_S64x64_S5000x64_1_0_0_1_n_n.rhsIdx (ix2 p q)
      ((contrEquiv1 dot_S5000x64_S64x64_S5000x64_1_0_0_1_n_n 64 rfl rfl).symm k)
        = ix2 (n0 := 64) (n1 := 64) k q := funext fun a => Fin.ext (by
    match a with
    | ⟨0, _⟩ => exact (w_depth _ _).trans hk
    | ⟨1, _⟩ => exact w_col _ _)
  rw [el, er]
  rfl

/-- A tile whose block is the rows `row p` of `H`, against the whole of `W`, is those rows of `H · W`. -/
theorem tile_is_rows (H : Vec Ideal S100000x64 .f32) (W : Vec Ideal S64x64 .f32)
    (x : Vec Ideal S5000x64 .f32) (w : Vec Ideal S64x64 .f32) (row : Fin 5000 → Fin 100000)
    (hx : ∀ (p : Fin 5000) (k : Fin 64),
      x (ix2 (n0 := 5000) (n1 := 64) p k) = H (ix2 (n0 := 100000) (n1 := 64) (row p) k))
    (hw : w = W) (p : Fin 5000) (q : Fin 64) :
    k4_pay1 (F := Ideal) x w (ix2 p q)
      = Cert.Spec.mm (n := 100000) (k := 64) (p := 64) H W (ix2 (n0 := 100000) (n1 := 64) (row p) q) := by
  rw [tile_entry]
  subst hw
  show _ = ∑ k : Fin 64, H (ix2 (n0 := 100000) (n1 := 64) (row p) k) * w (ix2 (n0 := 64) (n1 := 64) k q)
  exact Finset.sum_congr rfl fun k _ => by rw [hx]

/-! ## The grid -/

theorem origin : (![0, 0] : Fin 2 → Nat) = fun _ => 0 :=
  funext fun a => match a with | ⟨0, _⟩ => rfl | ⟨1, _⟩ => rfl

/-- Point `t` takes block row `t` of h and of the result, and the one block of W. -/
theorem block_of_point : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem point_lt (t : Fin cfg4.N) : t.val < 20 := lt_of_lt_of_eq t.isLt N_4

variable (V : (c : Dev nD) → (b : Ref sig .tc) → Buf (Elt Ideal) ((c : Thread nD τ).loc b))

/-- What point `t` writes back is its block of `h · W`. -/
theorem flushed_is_block (c : Dev nD) (t : Fin cfg4.N) :
    (dat4 (F := Ideal) V c).flushed 2 t
      = ((cfg4.win 2).blk t).view.read (Elt Ideal)
          (Cert.Spec.mm (n := 100000) (k := 64) (p := 64) (V c main_v72) (V c main_arg16)) := by
  show (cfg4.win 2).cut (grid4.coords t) ((dat4 (F := Ideal) V c).after 2 t) = _
  rw [after4_2]
  unfold out4_2
  rw [View.canon_unit_zero origin]
  simp only [View.ld_unit_zero (S := S5000x64) origin, View.ld_unit_zero (S := S64x64) origin]
  obtain ⟨e00, e01, e10, e11, e20, e21⟩ := block_of_point t
  have ht := point_lt t
  funext j
  obtain ⟨p, q, rfl⟩ : ∃ (p : Fin 5000) (q : Fin 64), j = ix2 p q := ⟨j 0, j 1, eq_ix2 j⟩
  refine (tile_is_rows (V c main_v72) (V c main_arg16) (iblk4 (F := Ideal) V c 0 t) (iblk4 (F := Ideal) V c 1 t)
    (fun p => ⟨t.val * 5000 + p.val, by have := p.isLt; omega⟩) ?_ ?_ p q).trans ?_
  · intro p k
    show V c main_v72 (((cfg4.win 0).blk t).view.emb (ix2 (n0 := 5000) (n1 := 64) p k)) = V c main_v72 _
    refine congrArg (V c main_v72) (funext fun a => Fin.ext ?_)
    match a with
    | ⟨0, _⟩ => show win4_0.index t (0 : Fin 2) * 5000 + 1 * p.val = t.val * 5000 + p.val; omega
    | ⟨1, _⟩ => show win4_0.index t (1 : Fin 2) * 64 + 1 * k.val = k.val; omega
  · funext y
    show V c main_arg16 (((cfg4.win 1).blk t).view.emb y) = V c main_arg16 y
    refine congrArg (V c main_arg16) (funext fun a => Fin.ext ?_)
    match a with
    | ⟨0, _⟩ => show win4_1.index t (0 : Fin 2) * 64 + 1 * (y 0).val = (y 0).val; omega
    | ⟨1, _⟩ => show win4_1.index t (1 : Fin 2) * 64 + 1 * (y 1).val = (y 1).val; omega
  · show Cert.Spec.mm (n := 100000) (k := 64) (p := 64) (V c main_v72) (V c main_arg16) _
      = Cert.Spec.mm (n := 100000) (k := 64) (p := 64) (V c main_v72) (V c main_arg16)
          (((cfg4.win 2).blk t).view.emb (ix2 (n0 := 5000) (n1 := 64) p q))
    refine congrArg (Cert.Spec.mm (n := 100000) (k := 64) (p := 64) (V c main_v72) (V c main_arg16))
      (funext fun a => Fin.ext ?_)
    match a with
    | ⟨0, _⟩ => show t.val * 5000 + p.val = win4_2.index t (0 : Fin 2) * 5000 + 1 * p.val; omega
    | ⟨1, _⟩ => show q.val = win4_2.index t (1 : Fin 2) * 64 + 1 * q.val; omega

/-! ## The tiles fill the result -/

/-- An entry of the result is in point `t`'s block iff each coordinate is in the block's range. -/
theorem mem_block (t : Fin cfg4.N) (i : S100000x64.Idx) :
    i ∈ ((cfg4.win 2).blk t).view.set ↔ ∀ a : Fin 2, win4_2.index t a * S5000x64.size a ≤ (i a).val
      ∧ (i a).val < win4_2.index t a * S5000x64.size a + S5000x64.size a := by
  show i ∈ ((View.whole main_v73).slice (win4_2.rect t)).set ↔ _
  rw [View.set_slice_whole, Rect.mem_set_unit]
  exact Iff.rfl

/-- Row `r` is written by point `r / 5000`. -/
theorem every_row_written (i : S100000x64.Idx) :
    ∃ t : Fin cfg4.N, (cfg4.win 2).flush t = true ∧ i ∈ ((cfg4.win 2).blk t).view.set := by
  have hr : (i 0).val < 100000 := (i 0).isLt
  have hc : (i 1).val < 64 := (i 1).isLt
  have hN : (i 0).val / 5000 < cfg4.N := lt_of_lt_of_eq (by omega : (i 0).val / 5000 < 20) N_4.symm
  refine ⟨⟨(i 0).val / 5000, hN⟩, flush4_2 _, ?_⟩
  obtain ⟨-, -, -, -, e20, e21⟩ := block_of_point ⟨(i 0).val / 5000, hN⟩
  have e20' : win4_2.index ⟨(i 0).val / 5000, hN⟩ (0 : Fin 2) = (i 0).val / 5000 := e20
  rw [mem_block]
  intro a
  match a with
  | ⟨0, _⟩ =>
    show win4_2.index ⟨(i 0).val / 5000, hN⟩ (0 : Fin 2) * 5000 ≤ (i 0).val
      ∧ (i 0).val < win4_2.index ⟨(i 0).val / 5000, hN⟩ (0 : Fin 2) * 5000 + 5000
    omega
  | ⟨1, _⟩ =>
    show win4_2.index ⟨(i 0).val / 5000, hN⟩ (1 : Fin 2) * 64 ≤ (i 1).val
      ∧ (i 1).val < win4_2.index ⟨(i 0).val / 5000, hN⟩ (1 : Fin 2) * 64 + 64
    omega

/-- After the region the product's array holds `h · W` of the two arrays the region found. -/
theorem final (c : Dev nD) :
    (dat4 (F := Ideal) V c).arrAt 2 cfg4.N = Cert.Spec.mm (n := 100000) (k := 64) (p := 64) (V c main_v72) (V c main_arg16) :=
  (dat4 (F := Ideal) V c).arrAt_eq_of_cover 2
    (Cert.Spec.mm (n := 100000) (k := 64) (p := 64) (V c main_v72) (V c main_arg16))
    (fun t _ => flushed_is_block V c t) every_row_written

end Cert.KernelIdeal.RegMM4

end
-- ==== Proof.RegBN1.lean ====
/-
  Bias, normalisation and relu, tile by tile: each of the twenty points writes 5000 rows of the entrywise
  function, the one-row parameters read whole at every point.
-/
import proofs.«431411_j11312943857689_1_alg».proof.Proof.Gen.KernelIdeal.Frame
import proofs.«431411_j11312943857689_1_alg».proof.Proof.Spec
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.RegBN1

open Cert.KernelIdeal Cert.KernelIdeal.Gen

variable (V : (c : Dev nD) → (b : Ref sig .tc) → Buf (Elt Ideal) ((c : Thread nD τ).loc b))

/-- The two offsets of a whole-buffer access are zero. -/
theorem offsets_zero : (![0, 0] : Fin 2 → Nat) = fun _ => 0 :=
  funext fun a => match a with | ⟨0, _⟩ => rfl | ⟨1, _⟩ => rfl

/-- One entry of the tile the body stores: at row `p`, column `q` of the tile it is the aggregate's entry there,
    shifted by the bias and the mean, scaled by the inverse root of the variance plus epsilon and by gamma, shifted
    by beta, and clipped below at zero — every parameter read in its one row at column `q`. -/
theorem tile_entry (a : Vec Ideal S5000x64 .f32) (b μ v g β : Vec Ideal S1x64 .f32) (p : Fin 5000) (q : Fin 64) :
    k1_pay1 (F := Ideal) a b μ v g β (ix2 p q)
      = max ((((a (ix2 p q) + b (ix2 (0 : Fin 1) q)) - μ (ix2 (0 : Fin 1) q))
              * Ideal.rsqrt (v (ix2 (0 : Fin 1) q) + Ideal.ofBits .f32 Cert.Spec.epsW)) * g (ix2 (0 : Fin 1) q)
            + β (ix2 (0 : Fin 1) q))
          (Ideal.ofBits .f32 0x00000000#32) := by
  unfold k1_pay1
  simp only [shapeCast_self]
  simp only [maximumf_apply, addf_apply, mulf_apply, subf_apply, broadcast_apply, broadcastTo_1b_ab_apply]
  rfl

/-- The block indices of the seven windows, decided over the twenty points: at point `t` the aggregate's and the
    output's block is tile `t` of the rows, and each parameter's block is its whole one-row array. -/
theorem tile_indices : ∀ t : Fin cfg1.N,
    win1_0.index t (0 : Fin 2) = t.val ∧ win1_0.index t (1 : Fin 2) = 0
    ∧ win1_6.index t (0 : Fin 2) = t.val ∧ win1_6.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- An entry of the stored tile is the entrywise function at an entry of the whole arrays, as soon as the tile's
    aggregate entry is the array's entry there, the two entries share their column, and each parameter block's row
    is the parameter's row. -/
theorem tile_entry_of_reads (A : FVec Ideal S100000x64 .f32) (B G Be M Va : FVec Ideal S1x64 .f32)
    (a : Vec Ideal S5000x64 .f32) (b μ v g β : Vec Ideal S1x64 .f32)
    (hb : ∀ q : Fin 64, b (ix2 (0 : Fin 1) q) = B (ix2 (0 : Fin 1) q))
    (hμ : ∀ q : Fin 64, μ (ix2 (0 : Fin 1) q) = M (ix2 (0 : Fin 1) q))
    (hv : ∀ q : Fin 64, v (ix2 (0 : Fin 1) q) = Va (ix2 (0 : Fin 1) q))
    (hg : ∀ q : Fin 64, g (ix2 (0 : Fin 1) q) = G (ix2 (0 : Fin 1) q))
    (hβ : ∀ q : Fin 64, β (ix2 (0 : Fin 1) q) = Be (ix2 (0 : Fin 1) q))
    (j : S5000x64.Idx) (i : S100000x64.Idx) (hcol : (i 1).val = (j 1).val) (ha : a j = A i) :
    k1_pay1 (F := Ideal) a b μ v g β j = Cert.Spec.bn (n := 100000) (p := 64) A B G Be M Va i := by
  obtain ⟨p, q, rfl⟩ : ∃ (p : Fin 5000) (q : Fin 64), j = ix2 p q := ⟨j 0, j 1, eq_ix2 j⟩
  have hq : (i 1 : Fin 64) = q := Fin.ext hcol
  rw [tile_entry, ha, hb, hμ, hv, hg, hβ]
  unfold Cert.Spec.bn
  dsimp only
  rw [hq]

/-- What point `t` writes back is tile `t` of the entrywise function of the arrays the region found. -/
theorem tile_written (c : Dev nD) (t : Fin cfg1.N) :
    (dat1 (F := Ideal) V c).flushed 6 t
      = ((cfg1.win 6).blk t).view.read (Elt Ideal)
          (Cert.Spec.bn (n := 100000) (p := 64) (V c main_v46) (V c main_v47) (V c main_v48) (V c main_v49) (V c main_v50) (V c main_v51)) := by
  show (cfg1.win 6).cut (grid1.coords t) ((dat1 V c).after 6 t) = _
  rw [after1_6]
  unfold out1_6
  rw [View.canon_unit_zero offsets_zero]
  simp only [View.ld_unit_zero (S := S5000x64) offsets_zero, View.ld_unit_zero (S := S1x64) offsets_zero]
  obtain ⟨e00, e01, e60, e61, e10, e11, e20, e21, e30, e31, e40, e41, e50, e51⟩ := tile_indices t
  funext j
  show k1_pay1 (F := Ideal) (iblk1 V c 0 t) (iblk1 V c 1 t) (iblk1 V c 4 t) (iblk1 V c 5 t) (iblk1 V c 2 t) (iblk1 V c 3 t) j
      = Cert.Spec.bn (n := 100000) (p := 64) (V c main_v46) (V c main_v47) (V c main_v48) (V c main_v49) (V c main_v50) (V c main_v51)
          (((cfg1.win 6).blk t).view.emb j)
  refine tile_entry_of_reads (V c main_v46) (V c main_v47) (V c main_v48) (V c main_v49) (V c main_v50) (V c main_v51)
    (iblk1 V c 0 t) (iblk1 V c 1 t) (iblk1 V c 4 t) (iblk1 V c 5 t) (iblk1 V c 2 t) (iblk1 V c 3 t)
    (fun q => ?_) (fun q => ?_) (fun q => ?_) (fun q => ?_) (fun q => ?_) j (((cfg1.win 6).blk t).view.emb j) ?_ ?_
  · show V c main_v47 (((cfg1.win 1).blk t).view.emb (ix2 (0 : Fin 1) q)) = V c main_v47 (ix2 (0 : Fin 1) q)
    refine congrArg _ (funext fun a => Fin.ext ?_)
    match a with
    | ⟨0, _⟩ => show win1_1.index t (0 : Fin 2) * 1 + 1 * 0 = 0; omega
    | ⟨1, _⟩ => show win1_1.index t (1 : Fin 2) * 64 + 1 * q.val = q.val; omega
  · show V c main_v50 (((cfg1.win 4).blk t).view.emb (ix2 (0 : Fin 1) q)) = V c main_v50 (ix2 (0 : Fin 1) q)
    refine congrArg _ (funext fun a => Fin.ext ?_)
    match a with
    | ⟨0, _⟩ => show win1_4.index t (0 : Fin 2) * 1 + 1 * 0 = 0; omega
    | ⟨1, _⟩ => show win1_4.index t (1 : Fin 2) * 64 + 1 * q.val = q.val; omega
  · show V c main_v51 (((cfg1.win 5).blk t).view.emb (ix2 (0 : Fin 1) q)) = V c main_v51 (ix2 (0 : Fin 1) q)
    refine congrArg _ (funext fun a => Fin.ext ?_)
    match a with
    | ⟨0, _⟩ => show win1_5.index t (0 : Fin 2) * 1 + 1 * 0 = 0; omega
    | ⟨1, _⟩ => show win1_5.index t (1 : Fin 2) * 64 + 1 * q.val = q.val; omega
  · show V c main_v48 (((cfg1.win 2).blk t).view.emb (ix2 (0 : Fin 1) q)) = V c main_v48 (ix2 (0 : Fin 1) q)
    refine congrArg _ (funext fun a => Fin.ext ?_)
    match a with
    | ⟨0, _⟩ => show win1_2.index t (0 : Fin 2) * 1 + 1 * 0 = 0; omega
    | ⟨1, _⟩ => show win1_2.index t (1 : Fin 2) * 64 + 1 * q.val = q.val; omega
  · show V c main_v49 (((cfg1.win 3).blk t).view.emb (ix2 (0 : Fin 1) q)) = V c main_v49 (ix2 (0 : Fin 1) q)
    refine congrArg _ (funext fun a => Fin.ext ?_)
    match a with
    | ⟨0, _⟩ => show win1_3.index t (0 : Fin 2) * 1 + 1 * 0 = 0; omega
    | ⟨1, _⟩ => show win1_3.index t (1 : Fin 2) * 64 + 1 * q.val = q.val; omega
  · show win1_6.index t (1 : Fin 2) * 64 + 1 * (j 1).val = (j 1).val
    omega
  · show V c main_v46 (((cfg1.win 0).blk t).view.emb j) = V c main_v46 (((cfg1.win 6).blk t).view.emb j)
    refine congrArg _ (funext fun a => Fin.ext ?_)
    match a with
    | ⟨0, _⟩ => show win1_0.index t (0 : Fin 2) * 5000 + 1 * (j 0).val = win1_6.index t (0 : Fin 2) * 5000 + 1 * (j 0).val; omega
    | ⟨1, _⟩ => show win1_0.index t (1 : Fin 2) * 64 + 1 * (j 1).val = win1_6.index t (1 : Fin 2) * 64 + 1 * (j 1).val; omega

/-- An entry of the output array lies in point `t`'s block exactly when, on each axis, its coordinate lies in the
    block's range: the block index times the block's extent, and that extent further. -/
theorem mem_tile (t : Fin cfg1.N) (i : S100000x64.Idx) :
    i ∈ ((cfg1.win 6).blk t).view.set
      ↔ ∀ a : Fin 2, win1_6.index t a * S5000x64.size a ≤ (i a).val
          ∧ (i a).val < win1_6.index t a * S5000x64.size a + S5000x64.size a := by
  show i ∈ ((View.whole main_v52).slice (win1_6.rect t)).set ↔ _
  rw [View.set_slice_whole, Rect.mem_set_unit]
  exact Iff.rfl

/-- Every entry of the output array is written: row `r` lies in the tile of point `r / 5000`, and the tiles are as
    wide as the array. -/
theorem tiles_cover (i : S100000x64.Idx) :
    ∃ t : Fin cfg1.N, (cfg1.win 6).flush t = true ∧ i ∈ ((cfg1.win 6).blk t).view.set := by
  have hr : (i 0).val < 100000 := idx2_lt0 i
  have hc : (i 1).val < 64 := idx2_lt1 i
  have hN : cfg1.N = 20 := N_1
  let t : Fin cfg1.N := ⟨(i 0).val / 5000, by rw [hN]; omega⟩
  obtain ⟨-, -, e60, e61, -⟩ := tile_indices t
  have ht : t.val = (i 0).val / 5000 := rfl
  refine ⟨t, flush1_6 t, ?_⟩
  rw [mem_tile]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 64 ≤ (i 1).val ∧ (i 1).val < win1_6.index t (1 : Fin 2) * 64 + 64
    omega

/-- After the region the output array holds the entrywise function of the aggregate and the five one-row
    parameter arrays the region found. -/
theorem final (c : Dev nD) :
    (dat1 (F := Ideal) V c).arrAt 6 cfg1.N
      = Cert.Spec.bn (n := 100000) (p := 64) (V c main_v46) (V c main_v47) (V c main_v48) (V c main_v49) (V c main_v50) (V c main_v51) :=
  (dat1 (F := Ideal) V c).arrAt_eq_of_cover 6
    (Cert.Spec.bn (n := 100000) (p := 64) (V c main_v46) (V c main_v47) (V c main_v48) (V c main_v49) (V c main_v50) (V c main_v51))
    (fun t _ => tile_written V c t) tiles_cover

end Cert.KernelIdeal.RegBN1

end
-- ==== Proof.RegBN3.lean ====
/-
  Bias, normalisation and relu, tile by tile: each of the twenty points writes 5000 rows of the entrywise
  function, the one-row parameters read whole at every point.
-/
import proofs.«431411_j11312943857689_1_alg».proof.Proof.Gen.KernelIdeal.Frame
import proofs.«431411_j11312943857689_1_alg».proof.Proof.Spec
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.RegBN3

open Cert.KernelIdeal Cert.KernelIdeal.Gen

variable (V : (c : Dev nD) → (b : Ref sig .tc) → Buf (Elt Ideal) ((c : Thread nD τ).loc b))

/-- The two offsets of a whole-buffer access are zero. -/
theorem offsets_zero : (![0, 0] : Fin 2 → Nat) = fun _ => 0 :=
  funext fun a => match a with | ⟨0, _⟩ => rfl | ⟨1, _⟩ => rfl

/-- One entry of the tile the body stores: at row `p`, column `q` of the tile it is the aggregate's entry there,
    shifted by the bias and the mean, scaled by the inverse root of the variance plus epsilon and by gamma, shifted
    by beta, and clipped below at zero — every parameter read in its one row at column `q`. -/
theorem tile_entry (a : Vec Ideal S5000x64 .f32) (b μ v g β : Vec Ideal S1x64 .f32) (p : Fin 5000) (q : Fin 64) :
    k3_pay1 (F := Ideal) a b μ v g β (ix2 p q)
      = max ((((a (ix2 p q) + b (ix2 (0 : Fin 1) q)) - μ (ix2 (0 : Fin 1) q))
              * Ideal.rsqrt (v (ix2 (0 : Fin 1) q) + Ideal.ofBits .f32 Cert.Spec.epsW)) * g (ix2 (0 : Fin 1) q)
            + β (ix2 (0 : Fin 1) q))
          (Ideal.ofBits .f32 0x00000000#32) := by
  unfold k3_pay1
  simp only [shapeCast_self]
  simp only [maximumf_apply, addf_apply, mulf_apply, subf_apply, broadcast_apply, broadcastTo_1b_ab_apply]
  rfl

/-- The block indices of the seven windows, decided over the twenty points: at point `t` the aggregate's and the
    output's block is tile `t` of the rows, and each parameter's block is its whole one-row array. -/
theorem tile_indices : ∀ t : Fin cfg3.N,
    win3_0.index t (0 : Fin 2) = t.val ∧ win3_0.index t (1 : Fin 2) = 0
    ∧ win3_6.index t (0 : Fin 2) = t.val ∧ win3_6.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- An entry of the stored tile is the entrywise function at an entry of the whole arrays, as soon as the tile's
    aggregate entry is the array's entry there, the two entries share their column, and each parameter block's row
    is the parameter's row. -/
theorem tile_entry_of_reads (A : FVec Ideal S100000x64 .f32) (B G Be M Va : FVec Ideal S1x64 .f32)
    (a : Vec Ideal S5000x64 .f32) (b μ v g β : Vec Ideal S1x64 .f32)
    (hb : ∀ q : Fin 64, b (ix2 (0 : Fin 1) q) = B (ix2 (0 : Fin 1) q))
    (hμ : ∀ q : Fin 64, μ (ix2 (0 : Fin 1) q) = M (ix2 (0 : Fin 1) q))
    (hv : ∀ q : Fin 64, v (ix2 (0 : Fin 1) q) = Va (ix2 (0 : Fin 1) q))
    (hg : ∀ q : Fin 64, g (ix2 (0 : Fin 1) q) = G (ix2 (0 : Fin 1) q))
    (hβ : ∀ q : Fin 64, β (ix2 (0 : Fin 1) q) = Be (ix2 (0 : Fin 1) q))
    (j : S5000x64.Idx) (i : S100000x64.Idx) (hcol : (i 1).val = (j 1).val) (ha : a j = A i) :
    k3_pay1 (F := Ideal) a b μ v g β j = Cert.Spec.bn (n := 100000) (p := 64) A B G Be M Va i := by
  obtain ⟨p, q, rfl⟩ : ∃ (p : Fin 5000) (q : Fin 64), j = ix2 p q := ⟨j 0, j 1, eq_ix2 j⟩
  have hq : (i 1 : Fin 64) = q := Fin.ext hcol
  rw [tile_entry, ha, hb, hμ, hv, hg, hβ]
  unfold Cert.Spec.bn
  dsimp only
  rw [hq]

/-- What point `t` writes back is tile `t` of the entrywise function of the arrays the region found. -/
theorem tile_written (c : Dev nD) (t : Fin cfg3.N) :
    (dat3 (F := Ideal) V c).flushed 6 t
      = ((cfg3.win 6).blk t).view.read (Elt Ideal)
          (Cert.Spec.bn (n := 100000) (p := 64) (V c main_v66) (V c main_v67) (V c main_v68) (V c main_v69) (V c main_v70) (V c main_v71)) := by
  show (cfg3.win 6).cut (grid3.coords t) ((dat3 V c).after 6 t) = _
  rw [after3_6]
  unfold out3_6
  rw [View.canon_unit_zero offsets_zero]
  simp only [View.ld_unit_zero (S := S5000x64) offsets_zero, View.ld_unit_zero (S := S1x64) offsets_zero]
  obtain ⟨e00, e01, e60, e61, e10, e11, e20, e21, e30, e31, e40, e41, e50, e51⟩ := tile_indices t
  funext j
  show k3_pay1 (F := Ideal) (iblk3 V c 0 t) (iblk3 V c 1 t) (iblk3 V c 4 t) (iblk3 V c 5 t) (iblk3 V c 2 t) (iblk3 V c 3 t) j
      = Cert.Spec.bn (n := 100000) (p := 64) (V c main_v66) (V c main_v67) (V c main_v68) (V c main_v69) (V c main_v70) (V c main_v71)
          (((cfg3.win 6).blk t).view.emb j)
  refine tile_entry_of_reads (V c main_v66) (V c main_v67) (V c main_v68) (V c main_v69) (V c main_v70) (V c main_v71)
    (iblk3 V c 0 t) (iblk3 V c 1 t) (iblk3 V c 4 t) (iblk3 V c 5 t) (iblk3 V c 2 t) (iblk3 V c 3 t)
    (fun q => ?_) (fun q => ?_) (fun q => ?_) (fun q => ?_) (fun q => ?_) j (((cfg3.win 6).blk t).view.emb j) ?_ ?_
  · show V c main_v67 (((cfg3.win 1).blk t).view.emb (ix2 (0 : Fin 1) q)) = V c main_v67 (ix2 (0 : Fin 1) q)
    refine congrArg _ (funext fun a => Fin.ext ?_)
    match a with
    | ⟨0, _⟩ => show win3_1.index t (0 : Fin 2) * 1 + 1 * 0 = 0; omega
    | ⟨1, _⟩ => show win3_1.index t (1 : Fin 2) * 64 + 1 * q.val = q.val; omega
  · show V c main_v70 (((cfg3.win 4).blk t).view.emb (ix2 (0 : Fin 1) q)) = V c main_v70 (ix2 (0 : Fin 1) q)
    refine congrArg _ (funext fun a => Fin.ext ?_)
    match a with
    | ⟨0, _⟩ => show win3_4.index t (0 : Fin 2) * 1 + 1 * 0 = 0; omega
    | ⟨1, _⟩ => show win3_4.index t (1 : Fin 2) * 64 + 1 * q.val = q.val; omega
  · show V c main_v71 (((cfg3.win 5).blk t).view.emb (ix2 (0 : Fin 1) q)) = V c main_v71 (ix2 (0 : Fin 1) q)
    refine congrArg _ (funext fun a => Fin.ext ?_)
    match a with
    | ⟨0, _⟩ => show win3_5.index t (0 : Fin 2) * 1 + 1 * 0 = 0; omega
    | ⟨1, _⟩ => show win3_5.index t (1 : Fin 2) * 64 + 1 * q.val = q.val; omega
  · show V c main_v68 (((cfg3.win 2).blk t).view.emb (ix2 (0 : Fin 1) q)) = V c main_v68 (ix2 (0 : Fin 1) q)
    refine congrArg _ (funext fun a => Fin.ext ?_)
    match a with
    | ⟨0, _⟩ => show win3_2.index t (0 : Fin 2) * 1 + 1 * 0 = 0; omega
    | ⟨1, _⟩ => show win3_2.index t (1 : Fin 2) * 64 + 1 * q.val = q.val; omega
  · show V c main_v69 (((cfg3.win 3).blk t).view.emb (ix2 (0 : Fin 1) q)) = V c main_v69 (ix2 (0 : Fin 1) q)
    refine congrArg _ (funext fun a => Fin.ext ?_)
    match a with
    | ⟨0, _⟩ => show win3_3.index t (0 : Fin 2) * 1 + 1 * 0 = 0; omega
    | ⟨1, _⟩ => show win3_3.index t (1 : Fin 2) * 64 + 1 * q.val = q.val; omega
  · show win3_6.index t (1 : Fin 2) * 64 + 1 * (j 1).val = (j 1).val
    omega
  · show V c main_v66 (((cfg3.win 0).blk t).view.emb j) = V c main_v66 (((cfg3.win 6).blk t).view.emb j)
    refine congrArg _ (funext fun a => Fin.ext ?_)
    match a with
    | ⟨0, _⟩ => show win3_0.index t (0 : Fin 2) * 5000 + 1 * (j 0).val = win3_6.index t (0 : Fin 2) * 5000 + 1 * (j 0).val; omega
    | ⟨1, _⟩ => show win3_0.index t (1 : Fin 2) * 64 + 1 * (j 1).val = win3_6.index t (1 : Fin 2) * 64 + 1 * (j 1).val; omega

/-- An entry of the output array lies in point `t`'s block exactly when, on each axis, its coordinate lies in the
    block's range: the block index times the block's extent, and that extent further. -/
theorem mem_tile (t : Fin cfg3.N) (i : S100000x64.Idx) :
    i ∈ ((cfg3.win 6).blk t).view.set
      ↔ ∀ a : Fin 2, win3_6.index t a * S5000x64.size a ≤ (i a).val
          ∧ (i a).val < win3_6.index t a * S5000x64.size a + S5000x64.size a := by
  show i ∈ ((View.whole main_v72).slice (win3_6.rect t)).set ↔ _
  rw [View.set_slice_whole, Rect.mem_set_unit]
  exact Iff.rfl

/-- Every entry of the output array is written: row `r` lies in the tile of point `r / 5000`, and the tiles are as
    wide as the array. -/
theorem tiles_cover (i : S100000x64.Idx) :
    ∃ t : Fin cfg3.N, (cfg3.win 6).flush t = true ∧ i ∈ ((cfg3.win 6).blk t).view.set := by
  have hr : (i 0).val < 100000 := idx2_lt0 i
  have hc : (i 1).val < 64 := idx2_lt1 i
  have hN : cfg3.N = 20 := N_3
  let t : Fin cfg3.N := ⟨(i 0).val / 5000, by rw [hN]; omega⟩
  obtain ⟨-, -, e60, e61, -⟩ := tile_indices t
  have ht : t.val = (i 0).val / 5000 := rfl
  refine ⟨t, flush3_6 t, ?_⟩
  rw [mem_tile]
  intro a
  match a with
  | ⟨0, _⟩ =>
    show win3_6.index t (0 : Fin 2) * 5000 ≤ (i 0).val ∧ (i 0).val < win3_6.index t (0 : Fin 2) * 5000 + 5000
    omega
  | ⟨1, _⟩ =>
    show win3_6.index t (1 : Fin 2) * 64 ≤ (i 1).val ∧ (i 1).val < win3_6.index t (1 : Fin 2) * 64 + 64
    omega

/-- After the region the output array holds the entrywise function of the aggregate and the five one-row
    parameter arrays the region found. -/
theorem final (c : Dev nD) :
    (dat3 (F := Ideal) V c).arrAt 6 cfg3.N
      = Cert.Spec.bn (n := 100000) (p := 64) (V c main_v66) (V c main_v67) (V c main_v68) (V c main_v69) (V c main_v70) (V c main_v71) :=
  (dat3 (F := Ideal) V c).arrAt_eq_of_cover 6
    (Cert.Spec.bn (n := 100000) (p := 64) (V c main_v66) (V c main_v67) (V c main_v68) (V c main_v69) (V c main_v70) (V c main_v71))
    (fun t _ => tile_written V c t) tiles_cover

end Cert.KernelIdeal.RegBN3

end
-- ==== Proof.RegBN5.lean ====
/-
  Bias, normalisation and relu, tile by tile: each of the twenty points writes 5000 rows of the entrywise
  function, the one-row parameters read whole at every point.
-/
import proofs.«431411_j11312943857689_1_alg».proof.Proof.Gen.KernelIdeal.Frame
import proofs.«431411_j11312943857689_1_alg».proof.Proof.Spec
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.RegBN5

open Cert.KernelIdeal Cert.KernelIdeal.Gen

variable (V : (c : Dev nD) → (b : Ref sig .tc) → Buf (Elt Ideal) ((c : Thread nD τ).loc b))

/-- The two offsets of a whole-buffer access are zero. -/
theorem offsets_zero : (![0, 0] : Fin 2 → Nat) = fun _ => 0 :=
  funext fun a => match a with | ⟨0, _⟩ => rfl | ⟨1, _⟩ => rfl

/-- One entry of the tile the body stores: at row `p`, column `q` of the tile it is the aggregate's entry there,
    shifted by the bias and the mean, scaled by the inverse root of the variance plus epsilon and by gamma, shifted
    by beta, and clipped below at zero — every parameter read in its one row at column `q`. -/
theorem tile_entry (a : Vec Ideal S5000x64 .f32) (b μ v g β : Vec Ideal S1x64 .f32) (p : Fin 5000) (q : Fin 64) :
    k5_pay1 (F := Ideal) a b μ v g β (ix2 p q)
      = max ((((a (ix2 p q) + b (ix2 (0 : Fin 1) q)) - μ (ix2 (0 : Fin 1) q))
              * Ideal.rsqrt (v (ix2 (0 : Fin 1) q) + Ideal.ofBits .f32 Cert.Spec.epsW)) * g (ix2 (0 : Fin 1) q)
            + β (ix2 (0 : Fin 1) q))
          (Ideal.ofBits .f32 0x00000000#32) := by
  unfold k5_pay1
  simp only [shapeCast_self]
  simp only [maximumf_apply, addf_apply, mulf_apply, subf_apply, broadcast_apply, broadcastTo_1b_ab_apply]
  rfl

/-- The block indices of the seven windows, decided over the twenty points: at point `t` the aggregate's and the
    output's block is tile `t` of the rows, and each parameter's block is its whole one-row array. -/
theorem tile_indices : ∀ t : Fin cfg5.N,
    win5_0.index t (0 : Fin 2) = t.val ∧ win5_0.index t (1 : Fin 2) = 0
    ∧ win5_6.index t (0 : Fin 2) = t.val ∧ win5_6.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0 :=
  (by decide +kernel : ∀ t : Fin grid5.N, _)

/-- An entry of the stored tile is the entrywise function at an entry of the whole arrays, as soon as the tile's
    aggregate entry is the array's entry there, the two entries share their column, and each parameter block's row
    is the parameter's row. -/
theorem tile_entry_of_reads (A : FVec Ideal S100000x64 .f32) (B G Be M Va : FVec Ideal S1x64 .f32)
    (a : Vec Ideal S5000x64 .f32) (b μ v g β : Vec Ideal S1x64 .f32)
    (hb : ∀ q : Fin 64, b (ix2 (0 : Fin 1) q) = B (ix2 (0 : Fin 1) q))
    (hμ : ∀ q : Fin 64, μ (ix2 (0 : Fin 1) q) = M (ix2 (0 : Fin 1) q))
    (hv : ∀ q : Fin 64, v (ix2 (0 : Fin 1) q) = Va (ix2 (0 : Fin 1) q))
    (hg : ∀ q : Fin 64, g (ix2 (0 : Fin 1) q) = G (ix2 (0 : Fin 1) q))
    (hβ : ∀ q : Fin 64, β (ix2 (0 : Fin 1) q) = Be (ix2 (0 : Fin 1) q))
    (j : S5000x64.Idx) (i : S100000x64.Idx) (hcol : (i 1).val = (j 1).val) (ha : a j = A i) :
    k5_pay1 (F := Ideal) a b μ v g β j = Cert.Spec.bn (n := 100000) (p := 64) A B G Be M Va i := by
  obtain ⟨p, q, rfl⟩ : ∃ (p : Fin 5000) (q : Fin 64), j = ix2 p q := ⟨j 0, j 1, eq_ix2 j⟩
  have hq : (i 1 : Fin 64) = q := Fin.ext hcol
  rw [tile_entry, ha, hb, hμ, hv, hg, hβ]
  unfold Cert.Spec.bn
  dsimp only
  rw [hq]

/-- What point `t` writes back is tile `t` of the entrywise function of the arrays the region found. -/
theorem tile_written (c : Dev nD) (t : Fin cfg5.N) :
    (dat5 (F := Ideal) V c).flushed 6 t
      = ((cfg5.win 6).blk t).view.read (Elt Ideal)
          (Cert.Spec.bn (n := 100000) (p := 64) (V c main_v86) (V c main_v87) (V c main_v88) (V c main_v89) (V c main_v90) (V c main_v91)) := by
  show (cfg5.win 6).cut (grid5.coords t) ((dat5 V c).after 6 t) = _
  rw [after5_6]
  unfold out5_6
  rw [View.canon_unit_zero offsets_zero]
  simp only [View.ld_unit_zero (S := S5000x64) offsets_zero, View.ld_unit_zero (S := S1x64) offsets_zero]
  obtain ⟨e00, e01, e60, e61, e10, e11, e20, e21, e30, e31, e40, e41, e50, e51⟩ := tile_indices t
  funext j
  show k5_pay1 (F := Ideal) (iblk5 V c 0 t) (iblk5 V c 1 t) (iblk5 V c 4 t) (iblk5 V c 5 t) (iblk5 V c 2 t) (iblk5 V c 3 t) j
      = Cert.Spec.bn (n := 100000) (p := 64) (V c main_v86) (V c main_v87) (V c main_v88) (V c main_v89) (V c main_v90) (V c main_v91)
          (((cfg5.win 6).blk t).view.emb j)
  refine tile_entry_of_reads (V c main_v86) (V c main_v87) (V c main_v88) (V c main_v89) (V c main_v90) (V c main_v91)
    (iblk5 V c 0 t) (iblk5 V c 1 t) (iblk5 V c 4 t) (iblk5 V c 5 t) (iblk5 V c 2 t) (iblk5 V c 3 t)
    (fun q => ?_) (fun q => ?_) (fun q => ?_) (fun q => ?_) (fun q => ?_) j (((cfg5.win 6).blk t).view.emb j) ?_ ?_
  · show V c main_v87 (((cfg5.win 1).blk t).view.emb (ix2 (0 : Fin 1) q)) = V c main_v87 (ix2 (0 : Fin 1) q)
    refine congrArg _ (funext fun a => Fin.ext ?_)
    match a with
    | ⟨0, _⟩ => show win5_1.index t (0 : Fin 2) * 1 + 1 * 0 = 0; omega
    | ⟨1, _⟩ => show win5_1.index t (1 : Fin 2) * 64 + 1 * q.val = q.val; omega
  · show V c main_v90 (((cfg5.win 4).blk t).view.emb (ix2 (0 : Fin 1) q)) = V c main_v90 (ix2 (0 : Fin 1) q)
    refine congrArg _ (funext fun a => Fin.ext ?_)
    match a with
    | ⟨0, _⟩ => show win5_4.index t (0 : Fin 2) * 1 + 1 * 0 = 0; omega
    | ⟨1, _⟩ => show win5_4.index t (1 : Fin 2) * 64 + 1 * q.val = q.val; omega
  · show V c main_v91 (((cfg5.win 5).blk t).view.emb (ix2 (0 : Fin 1) q)) = V c main_v91 (ix2 (0 : Fin 1) q)
    refine congrArg _ (funext fun a => Fin.ext ?_)
    match a with
    | ⟨0, _⟩ => show win5_5.index t (0 : Fin 2) * 1 + 1 * 0 = 0; omega
    | ⟨1, _⟩ => show win5_5.index t (1 : Fin 2) * 64 + 1 * q.val = q.val; omega
  · show V c main_v88 (((cfg5.win 2).blk t).view.emb (ix2 (0 : Fin 1) q)) = V c main_v88 (ix2 (0 : Fin 1) q)
    refine congrArg _ (funext fun a => Fin.ext ?_)
    match a with
    | ⟨0, _⟩ => show win5_2.index t (0 : Fin 2) * 1 + 1 * 0 = 0; omega
    | ⟨1, _⟩ => show win5_2.index t (1 : Fin 2) * 64 + 1 * q.val = q.val; omega
  · show V c main_v89 (((cfg5.win 3).blk t).view.emb (ix2 (0 : Fin 1) q)) = V c main_v89 (ix2 (0 : Fin 1) q)
    refine congrArg _ (funext fun a => Fin.ext ?_)
    match a with
    | ⟨0, _⟩ => show win5_3.index t (0 : Fin 2) * 1 + 1 * 0 = 0; omega
    | ⟨1, _⟩ => show win5_3.index t (1 : Fin 2) * 64 + 1 * q.val = q.val; omega
  · show win5_6.index t (1 : Fin 2) * 64 + 1 * (j 1).val = (j 1).val
    omega
  · show V c main_v86 (((cfg5.win 0).blk t).view.emb j) = V c main_v86 (((cfg5.win 6).blk t).view.emb j)
    refine congrArg _ (funext fun a => Fin.ext ?_)
    match a with
    | ⟨0, _⟩ => show win5_0.index t (0 : Fin 2) * 5000 + 1 * (j 0).val = win5_6.index t (0 : Fin 2) * 5000 + 1 * (j 0).val; omega
    | ⟨1, _⟩ => show win5_0.index t (1 : Fin 2) * 64 + 1 * (j 1).val = win5_6.index t (1 : Fin 2) * 64 + 1 * (j 1).val; omega

/-- An entry of the output array lies in point `t`'s block exactly when, on each axis, its coordinate lies in the
    block's range: the block index times the block's extent, and that extent further. -/
theorem mem_tile (t : Fin cfg5.N) (i : S100000x64.Idx) :
    i ∈ ((cfg5.win 6).blk t).view.set
      ↔ ∀ a : Fin 2, win5_6.index t a * S5000x64.size a ≤ (i a).val
          ∧ (i a).val < win5_6.index t a * S5000x64.size a + S5000x64.size a := by
  show i ∈ ((View.whole main_v92).slice (win5_6.rect t)).set ↔ _
  rw [View.set_slice_whole, Rect.mem_set_unit]
  exact Iff.rfl

/-- Every entry of the output array is written: row `r` lies in the tile of point `r / 5000`, and the tiles are as
    wide as the array. -/
theorem tiles_cover (i : S100000x64.Idx) :
    ∃ t : Fin cfg5.N, (cfg5.win 6).flush t = true ∧ i ∈ ((cfg5.win 6).blk t).view.set := by
  have hr : (i 0).val < 100000 := idx2_lt0 i
  have hc : (i 1).val < 64 := idx2_lt1 i
  have hN : cfg5.N = 20 := N_5
  let t : Fin cfg5.N := ⟨(i 0).val / 5000, by rw [hN]; omega⟩
  obtain ⟨-, -, e60, e61, -⟩ := tile_indices t
  have ht : t.val = (i 0).val / 5000 := rfl
  refine ⟨t, flush5_6 t, ?_⟩
  rw [mem_tile]
  intro a
  match a with
  | ⟨0, _⟩ =>
    show win5_6.index t (0 : Fin 2) * 5000 ≤ (i 0).val ∧ (i 0).val < win5_6.index t (0 : Fin 2) * 5000 + 5000
    omega
  | ⟨1, _⟩ =>
    show win5_6.index t (1 : Fin 2) * 64 ≤ (i 1).val ∧ (i 1).val < win5_6.index t (1 : Fin 2) * 64 + 64
    omega

/-- After the region the output array holds the entrywise function of the aggregate and the five one-row
    parameter arrays the region found. -/
theorem final (c : Dev nD) :
    (dat5 (F := Ideal) V c).arrAt 6 cfg5.N
      = Cert.Spec.bn (n := 100000) (p := 64) (V c main_v86) (V c main_v87) (V c main_v88) (V c main_v89) (V c main_v90) (V c main_v91) :=
  (dat5 (F := Ideal) V c).arrAt_eq_of_cover 6
    (Cert.Spec.bn (n := 100000) (p := 64) (V c main_v86) (V c main_v87) (V c main_v88) (V c main_v89) (V c main_v90) (V c main_v91))
    (fun t _ => tile_written V c t) tiles_cover

end Cert.KernelIdeal.RegBN5

end
-- ==== Proof.RegPool6.lean ====
/-
  The per-graph sum as an accumulation over the grid: point 0 clears the 1024 × 64 block, every point t adds
  the products of its 2000 rows' indicator columns with the rows, and the block is written back once, after
  the last point; so the array ends at the sum over all 100000 rows.

  The steps.  What a point leaves in the block is read off the stores the body made: the update of the block
  it found, and at point 0 the update of the zero block.  Entry (g, q) of the update is the old entry plus
  ∑ᵣ [seg r = g] · x(r, q) over the point's 2000 rows: the indicator is 1 or 0, and over the extended reals
  1 · y = y and 0 · y = 0 for every y.  Row r of point t's blocks is row 2000 t + r of the arrays, so after
  point n the entry is the sum of the row terms of the rows below 2000 (n + 1), by induction on n; after point
  49 that is every row.
-/
import proofs.«431411_j11312943857689_1_alg».proof.Proof.Gen.KernelIdeal.Frame
import proofs.«431411_j11312943857689_1_alg».proof.Proof.Spec
import Idealize.ShloMosaic.Lib.Pipeline.Value
import Idealize.ShloMosaic.Lib.ValueIdx
import Idealize.ShloMosaic.PureOps.Ideal.Laws
import Mathlib.Algebra.BigOperators.Fin

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.RegPool6

open Cert.KernelIdeal Cert.KernelIdeal.Gen

/-! ## What a point's stores leave in the block -/

section Stores
variable {F : FTy → Type} [FloatOps F]

theorem origin2 : (![0, 0] : Fin 2 → Nat) = fun _ => 0 :=
  funext fun a => match a with | ⟨0, _⟩ => rfl | ⟨1, _⟩ => rfl

/-- A point other than the first: the one store writes the update of the block as the point found it. -/
theorem laterPoint (c : Dev nD) (i : grid6.Coords) (a1 : Memref sig .tc .vmem S2000x64 .f32) (h1 : a1.IsWhole)
    (a2 : Memref sig .tc .vmem S2000x1 .i32) (h2 : a2.IsWhole) (a3 : Memref sig .tc .vmem S1024x64 .f32) (h3 : a3.IsWhole)
    (hc : ¬cond6_0 i) (x0 : Vec F S2000x64 .f32) (x1 : Vec F S2000x1 .i32) (xo : Vec F S1024x64 .f32) :
    out6_B_2 c i a1 h1 a2 h2 a3 h3 hc x0 x1 xo = k6_pay2 x1 x0 xo := by
  unfold out6_B_2
  rw [View.read_writes_eq_canon _ _ _ (cover6_B_2 c i a1 h1 a2 h2 a3 h3 hc x0 x1 xo)]
  unfold kernelRun6_B
  dsimp only
  sl_unfold_words
  rw [View.canon_unit_zero origin2]
  simp only [View.readAt_eq_ld, h1.read_unread, h2.read_unread, h3.read_unread,
    View.ld_unit_zero (S := S2000x64) origin2, View.ld_unit_zero (S := S2000x1) origin2,
    View.ld_unit_zero (S := S1024x64) origin2]

/-- The first point: the zero block is stored, read back, and its update stored over it. -/
theorem firstPoint (c : Dev nD) (i : grid6.Coords) (a1 : Memref sig .tc .vmem S2000x64 .f32) (h1 : a1.IsWhole)
    (a2 : Memref sig .tc .vmem S2000x1 .i32) (h2 : a2.IsWhole) (a3 : Memref sig .tc .vmem S1024x64 .f32) (h3 : a3.IsWhole)
    (hc : cond6_0 i) (x0 : Vec F S2000x64 .f32) (x1 : Vec F S2000x1 .i32) :
    out6_A_2 c i a1 h1 a2 h2 a3 h3 hc x0 x1 = k6_pay2 x1 x0 (k6_pay1 (F := F)) := by
  unfold out6_A_2
  rw [View.read_writes_eq_canon _ _ _ (cover6_A_2 c i a1 h1 a2 h2 a3 h3 hc x0 x1)]
  unfold kernelRun6_A
  dsimp only
  sl_unfold_words
  rw [View.canon_cons_unit_zero (S := S1024x64) origin2, View.readCov_unit_zero (S := S1024x64) _ origin2]
  simp only [View.readAt_eq_ld, h1.read_unread, h2.read_unread,
    View.ld_unit_zero (S := S2000x64) origin2, View.ld_unit_zero (S := S2000x1) origin2]

end Stores

/-! ## The update, entry by entry, over the extended reals -/

/-- A one-bit equality test, widened and converted, is 1 or 0. -/
theorem indicator_word (a b : BitVec 32) :
    (FloatOps.sitofp .f32 ((IntOp.cmpi .eq a b).setWidth 32) : Ideal .f32) = if a = b then (1 : EReal) else 0 := by
  show (((((IntOp.cmpi .eq a b).setWidth 32).toInt : ℤ) : ℝ) : EReal) = _
  by_cases h : a = b
  · have e : ((IntOp.cmpi .eq a b).setWidth 32).toInt = 1 := by
      subst h; simp [IntOp.cmpi]
    rw [if_pos h, e]; simp
  · have hb : (a == b) = false := by simpa using h
    have e : ((IntOp.cmpi .eq a b).setWidth 32).toInt = 0 := by
      simp [IntOp.cmpi, hb]
    rw [if_neg h, e]; simp

/-- Entry (r, g) of the indicator matrix: is row r's segment word the number g? -/
theorem indicator_entry (seg : IVec S2000x1 32) (r : Fin 2000) (g : Fin 1024) :
    (sitofp .f32 (extui 32 (cmpi .eq (broadcastTo S2000x1024 seg broadcasts_S2000x1_S2000x1024)
        (iota .tc S2000x1024 32 [1] iota_S2000x1024_d1_w32)) natLt_1_32) : FVec Ideal S2000x1024 .f32)
        (ix2 (n0 := 2000) (n1 := 1024) r g)
      = if seg (ix2 (n0 := 2000) (n1 := 1) r 0) = BitVec.ofNat 32 g.val then (1 : EReal) else 0 := by
  have eb : broadcastTo S2000x1024 seg broadcasts_S2000x1_S2000x1024 (ix2 (n0 := 2000) (n1 := 1024) r g)
      = seg (ix2 (n0 := 2000) (n1 := 1) r 0) :=
    broadcastTo_apply seg broadcasts_S2000x1_S2000x1024 (ix2 (n0 := 2000) (n1 := 1024) r g) (ix2 (n0 := 2000) (n1 := 1) r 0)
      fun a => by
        match a with
        | ⟨0, _⟩ => show r.val = if (2000 : Nat) = 1 then 0 else r.val; rw [if_neg (by decide)]
        | ⟨1, _⟩ => show (0 : Nat) = if (1 : Nat) = 1 then 0 else g.val; rw [if_pos rfl]
  have ei : iota .tc S2000x1024 32 [1] iota_S2000x1024_d1_w32 (ix2 (n0 := 2000) (n1 := 1024) r g) = BitVec.ofNat 32 g.val :=
    iota_single_apply .tc S2000x1024 32 1 iota_S2000x1024_d1_w32 (ix2 (n0 := 2000) (n1 := 1024) r g)
  show (FloatOps.sitofp .f32 ((IntOp.cmpi .eq (broadcastTo S2000x1024 seg broadcasts_S2000x1_S2000x1024 (ix2 (n0 := 2000) (n1 := 1024) r g))
      (iota .tc S2000x1024 32 [1] iota_S2000x1024_d1_w32 (ix2 (n0 := 2000) (n1 := 1024) r g))).setWidth 32) : Ideal .f32) = _
  rw [eb, ei]
  exact indicator_word _ _

/-! The product contracts the row axis of both operands. -/

theorem lhs_rows (j : S1024x64.Idx) (k : dot_S2000x1024_S2000x64_S1024x64_0_0_1_1_n_n.contr.Idx) :
    (dot_S2000x1024_S2000x64_S1024x64_0_0_1_1_n_n.lhsIdx j k 0).val = (k ⟨0, by decide⟩).val :=
  dot_S2000x1024_S2000x64_S1024x64_0_0_1_1_n_n.lhsIdx_val_of_single rfl j k
theorem lhs_cols (j : S1024x64.Idx) (k : dot_S2000x1024_S2000x64_S1024x64_0_0_1_1_n_n.contr.Idx) :
    (dot_S2000x1024_S2000x64_S1024x64_0_0_1_1_n_n.lhsIdx j k 1).val = (j 0).val := by
  unfold DotDims.lhsIdx
  rw [dif_neg (show ¬(1 : Fin S2000x1024.rank) ∈ dot_S2000x1024_S2000x64_S1024x64_0_0_1_1_n_n.lhsBatch by decide),
    dif_pos (show (1 : Fin S2000x1024.rank) ∈ dot_S2000x1024_S2000x64_S1024x64_0_0_1_1_n_n.lhsNonContracting by decide)]
  rfl
theorem rhs_rows (j : S1024x64.Idx) (k : dot_S2000x1024_S2000x64_S1024x64_0_0_1_1_n_n.contr.Idx) :
    (dot_S2000x1024_S2000x64_S1024x64_0_0_1_1_n_n.rhsIdx j k 0).val = (k ⟨0, by decide⟩).val :=
  dot_S2000x1024_S2000x64_S1024x64_0_0_1_1_n_n.rhsIdx_val_of_single rfl j k
theorem rhs_cols (j : S1024x64.Idx) (k : dot_S2000x1024_S2000x64_S1024x64_0_0_1_1_n_n.contr.Idx) :
    (dot_S2000x1024_S2000x64_S1024x64_0_0_1_1_n_n.rhsIdx j k 1).val = (j 1).val := by
  unfold DotDims.rhsIdx
  rw [dif_neg (show ¬(1 : Fin S2000x64.rank) ∈ dot_S2000x1024_S2000x64_S1024x64_0_0_1_1_n_n.rhsBatch by decide),
    dif_pos (show (1 : Fin S2000x64.rank) ∈ dot_S2000x1024_S2000x64_S1024x64_0_0_1_1_n_n.rhsNonContracting by decide)]
  rfl

/-- The transposed product into the zero block: entry (g, q) sums, over the 2000 rows, the left operand's (r, g)
    times the right operand's (r, q). -/
theorem rowsProduct_apply (A : FVec Ideal S2000x1024 .bf16) (B : FVec Ideal S2000x64 .bf16) (g : Fin 1024) (q : Fin 64) :
    matmul dot_S2000x1024_S2000x64_S1024x64_0_0_1_1_n_n none A B (constant (F := Ideal) S1024x64 .f32 0x00000000#32)
        (ix2 (n0 := 1024) (n1 := 64) g q)
      = ∑ r : Fin 2000, A (ix2 (n0 := 2000) (n1 := 1024) r g) * B (ix2 (n0 := 2000) (n1 := 64) r q) := by
  simp only [matmul]
  rw [Ideal.matmul_constant_zero_apply,
    ← Equiv.sum_comp (contrEquiv1 dot_S2000x1024_S2000x64_S1024x64_0_0_1_1_n_n 2000 rfl rfl).symm]
  refine Finset.sum_congr rfl fun r _ => ?_
  have hr := contrEquiv1_symm_val dot_S2000x1024_S2000x64_S1024x64_0_0_1_1_n_n 2000 rfl rfl r
  have el : dot_S2000x1024_S2000x64_S1024x64_0_0_1_1_n_n.lhsIdx (ix2 (n0 := 1024) (n1 := 64) g q)
      ((contrEquiv1 dot_S2000x1024_S2000x64_S1024x64_0_0_1_1_n_n 2000 rfl rfl).symm r) = ix2 (n0 := 2000) (n1 := 1024) r g :=
    funext fun a => Fin.ext (by
      match a with
      | ⟨0, _⟩ => exact (lhs_rows _ _).trans hr
      | ⟨1, _⟩ => exact lhs_cols _ _)
  have er : dot_S2000x1024_S2000x64_S1024x64_0_0_1_1_n_n.rhsIdx (ix2 (n0 := 1024) (n1 := 64) g q)
      ((contrEquiv1 dot_S2000x1024_S2000x64_S1024x64_0_0_1_1_n_n 2000 rfl rfl).symm r) = ix2 (n0 := 2000) (n1 := 64) r q :=
    funext fun a => Fin.ext (by
      match a with
      | ⟨0, _⟩ => exact (rhs_rows _ _).trans hr
      | ⟨1, _⟩ => exact rhs_cols _ _)
  rw [el, er]

/-- The update at an entry: the old entry plus the sum of the point's rows whose segment word is g. -/
theorem update_apply (seg : Vec Ideal S2000x1 .i32) (x : Vec Ideal S2000x64 .f32) (acc : Vec Ideal S1024x64 .f32)
    (g : Fin 1024) (q : Fin 64) :
    k6_pay2 (F := Ideal) seg x acc (ix2 (n0 := 1024) (n1 := 64) g q)
      = acc (ix2 (n0 := 1024) (n1 := 64) g q)
        + ∑ r : Fin 2000, if seg (ix2 (n0 := 2000) (n1 := 1) r 0) = BitVec.ofNat 32 g.val
            then x (ix2 (n0 := 2000) (n1 := 64) r q) else 0 := by
  unfold k6_pay2
  dsimp only
  simp only [shapeCast_self]
  refine (addf_apply _ _ _).trans ?_
  rw [rowsProduct_apply]
  refine congrArg (acc (ix2 (n0 := 1024) (n1 := 64) g q) + ·) (Finset.sum_congr rfl fun r _ => ?_)
  rw [truncf_apply, truncf_apply, indicator_entry]
  by_cases h : seg (ix2 (n0 := 2000) (n1 := 1) r 0) = BitVec.ofNat 32 g.val
  · rw [if_pos h, if_pos h, one_mul]
  · rw [if_neg h, if_neg h, zero_mul]

/-- The block the first point stores before its update is zero everywhere. -/
theorem cleared_apply (j : S1024x64.Idx) : k6_pay1 (F := Ideal) j = 0 := by
  unfold k6_pay1
  exact Ideal.ofBits_zero_f32

/-! ## Row terms: the sum in one index -/

/-- Row k's term of entry (g, q): the row's entry q when its segment word is g, else 0 (and 0 past the array). -/
def rowTerm (H : FVec Ideal (⟨2, ![100000, 64]⟩ : Shape) .f32) (S : IVec (⟨2, ![100000, 1]⟩ : Shape) 32)
    (g : Fin 1024) (q : Fin 64) (k : ℕ) : EReal :=
  if hk : k < 100000 then
    (if S (ix2 (n0 := 100000) (n1 := 1) ⟨k, hk⟩ 0) = BitVec.ofNat 32 g.val
      then H (ix2 (n0 := 100000) (n1 := 64) ⟨k, hk⟩ q) else 0)
  else 0

/-- The per-segment sum at an entry is the sum of the row terms of all 100000 rows. -/
theorem pool_entry (H : FVec Ideal (⟨2, ![100000, 64]⟩ : Shape) .f32) (S : IVec (⟨2, ![100000, 1]⟩ : Shape) 32)
    (g : Fin 1024) (q : Fin 64) :
    Cert.Spec.pool (n := 100000) (p := 64) (G := 1024) H S (ix2 (n0 := 1024) (n1 := 64) g q)
      = ∑ k ∈ Finset.range 100000, rowTerm H S g q k := by
  show (∑ r : Fin 100000, if S (ix2 (n0 := 100000) (n1 := 1) r 0) = BitVec.ofNat 32 g.val
      then H (ix2 (n0 := 100000) (n1 := 64) r q) else 0) = _
  rw [Finset.sum_range]
  refine Finset.sum_congr rfl fun r _ => ?_
  unfold rowTerm
  rw [dif_pos r.isLt]

/-! ## The blocks the points read -/

variable (V : (c : Dev nD) → (b : Ref sig .tc) → Buf (Elt Ideal) ((c : Thread nD τ).loc b))

/-- Point t's block of node rows, of segment words; the two arrays. -/
abbrev xblk (c : Dev nD) (t : Fin cfg6.N) : Vec Ideal S2000x64 .f32 := iblk6 V c 0 t
abbrev sblk (c : Dev nD) (t : Fin cfg6.N) : Vec Ideal S2000x1 .i32 := iblk6 V c 1 t
abbrev nodes (c : Dev nD) : FVec Ideal (⟨2, ![100000, 64]⟩ : Shape) .f32 := V c main_v92
abbrev words (c : Dev nD) : IVec (⟨2, ![100000, 1]⟩ : Shape) 32 := V c main_v93

/-- Both input windows step one row block per point and stay in column block 0. -/
theorem window_steps : ∀ t : Fin cfg6.N, win6_0.index t 0 = t.val ∧ win6_0.index t 1 = 0
    ∧ win6_1.index t 0 = t.val ∧ win6_1.index t 1 = 0 :=
  (by decide +kernel : ∀ t : Fin grid6.N, win6_0.index t 0 = t.val ∧ win6_0.index t 1 = 0
    ∧ win6_1.index t 0 = t.val ∧ win6_1.index t 1 = 0)

/-- Row r of point t's node block is row 2000 t + r of the node array. -/
theorem xblk_apply (c : Dev nD) (t : Fin cfg6.N) (r : Fin 2000) (q : Fin 64) (hk : 2000 * t.val + r.val < 100000) :
    xblk V c t (ix2 (n0 := 2000) (n1 := 64) r q) = nodes V c (ix2 (n0 := 100000) (n1 := 64) ⟨2000 * t.val + r.val, hk⟩ q) := by
  have hi := window_steps t
  show iblk6 V c 0 t (ix2 (n0 := 2000) (n1 := 64) r q) = V c main_v92 _
  unfold iblk6
  rw [View.read_apply]
  show V c main_v92 _ = V c main_v92 _
  congr 1
  funext a
  apply Fin.ext
  match a with
  | ⟨0, _⟩ => show win6_0.index t 0 * 2000 + 1 * r.val = 2000 * t.val + r.val; rw [hi.1]; omega
  | ⟨1, _⟩ => show win6_0.index t 1 * 64 + 1 * q.val = q.val; rw [hi.2.1]; omega

/-- Row r of point t's block of segment words is row 2000 t + r of the segment array. -/
theorem sblk_apply (c : Dev nD) (t : Fin cfg6.N) (r : Fin 2000) (hk : 2000 * t.val + r.val < 100000) :
    sblk V c t (ix2 (n0 := 2000) (n1 := 1) r 0) = words V c (ix2 (n0 := 100000) (n1 := 1) ⟨2000 * t.val + r.val, hk⟩ 0) := by
  have hi := window_steps t
  show iblk6 V c 1 t (ix2 (n0 := 2000) (n1 := 1) r 0) = V c main_v93 _
  unfold iblk6
  rw [View.read_apply]
  show V c main_v93 _ = V c main_v93 _
  congr 1
  funext a
  apply Fin.ext
  match a with
  | ⟨0, _⟩ => show win6_1.index t 0 * 2000 + 1 * r.val = 2000 * t.val + r.val; rw [hi.2.2.1]; omega
  | ⟨1, _⟩ => show win6_1.index t 1 * 1 + 1 * (0 : Fin 1).val = (0 : Fin 1).val; rw [hi.2.2.2]; rfl

/-- Point t's addend at entry (g, q) is the sum of the row terms of rows 2000 t … 2000 t + 1999. -/
theorem block_sum (c : Dev nD) (t : Fin cfg6.N) (g : Fin 1024) (q : Fin 64) :
    (∑ r : Fin 2000, if sblk V c t (ix2 (n0 := 2000) (n1 := 1) r 0) = BitVec.ofNat 32 g.val
        then xblk V c t (ix2 (n0 := 2000) (n1 := 64) r q) else 0)
      = ∑ r ∈ Finset.range 2000, rowTerm (nodes V c) (words V c) g q (2000 * t.val + r) := by
  rw [Finset.sum_range]
  refine Finset.sum_congr rfl fun r _ => ?_
  have hN : cfg6.N = 50 := N_6
  have hk : 2000 * t.val + r.val < 100000 := by have := t.isLt; have := r.isLt; omega
  unfold rowTerm
  rw [dif_pos hk, xblk_apply V c t r q hk, sblk_apply V c t r hk]

/-! ## The block after each point -/

/-- After point n the block holds, at (g, q), the sum of the row terms of the rows below 2000 (n + 1). -/
theorem running (c : Dev nD) : ∀ (n : ℕ) (h : n < cfg6.N) (g : Fin 1024) (q : Fin 64),
    outsAt6 V c n h (ix2 (n0 := 1024) (n1 := 64) g q)
      = ∑ k ∈ Finset.range (2000 * (n + 1)), rowTerm (nodes V c) (words V c) g q k
  | 0, h, g, q => by
    refine (congrFun (outsAt6_A V c ⟨0, h⟩ (Nat.zero_mod 50)) (ix2 (n0 := 1024) (n1 := 64) g q)).trans ?_
    refine (congrFun (firstPoint (F := Ideal) c (grid6.coords ⟨0, h⟩) (ms6_0 ⟨0, h⟩) (hs6_0 ⟨0, h⟩) (ms6_1 ⟨0, h⟩) (hs6_1 ⟨0, h⟩)
      (ms6_2 ⟨0, h⟩) (hs6_2 ⟨0, h⟩) ((hcond6_0 ⟨0, h⟩).mpr (Nat.zero_mod 50)) (xblk V c ⟨0, h⟩) (sblk V c ⟨0, h⟩))
      (ix2 (n0 := 1024) (n1 := 64) g q)).trans ?_
    refine (update_apply (sblk V c ⟨0, h⟩) (xblk V c ⟨0, h⟩) (k6_pay1 (F := Ideal)) g q).trans ?_
    rw [cleared_apply, zero_add, block_sum V c ⟨0, h⟩ g q]
    refine Finset.sum_congr rfl fun r _ => ?_
    show rowTerm (nodes V c) (words V c) g q (2000 * 0 + r) = _
    rw [Nat.mul_zero, Nat.zero_add]
  | n + 1, h, g, q => by
    have hN : cfg6.N = 50 := N_6
    have hB : ¬(⟨n + 1, h⟩ : Fin cfg6.N).val % 50 = 0 := by dsimp only; omega
    refine (congrFun (outsAt6_B V c ⟨n + 1, h⟩ hB) (ix2 (n0 := 1024) (n1 := 64) g q)).trans ?_
    refine (congrFun (laterPoint (F := Ideal) c (grid6.coords ⟨n + 1, h⟩) (ms6_0 ⟨n + 1, h⟩) (hs6_0 ⟨n + 1, h⟩)
      (ms6_1 ⟨n + 1, h⟩) (hs6_1 ⟨n + 1, h⟩) (ms6_2 ⟨n + 1, h⟩) (hs6_2 ⟨n + 1, h⟩)
      (fun hh => hB ((hcond6_0 ⟨n + 1, h⟩).mp hh)) (xblk V c ⟨n + 1, h⟩) (sblk V c ⟨n + 1, h⟩)
      (outsAt6 V c n (Nat.lt_of_succ_lt h))) (ix2 (n0 := 1024) (n1 := 64) g q)).trans ?_
    refine (update_apply (sblk V c ⟨n + 1, h⟩) (xblk V c ⟨n + 1, h⟩) (outsAt6 V c n (Nat.lt_of_succ_lt h)) g q).trans ?_
    rw [running c n (Nat.lt_of_succ_lt h) g q, block_sum V c ⟨n + 1, h⟩ g q,
      show 2000 * (n + 1 + 1) = 2000 * (n + 1) + 2000 from by omega, Finset.sum_range_add]

/-! ## The array after the region -/

/-- The per-segment sum of the node array, as contents of the result array. -/
abbrev total (c : Dev nD) : Buf (Elt Ideal) ((c : Thread nD τ).loc main_v94) :=
  Cert.Spec.pool (n := 100000) (p := 64) (G := 1024) (nodes V c) (words V c)

/-- The last point. -/
abbrev lastPoint : Fin cfg6.N := ⟨49, by rw [show cfg6.N = 50 from N_6]; decide⟩

/-- The one write-back, after the last point, writes the per-segment sum: the block is the whole array. -/
theorem flushed_eq (c : Dev nD) (t : Fin cfg6.N) (hf : (cfg6.win 2).flush t = true) :
    (dat6 (F := Ideal) V c).flushed 2 t = ((cfg6.win 2).blk t).view.read (Elt Ideal) (total V c) := by
  have hN : cfg6.N = 50 := N_6
  have h49 : t.val = 49 := by have := (flush6_2 t).mp hf; have := t.isLt; omega
  obtain rfl : t = lastPoint := Fin.ext h49
  show (cfg6.win 2).cut (grid6.coords lastPoint) ((dat6 (F := Ideal) V c).after 2 lastPoint) = _
  rw [after6_2]
  have hsum : outsAt6 V c lastPoint.val lastPoint.isLt = total V c := by
    funext j
    obtain ⟨g, q, rfl⟩ : ∃ (g : Fin 1024) (q : Fin 64), j = ix2 (n0 := 1024) (n1 := 64) g q := ⟨j 0, j 1, eq_ix2 j⟩
    exact (running V c 49 lastPoint.isLt g q).trans (pool_entry (nodes V c) (words V c) g q).symm
  rw [hsum]
  have hz' : (fun a => win6_2.index lastPoint a * main_v94.ty.shape.size a) = fun _ => 0 :=
    funext fun a => match a with
      | ⟨0, _⟩ => (by decide +kernel : win6_2.index lastPoint 0 * main_v94.ty.shape.size 0 = 0)
      | ⟨1, _⟩ => (by decide +kernel : win6_2.index lastPoint 1 * main_v94.ty.shape.size 1 = 0)
  exact (Memref.read_access_unit_zero (Elt Ideal) main_v94 hz' (fun a => by rw [congrFun hz' a]; simp) (total V c)).symm

/-- The output window's one block starts at the array's origin and has the array's extents. -/
theorem block_is_array :
    win6_2.index lastPoint 0 * win6_2.size 0 = 0 ∧ win6_2.xsize (grid6.coords lastPoint) 0 = 1024
      ∧ win6_2.index lastPoint 1 * win6_2.size 1 = 0 ∧ win6_2.xsize (grid6.coords lastPoint) 1 = 64 := by
  decide +kernel

/-- So every index of the result array lies in the block the last point writes back. -/
theorem mem_lastBlock (c : Dev nD) (i : ((cfg6.win 2).arr.view.loc (c.tc : Thread nD τ)).2.ty.Idx) :
    i ∈ ((cfg6.win 2).blk lastPoint).view.set := by
  obtain ⟨o0, e0, o1, e1⟩ := block_is_array
  have b0 : (i 0 : Nat) < 1024 := (i 0).isLt
  have b1 : (i 1 : Nat) < 64 := (i 1).isLt
  show i ∈ ((View.whole main_v94).slice (win6_2.rect lastPoint)).set
  rw [View.set_slice_whole, Rect.mem_set_unit]
  intro a
  match a with
  | ⟨0, _⟩ =>
    show win6_2.index lastPoint 0 * win6_2.size 0 ≤ (i 0 : Nat)
      ∧ (i 0 : Nat) < win6_2.index lastPoint 0 * win6_2.size 0 + win6_2.xsize (grid6.coords lastPoint) 0
    rw [o0, e0]; omega
  | ⟨1, _⟩ =>
    show win6_2.index lastPoint 1 * win6_2.size 1 ≤ (i 1 : Nat)
      ∧ (i 1 : Nat) < win6_2.index lastPoint 1 * win6_2.size 1 + win6_2.xsize (grid6.coords lastPoint) 1
    rw [o1, e1]; omega

/-- After the region the 1024 × 64 array holds, at (g, c), the sum of the rows of the node array whose segment
    word is g. -/
theorem final (c : Dev nD) :
    (dat6 (F := Ideal) V c).arrAt 2 cfg6.N = Cert.Spec.pool (n := 100000) (p := 64) (G := 1024) (V c main_v92) (V c main_v93) :=
  (dat6 (F := Ideal) V c).arrAt_eq_of_cover 2 (total V c) (flushed_eq V c) fun i =>
    ⟨lastPoint, (flush6_2 lastPoint).mpr rfl, mem_lastBlock c i⟩

end Cert.KernelIdeal.RegPool6

end
-- ==== Proof.RefMM.lean ====
/-
  The host's whole-array matrix product, read at an entry: the sum over the one contracted axis of the
  products — the same function the tiled kernel's result array holds.
-/
import proofs.«431411_j11312943857689_1_alg».proof.ReferenceIdeal
import proofs.«431411_j11312943857689_1_alg».proof.Proof.Gen.ReferenceIdeal
import proofs.«431411_j11312943857689_1_alg».proof.Proof.Spec
import Idealize.ShloMosaic.Lib.ValueIdx
import Idealize.ShloMosaic.PureOps.Ideal.Laws

set_option maxRecDepth 16384

noncomputable section

open scoped BigOperators
open Idealize.ShloMosaic Idealize.ShloMosaic.TcCoe Idealize.ShloMosaic.ValueIdx

namespace Cert.ReferenceIdeal.RefMM

open Cert.ReferenceIdeal Cert.ReferenceIdeal.Gen

/-! ### The 100000 × 100 by 100 × 64 product: where the two operands are read -/

/-- The left operand's row is the entry's row: axis 0 of the left operand is neither batched nor contracted. -/
theorem left100_row (i : S100000x64.Idx) (q : dot_S100000x100_S100x64_S100000x64_1_0_0_1_n_n.contr.Idx) :
    (dot_S100000x100_S100x64_S100000x64_1_0_0_1_n_n.lhsIdx i q 0).val = (i 0).val := by
  unfold DotDims.lhsIdx
  rw [dif_neg (show ¬(0 : Fin S100000x100.rank) ∈ dot_S100000x100_S100x64_S100000x64_1_0_0_1_n_n.lhsBatch by decide),
    dif_pos (show (0 : Fin S100000x100.rank) ∈ dot_S100000x100_S100x64_S100000x64_1_0_0_1_n_n.lhsNonContracting by decide)]
  rfl

/-- The left operand's column is the summation index: axis 1 is the one contracted axis. -/
theorem left100_col (i : S100000x64.Idx) (q : dot_S100000x100_S100x64_S100000x64_1_0_0_1_n_n.contr.Idx) :
    (dot_S100000x100_S100x64_S100000x64_1_0_0_1_n_n.lhsIdx i q 1).val = (q ⟨0, by decide⟩).val :=
  dot_S100000x100_S100x64_S100000x64_1_0_0_1_n_n.lhsIdx_val_of_single rfl i q

/-- The right operand's row is the summation index: axis 0 is the one contracted axis. -/
theorem right100_row (i : S100000x64.Idx) (q : dot_S100000x100_S100x64_S100000x64_1_0_0_1_n_n.contr.Idx) :
    (dot_S100000x100_S100x64_S100000x64_1_0_0_1_n_n.rhsIdx i q 0).val = (q ⟨0, by decide⟩).val :=
  dot_S100000x100_S100x64_S100000x64_1_0_0_1_n_n.rhsIdx_val_of_single rfl i q

/-- The right operand's column is the entry's column: axis 1 of the right operand is neither batched nor contracted. -/
theorem right100_col (i : S100000x64.Idx) (q : dot_S100000x100_S100x64_S100000x64_1_0_0_1_n_n.contr.Idx) :
    (dot_S100000x100_S100x64_S100000x64_1_0_0_1_n_n.rhsIdx i q 1).val = (i 1).val := by
  unfold DotDims.rhsIdx
  rw [dif_neg (show ¬(1 : Fin S100x64.rank) ∈ dot_S100000x100_S100x64_S100000x64_1_0_0_1_n_n.rhsBatch by decide),
    dif_pos (show (1 : Fin S100x64.rank) ∈ dot_S100000x100_S100x64_S100000x64_1_0_0_1_n_n.rhsNonContracting by decide)]
  rfl

/-- The 100000 × 100 by 100 × 64 product. -/
theorem dot100 (x : FVec Ideal S100000x100 .f32) (w : FVec Ideal S100x64 .f32) :
    Host.dotGeneral dot_S100000x100_S100x64_S100000x64_1_0_0_1_n_n none x w
      = Cert.Spec.mm (n := 100000) (k := 100) (p := 64) x w := by
  funext i
  -- the specification's entry, written out
  show Host.dotGeneral dot_S100000x100_S100x64_S100000x64_1_0_0_1_n_n none x w i
      = ∑ q : Fin 100, x (ix2 (n0 := 100000) (n1 := 100) (i 0) q) * w (ix2 (n0 := 100) (n1 := 64) q (i 1))
  -- the host's entry is the sum over the contraction index; that index has one axis of extent 100
  simp only [Host.dotGeneral]
  rw [Ideal.dotGeneral_apply,
    ← Equiv.sum_comp (ValueIdx.contrEquiv1 dot_S100000x100_S100x64_S100000x64_1_0_0_1_n_n 100 rfl rfl).symm]
  refine Finset.sum_congr rfl fun q _ => ?_
  have hq := ValueIdx.contrEquiv1_symm_val dot_S100000x100_S100x64_S100000x64_1_0_0_1_n_n 100 rfl rfl q
  -- at summation index q the left operand is read at (row, q) and the right at (q, column)
  have hl : dot_S100000x100_S100x64_S100000x64_1_0_0_1_n_n.lhsIdx i
      ((ValueIdx.contrEquiv1 dot_S100000x100_S100x64_S100000x64_1_0_0_1_n_n 100 rfl rfl).symm q)
        = ix2 (n0 := 100000) (n1 := 100) (i 0) q := funext fun a => Fin.ext (by
    match a with
    | ⟨0, _⟩ => exact left100_row _ _
    | ⟨1, _⟩ => exact (left100_col _ _).trans hq)
  have hr : dot_S100000x100_S100x64_S100000x64_1_0_0_1_n_n.rhsIdx i
      ((ValueIdx.contrEquiv1 dot_S100000x100_S100x64_S100000x64_1_0_0_1_n_n 100 rfl rfl).symm q)
        = ix2 (n0 := 100) (n1 := 64) q (i 1) := funext fun a => Fin.ext (by
    match a with
    | ⟨0, _⟩ => exact (right100_row _ _).trans hq
    | ⟨1, _⟩ => exact right100_col _ _)
  rw [hl, hr]

/-! ### The 100000 × 64 by 64 × 64 product: where the two operands are read -/

/-- The left operand's row is the entry's row: axis 0 of the left operand is neither batched nor contracted. -/
theorem left64_row (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide),
    dif_pos (show (0 : Fin S100000x64.rank) ∈ dot_S100000x64_S64x64_S100000x64_1_0_0_1_n_n.lhsNonContracting by decide)]
  rfl

/-- The left operand's column is the summation index: axis 1 is the one contracted axis. -/
theorem left64_col (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q

/-- The right operand's row is the summation index: axis 0 is the one contracted axis. -/
theorem right64_row (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q

/-- The right operand's column is the entry's column: axis 1 of the right operand is neither batched nor contracted. -/
theorem right64_col (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide),
    dif_pos (show (1 : Fin S64x64.rank) ∈ dot_S100000x64_S64x64_S100000x64_1_0_0_1_n_n.rhsNonContracting by decide)]
  rfl

/-- The 100000 × 64 by 64 × 64 product. -/
theorem dot64 (x : FVec Ideal S100000x64 .f32) (w : FVec Ideal S64x64 .f32) :
    Host.dotGeneral dot_S100000x64_S64x64_S100000x64_1_0_0_1_n_n none x w
      = Cert.Spec.mm (n := 100000) (k := 64) (p := 64) x w := by
  funext i
  -- the specification's entry, written out
  show Host.dotGeneral dot_S100000x64_S64x64_S100000x64_1_0_0_1_n_n none x w i
      = ∑ q : Fin 64, x (ix2 (n0 := 100000) (n1 := 64) (i 0) q) * w (ix2 (n0 := 64) (n1 := 64) q (i 1))
  -- the host's entry is the sum over the contraction index; that index has one axis of extent 64
  simp only [Host.dotGeneral]
  rw [Ideal.dotGeneral_apply,
    ← Equiv.sum_comp (ValueIdx.contrEquiv1 dot_S100000x64_S64x64_S100000x64_1_0_0_1_n_n 64 rfl rfl).symm]
  refine Finset.sum_congr rfl fun q _ => ?_
  have hq := ValueIdx.contrEquiv1_symm_val dot_S100000x64_S64x64_S100000x64_1_0_0_1_n_n 64 rfl rfl q
  -- at summation index q the left operand is read at (row, q) and the right at (q, column)
  have hl : dot_S100000x64_S64x64_S100000x64_1_0_0_1_n_n.lhsIdx i
      ((ValueIdx.contrEquiv1 dot_S100000x64_S64x64_S100000x64_1_0_0_1_n_n 64 rfl rfl).symm q)
        = ix2 (n0 := 100000) (n1 := 64) (i 0) q := funext fun a => Fin.ext (by
    match a with
    | ⟨0, _⟩ => exact left64_row _ _
    | ⟨1, _⟩ => exact (left64_col _ _).trans hq)
  have hr : dot_S100000x64_S64x64_S100000x64_1_0_0_1_n_n.rhsIdx i
      ((ValueIdx.contrEquiv1 dot_S100000x64_S64x64_S100000x64_1_0_0_1_n_n 64 rfl rfl).symm q)
        = ix2 (n0 := 64) (n1 := 64) q (i 1) := funext fun a => Fin.ext (by
    match a with
    | ⟨0, _⟩ => exact (right64_row _ _).trans hq
    | ⟨1, _⟩ => exact right64_col _ _)
  rw [hl, hr]

end Cert.ReferenceIdeal.RefMM

end
-- ==== Proof.RefBN.lean ====
/-
  The host's bias, normalisation and relu as a chain of whole-array operations, read at an entry: every
  length-64 parameter is first laid out as one row and then repeated down the 100000 rows, so at (r, c) it reads
  the parameter's entry c — the same entrywise function the tiled kernel computes from one-row parameter arrays.
-/
import proofs.«431411_j11312943857689_1_alg».proof.ReferenceIdeal
import proofs.«431411_j11312943857689_1_alg».proof.Proof.Gen.ReferenceIdeal
import proofs.«431411_j11312943857689_1_alg».proof.Proof.Spec
import Idealize.ShloMosaic.Lib.ValueIdx
import Idealize.ShloMosaic.Lib.ValueLayout
import Idealize.ShloMosaic.Lib.Pipeline.Value

set_option maxRecDepth 16384

noncomputable section

open scoped BigOperators
open Idealize.ShloMosaic Idealize.ShloMosaic.TcCoe Idealize.ShloMosaic.ValueIdx

namespace Cert.ReferenceIdeal.RefBN

open Cert.ReferenceIdeal Cert.ReferenceIdeal.Gen

/-- A length-64 vector as one row, then as 100000 equal rows (the host's two broadcasts). -/
abbrev rows (v : FVec Ideal S64 .f32) : FVec Ideal S100000x64 .f32 :=
  broadcastInDim S100000x64 ![0, 1] bcast_S1x64_S100000x64_0_1 (broadcastInDim S1x64 ![1] bcast_S64_S1x64_1 v)

/-- The reference's chain for one layer, as a function of the aggregate and the five parameters. -/
def chain (a : FVec Ideal S100000x64 .f32) (b g β μ v : FVec Ideal S64 .f32) : FVec Ideal S100000x64 .f32 :=
  maximumf
    (addf (mulf (mulf (subf (addf a (rows b)) (rows μ))
      (rows (Host.rsqrt (addf v (broadcastInDim S64 ![] bcast_S_S64 (constant S_ .f32 0x3727C5AC#32))))))
      (rows g)) (rows β))
    (broadcastInDim S100000x64 ![] bcast_S_S100000x64 (constant S_ .f32 0x00000000#32))

/-! ### The two layouts of a parameter, read at an entry -/

/-- Repeated down the rows, a parameter reads at (r, c) its entry c: the row broadcast keeps the column and
    sends the row to the one row there is; the lift of the vector to that one row keeps the column. -/
theorem rows_apply (p : FVec Ideal S64 .f32) (r : Fin 100000) (c : Fin 64) :
    rows p (ix2 r c) = p (ix1 c) := by
  refine (broadcastInDim_apply (![0, 1]) bcast_S1x64_S100000x64_0_1
    (broadcastInDim S1x64 ![1] bcast_S64_S1x64_1 p) (ix2 r c) (ix2 (0 : Fin 1) c) ?_).trans ?_
  · intro d
    match d with
    | ⟨0, _⟩ => rfl
    | ⟨1, _⟩ => rfl
  · refine broadcastInDim_apply (![1]) bcast_S64_S1x64_1 p (ix2 (0 : Fin 1) c) (ix1 c) ?_
    intro d
    match d with
    | ⟨0, _⟩ => rfl

/-- Re-laid as a one-row matrix, a parameter reads at (0, c) its entry c. -/
theorem row_apply (p : FVec Ideal S64 .f32) (hc : S64.ShapeCasts S1x64) (c : Fin 64) :
    shapeCast S1x64 p hc (ix2 (0 : Fin 1) c) = p (ix1 c) :=
  shapeCast_a_1a_apply p hc 0 c

/-! ### Both sides at an entry -/

/-- The chain at (r, c): every operation is entrywise, every parameter is read at its entry c, and the two
    constants are the same number at every entry. -/
theorem chain_apply (a : FVec Ideal S100000x64 .f32) (b g β μ v : FVec Ideal S64 .f32) (r : Fin 100000) (c : Fin 64) :
    chain a b g β μ v (ix2 r c)
      = max ((((a (ix2 r c) + b (ix1 c)) - μ (ix1 c))
            * Ideal.rsqrt (v (ix1 c) + Ideal.ofBits .f32 Cert.Spec.epsW)) * g (ix1 c) + β (ix1 c))
          (Ideal.ofBits .f32 0x00000000#32) := by
  refine (show chain a b g β μ v (ix2 r c)
      = max ((((a (ix2 r c) + rows b (ix2 r c)) - rows μ (ix2 r c))
            * rows (Host.rsqrt (addf v (broadcastInDim S64 ![] bcast_S_S64
                (constant (F := Ideal) S_ .f32 0x3727C5AC#32)))) (ix2 r c)) * rows g (ix2 r c) + rows β (ix2 r c))
          (Ideal.ofBits .f32 0x00000000#32) from rfl).trans ?_
  rw [rows_apply b, rows_apply μ, rows_apply g, rows_apply β, rows_apply (Host.rsqrt _)]
  rfl

/-- The specification's function at (r, c), its one-row parameters being the re-laid vectors. -/
theorem bn_apply (a : FVec Ideal S100000x64 .f32) (b g β μ v : FVec Ideal S64 .f32) (hc : S64.ShapeCasts S1x64)
    (r : Fin 100000) (c : Fin 64) :
    Cert.Spec.bn (n := 100000) (p := 64) a (shapeCast S1x64 b hc) (shapeCast S1x64 g hc) (shapeCast S1x64 β hc)
        (shapeCast S1x64 μ hc) (shapeCast S1x64 v hc) (ix2 r c)
      = max ((((a (ix2 r c) + b (ix1 c)) - μ (ix1 c))
            * Ideal.rsqrt (v (ix1 c) + Ideal.ofBits .f32 Cert.Spec.epsW)) * g (ix1 c) + β (ix1 c))
          (Ideal.ofBits .f32 0x00000000#32) := by
  refine (show Cert.Spec.bn (n := 100000) (p := 64) a (shapeCast S1x64 b hc) (shapeCast S1x64 g hc)
        (shapeCast S1x64 β hc) (shapeCast S1x64 μ hc) (shapeCast S1x64 v hc) (ix2 r c)
      = max ((((a (ix2 r c) + shapeCast S1x64 b hc (ix2 (0 : Fin 1) c)) - shapeCast S1x64 μ hc (ix2 (0 : Fin 1) c))
            * Ideal.rsqrt (shapeCast S1x64 v hc (ix2 (0 : Fin 1) c) + Ideal.ofBits .f32 Cert.Spec.epsW))
              * shapeCast S1x64 g hc (ix2 (0 : Fin 1) c) + shapeCast S1x64 β hc (ix2 (0 : Fin 1) c))
          (Ideal.ofBits .f32 0x00000000#32) from rfl).trans ?_
  rw [row_apply b hc c, row_apply μ hc c, row_apply v hc c, row_apply g hc c, row_apply β hc c]

/-- Entry by entry the chain is the specification's function of the aggregate and the parameters re-laid as
    one-row matrices (`hc`: the reshape's side condition, whichever proof of it the caller has). -/
theorem chain_eq (a : FVec Ideal S100000x64 .f32) (b g β μ v : FVec Ideal S64 .f32) (hc : S64.ShapeCasts S1x64) :
    chain a b g β μ v
      = Cert.Spec.bn (n := 100000) (p := 64) a (shapeCast S1x64 b hc) (shapeCast S1x64 g hc) (shapeCast S1x64 β hc)
          (shapeCast S1x64 μ hc) (shapeCast S1x64 v hc) := by
  funext i
  obtain ⟨r, c, rfl⟩ : ∃ (r : Fin 100000) (c : Fin 64), i = ix2 r c := ⟨i 0, i 1, eq_ix2 i⟩
  rw [chain_apply, bn_apply]

end Cert.ReferenceIdeal.RefBN

end
-- ==== Proof.RefPool.lean ====
/-
  The host's scatter-add of the node rows into 1000 per-graph rows, read at an entry: the exact sum of the
  rows whose segment word is the entry's row number; words outside 0 … 999 land nowhere.  That is the first 1000
  rows of the 1024-row indicator-matrix product the kernel accumulates.
-/
import proofs.«431411_j11312943857689_1_alg».proof.ReferenceIdeal
import proofs.«431411_j11312943857689_1_alg».proof.Proof.Gen.ReferenceIdeal
import proofs.«431411_j11312943857689_1_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators
open Idealize.ShloMosaic Idealize.ShloMosaic.TcCoe Idealize.ShloMosaic.ValueIdx

namespace Cert.ReferenceIdeal.RefPool

open Cert.ReferenceIdeal Cert.ReferenceIdeal.Gen

abbrev S1024x64 : Shape := ⟨2, ![1024, 64]⟩

/-! ### A segment word as a row number

A 32-bit word read as a signed integer equals a row number below 1000 exactly when the word is that number's
32-bit pattern: below 2³¹ the signed and the unsigned readings agree. -/

theorem word_toInt_eq_iff (w : BitVec 32) (g : Nat) (hg : g < 1000) :
    w.toInt = (g : Int) ↔ w = BitVec.ofNat 32 g := by
  have hw := w.isLt
  rw [BitVec.toInt_eq_toNat_cond]
  constructor
  · intro h
    apply BitVec.eq_of_toNat_eq
    rw [BitVec.toNat_ofNat]
    split at h <;> omega
  · rintro rfl
    rw [BitVec.toNat_ofNat]
    split <;> omega

/-! ### Where an update row lands

The dimension numbers send update entry `(r, q)` to operand entry `(word r, q)`: the row is the scatter index of
row `r` read signed, the column is the window coordinate `q`. -/

/-- The scatter-indices entry update `(r, q)` reads its row from: `(r, 0)`. -/
theorem scatterIdx_row (r : Fin 100000) (q : Fin 64)
    (k : Fin scatter_S1000x64_S100000x1_S100000x64_1_0_0_1.scatterDimsToOperandDims.length) :
    scatter_S1000x64_S100000x1_S100000x64_1_0_0_1.siIdx (ix2 r q) k = ix2 r 0 := by
  funext b
  refine Fin.ext ?_
  match b with
  | ⟨0, _⟩ => rfl
  | ⟨1, _⟩ =>
    have hk : k.val < 1 := k.isLt
    show k.val = 0
    omega

/-- Row axis: the start is the segment word of row `r`, read signed. -/
theorem start_row {w : Nat} (idx : IVec S100000x1 w) (r : Fin 100000) (q : Fin 64) :
    scatter_S1000x64_S100000x1_S100000x64_1_0_0_1.start (ix2 r q) idx ⟨0, by decide⟩ = (idx (ix2 r 0)).toInt := by
  unfold ScatterDims.start
  rw [dif_pos (show (⟨0, by decide⟩ : Fin S1000x64.rank) ∈
    scatter_S1000x64_S100000x1_S100000x64_1_0_0_1.scatterDimsToOperandDims from List.mem_singleton.mpr rfl)]
  rw [scatterIdx_row]

/-- Column axis: the index map does not name it, the start is `0`. -/
theorem start_col {w : Nat} (idx : IVec S100000x1 w) (r : Fin 100000) (q : Fin 64) :
    scatter_S1000x64_S100000x1_S100000x64_1_0_0_1.start (ix2 r q) idx ⟨1, by decide⟩ = 0 := by
  unfold ScatterDims.start
  rw [dif_neg (show ¬ (⟨1, by decide⟩ : Fin S1000x64.rank) ∈
    scatter_S1000x64_S100000x1_S100000x64_1_0_0_1.scatterDimsToOperandDims from by decide)]

/-- Row axis: it is the inserted one, the window coordinate is `0`. -/
theorem window_row (r : Fin 100000) (q : Fin 64) :
    scatter_S1000x64_S100000x1_S100000x64_1_0_0_1.window (ix2 r q) ⟨0, by decide⟩ = 0 := by
  unfold ScatterDims.window
  rw [dif_neg (show ¬ (⟨0, by decide⟩ : Fin S1000x64.rank) ∈
    scatter_S1000x64_S100000x1_S100000x64_1_0_0_1.sKept from by decide)]

/-- Column axis: the window coordinate is the update's column. -/
theorem window_col (r : Fin 100000) (q : Fin 64) :
    scatter_S1000x64_S100000x1_S100000x64_1_0_0_1.window (ix2 r q) ⟨1, by decide⟩ = q.val := by
  unfold ScatterDims.window
  rw [dif_pos (show (⟨1, by decide⟩ : Fin S1000x64.rank) ∈
    scatter_S1000x64_S100000x1_S100000x64_1_0_0_1.sKept from by decide)]
  rfl

/-- Update entry `(r, q)` lands on operand entry `(g, c)` exactly when row `r`'s word, read signed, is `g` and the
    columns agree; a word outside `0 … 999` lands nowhere. -/
theorem lands_iff {w : Nat} (idx : IVec S100000x1 w) (r : Fin 100000) (q : Fin 64) (g : Fin 1000) (c : Fin 64) :
    scatter_S1000x64_S100000x1_S100000x64_1_0_0_1.resultIdx? (ix2 r q) idx = some (ix2 g c)
      ↔ (idx (ix2 r 0)).toInt = (g.val : Int) ∧ q = c := by
  have hg : g.val < 1000 := g.isLt
  have hq : q.val < 64 := q.isLt
  unfold ScatterDims.resultIdx?
  split
  · rename_i hin
    have h0 := hin ⟨0, by decide⟩
    rw [start_row, window_row] at h0
    rw [Option.some.injEq]
    constructor
    · intro he
      have e0 := congrArg (fun f => (f ⟨0, by decide⟩).val) he
      have e1 := congrArg (fun f => (f ⟨1, by decide⟩).val) he
      simp only [start_row, window_row, start_col, window_col] at e0 e1
      have e0' : ((idx (ix2 r 0)).toInt + ((0 : Nat) : Int)).toNat = g.val := e0
      have e1' : ((0 : Int) + (q.val : Int)).toNat = c.val := e1
      refine ⟨by omega, Fin.ext (by omega)⟩
    · rintro ⟨hr, rfl⟩
      funext a
      refine Fin.ext ?_
      match a with
      | ⟨0, _⟩ =>
        show (scatter_S1000x64_S100000x1_S100000x64_1_0_0_1.start (ix2 r q) idx ⟨0, by decide⟩
          + scatter_S1000x64_S100000x1_S100000x64_1_0_0_1.window (ix2 r q) ⟨0, by decide⟩).toNat = g.val
        rw [start_row, window_row]; omega
      | ⟨1, _⟩ =>
        show (scatter_S1000x64_S100000x1_S100000x64_1_0_0_1.start (ix2 r q) idx ⟨1, by decide⟩
          + scatter_S1000x64_S100000x1_S100000x64_1_0_0_1.window (ix2 r q) ⟨1, by decide⟩).toNat = q.val
        rw [start_col, window_col]; omega
  · rename_i hout
    constructor
    · intro he; exact absurd he (by simp)
    · rintro ⟨hr, rfl⟩
      refine absurd (fun a => ?_) hout
      match a with
      | ⟨0, _⟩ =>
        show 0 ≤ scatter_S1000x64_S100000x1_S100000x64_1_0_0_1.start (ix2 r q) idx ⟨0, by decide⟩
            + scatter_S1000x64_S100000x1_S100000x64_1_0_0_1.window (ix2 r q) ⟨0, by decide⟩ ∧
          scatter_S1000x64_S100000x1_S100000x64_1_0_0_1.start (ix2 r q) idx ⟨0, by decide⟩
            + scatter_S1000x64_S100000x1_S100000x64_1_0_0_1.window (ix2 r q) ⟨0, by decide⟩ < ((1000 : Nat) : Int)
        rw [start_row, window_row]; omega
      | ⟨1, _⟩ =>
        show 0 ≤ scatter_S1000x64_S100000x1_S100000x64_1_0_0_1.start (ix2 r q) idx ⟨1, by decide⟩
            + scatter_S1000x64_S100000x1_S100000x64_1_0_0_1.window (ix2 r q) ⟨1, by decide⟩ ∧
          scatter_S1000x64_S100000x1_S100000x64_1_0_0_1.start (ix2 r q) idx ⟨1, by decide⟩
            + scatter_S1000x64_S100000x1_S100000x64_1_0_0_1.window (ix2 r q) ⟨1, by decide⟩ < ((64 : Nat) : Int)
        rw [start_col, window_col]; omega

/-! ### The segment words, broadcast or reshaped to one column

Both the reference's `broadcast_in_dim` and the specification's reshape put word `r` of the vector at entry `(r, 0)`. -/

theorem words_broadcast (s : IVec S100000 32) (r : Fin 100000) :
    broadcastInDim S100000x1 ![0] bcast_S100000_S100000x1_0 s (ix2 r 0) = s (ix1 r) :=
  broadcastInDim_apply ![0] bcast_S100000_S100000x1_0 s (ix2 r 0) (ix1 r) (by
    intro a
    match a with
    | ⟨0, _⟩ =>
      show r.val = if (100000 : Nat) = 1 then 0 else r.val
      rw [if_neg (by decide)])

theorem words_reshape (s : IVec S100000 32) (hc : S100000.ShapeCasts S100000x1) (r : Fin 100000) :
    shapeCast S100000x1 s hc (ix2 r 0) = s (ix1 r) :=
  shapeCast_apply s hc (ix2 r 0) (ix1 r) (by
    rw [Shape.rowMajor_val_two, Shape.rowMajor_val_one]
    show r.val = r.val * 1 + 0
    omega)

/-! ### The scatter-add at an entry -/

/-- The updates that land on entry `(g, c)` sum to the column-`c` entries of the rows whose word is `g`: in the double
    sum over update entries `(r, q)` only `q = c` survives. -/
theorem landed_sum (h : FVec Ideal S100000x64 .f32) (idx : IVec S100000x1 32) (g : Fin 1000) (c : Fin 64) :
    (∑ j ∈ Finset.univ.filter (fun j : S100000x64.Idx =>
        scatter_S1000x64_S100000x1_S100000x64_1_0_0_1.resultIdx? j idx = some (ix2 g c)), h j)
      = ∑ r : Fin 100000, if idx (ix2 r 0) = BitVec.ofNat 32 g.val then h (ix2 r c) else 0 := by
  have hg : g.val < 1000 := g.isLt
  rw [Finset.sum_filter, sum_idx2]
  refine Finset.sum_congr rfl fun r _ => ?_
  simp only [lands_iff, word_toInt_eq_iff _ _ hg]
  by_cases hr : idx (ix2 r 0) = BitVec.ofNat 32 g.val
  · simp only [hr, true_and, if_true]
    exact Finset.sum_ite_eq' Finset.univ c (fun q => h (ix2 r q)) |>.trans (if_pos (Finset.mem_univ c))
  · simp only [hr, false_and, if_false]
    exact Finset.sum_const_zero

/-- The scatter-add into the zero array is the first 1000 rows of the per-segment sum (`hc`, `hs`: the reshape's and
    the slice's side conditions, whichever proofs of them the caller has). -/
theorem scatter_eq (h : FVec Ideal S100000x64 .f32) (s : IVec S100000 32) (hc : S100000.ShapeCasts S100000x1)
    (hs : S1024x64.Slices ![0, 0] S1000x64) :
    Host.scatterAdd scatter_S1000x64_S100000x1_S100000x64_1_0_0_1
        (broadcastInDim S1000x64 ![] bcast_S_S1000x64 (constant S_ .f32 0x00000000#32))
        (broadcastInDim S100000x1 ![0] bcast_S100000_S100000x1_0 s) h
      = extractStridedSlice S1000x64 ![0, 0]
          (Cert.Spec.pool (n := 100000) (p := 64) (G := 1024) h (shapeCast S100000x1 s hc)) hs := by
  funext i
  obtain ⟨g, c, rfl⟩ : ∃ (g : Fin 1000) (c : Fin 64), i = ix2 g c := ⟨i 0, i 1, eq_ix2 i⟩
  have hg : g.val < 1000 := g.isLt
  -- the right side: row `g` of the 1024-row sum
  rw [extractStridedSlice_apply ![0, 0] _ hs (ix2 g c) (ix2 (⟨g.val, by omega⟩ : Fin 1024) c) (by
    intro a
    match a with
    | ⟨0, _⟩ => show g.val = 0 + g.val; omega
    | ⟨1, _⟩ => show c.val = 0 + c.val; omega)]
  show _ = ∑ r : Fin 100000,
    if shapeCast S100000x1 s hc (ix2 r 0) = BitVec.ofNat 32 g.val then h (ix2 r c) else 0
  -- the left side: zero plus the updates that land on `(g, c)`
  show Ideal.ofBits .f32 0x00000000#32
      + ∑ j ∈ Finset.univ.filter (fun j : S100000x64.Idx =>
          scatter_S1000x64_S100000x1_S100000x64_1_0_0_1.resultIdx? j
            (broadcastInDim S100000x1 ![0] bcast_S100000_S100000x1_0 s) = some (ix2 g c)), h j = _
  rw [Ideal.ofBits_zero_f32, zero_add, landed_sum]
  refine Finset.sum_congr rfl fun r _ => ?_
  rw [words_broadcast, words_reshape]

end Cert.ReferenceIdeal.RefPool

end
-- ==== Proof.Chain.lean ====
/-
  The kernel's result, boundary by boundary.  Between its seven tiled regions the kernel's program runs the same
  host operations as the reference (the edge lists, the degree normalisation, and per layer the gather, the scaling
  and the scatter-add), so at every boundary the buffers that matter hold the reference's own named pieces of the
  argument arrays: the edge lists and coefficients before the first region; after each product region the host's
  whole-array product; after each normalisation region the host's bias/normalisation/relu chain; after the pooling
  region the per-segment sums, whose first thousand rows are the host's scatter-add.  The last boundary's result
  buffer is therefore the reference's function of the arguments.
-/
import proofs.«431411_j11312943857689_1_alg».proof.Proof.Gen.KernelIdeal.Frame
import proofs.«431411_j11312943857689_1_alg».proof.Proof.Keep
import proofs.«431411_j11312943857689_1_alg».proof.Proof.Mid
import proofs.«431411_j11312943857689_1_alg».proof.Proof.Spec
import proofs.«431411_j11312943857689_1_alg».proof.Proof.RegMM0
import proofs.«431411_j11312943857689_1_alg».proof.Proof.RegMM2
import proofs.«431411_j11312943857689_1_alg».proof.Proof.RegMM4
import proofs.«431411_j11312943857689_1_alg».proof.Proof.RegBN1
import proofs.«431411_j11312943857689_1_alg».proof.Proof.RegBN3
import proofs.«431411_j11312943857689_1_alg».proof.Proof.RegBN5
import proofs.«431411_j11312943857689_1_alg».proof.Proof.RegPool6
import proofs.«431411_j11312943857689_1_alg».proof.Proof.RefMM
import proofs.«431411_j11312943857689_1_alg».proof.Proof.RefBN
import proofs.«431411_j11312943857689_1_alg».proof.Proof.RefPool
import Idealize.ShloMosaic.Lib.StableHlo.Run

set_option maxRecDepth 16384

noncomputable section

open Idealize.ShloMosaic Idealize.ShloMosaic.TcCoe Idealize.SL.Sem

namespace Cert.KernelIdeal.Chain

open Cert.KernelIdeal Cert.KernelIdeal.Gen Cert.KernelIdeal.Keep Cert.ReferenceIdeal.Mid

variable (m : (ℓ : Loc nD τ sig) → Buf (Elt Ideal) ℓ) (ρ : Dev nD → PrngReg)

/-- The argument arrays as launched, each at its own type. -/
abbrev A0 (c : Dev nD) : FVec Ideal S100000x100 .f32 := m ((c : Thread nD τ).loc main_arg0)
abbrev A1 (c : Dev nD) : IVec S2x1600000 32 := m ((c : Thread nD τ).loc main_arg1)
abbrev A2 (c : Dev nD) : FVec Ideal S1600000 .f32 := m ((c : Thread nD τ).loc main_arg2)
abbrev A3 (c : Dev nD) : IVec S100000 32 := m ((c : Thread nD τ).loc main_arg3)
abbrev A4 (c : Dev nD) : FVec Ideal S100x64 .f32 := m ((c : Thread nD τ).loc main_arg4)
abbrev A5 (c : Dev nD) : FVec Ideal S64 .f32 := m ((c : Thread nD τ).loc main_arg5)
abbrev A6 (c : Dev nD) : FVec Ideal S64 .f32 := m ((c : Thread nD τ).loc main_arg6)
abbrev A7 (c : Dev nD) : FVec Ideal S64 .f32 := m ((c : Thread nD τ).loc main_arg7)
abbrev A8 (c : Dev nD) : FVec Ideal S64 .f32 := m ((c : Thread nD τ).loc main_arg8)
abbrev A9 (c : Dev nD) : FVec Ideal S64 .f32 := m ((c : Thread nD τ).loc main_arg9)
abbrev A10 (c : Dev nD) : FVec Ideal S64x64 .f32 := m ((c : Thread nD τ).loc main_arg10)
abbrev A11 (c : Dev nD) : FVec Ideal S64 .f32 := m ((c : Thread nD τ).loc main_arg11)
abbrev A12 (c : Dev nD) : FVec Ideal S64 .f32 := m ((c : Thread nD τ).loc main_arg12)
abbrev A13 (c : Dev nD) : FVec Ideal S64 .f32 := m ((c : Thread nD τ).loc main_arg13)
abbrev A14 (c : Dev nD) : FVec Ideal S64 .f32 := m ((c : Thread nD τ).loc main_arg14)
abbrev A15 (c : Dev nD) : FVec Ideal S64 .f32 := m ((c : Thread nD τ).loc main_arg15)
abbrev A16 (c : Dev nD) : FVec Ideal S64x64 .f32 := m ((c : Thread nD τ).loc main_arg16)
abbrev A17 (c : Dev nD) : FVec Ideal S64 .f32 := m ((c : Thread nD τ).loc main_arg17)
abbrev A18 (c : Dev nD) : FVec Ideal S64 .f32 := m ((c : Thread nD τ).loc main_arg18)
abbrev A19 (c : Dev nD) : FVec Ideal S64 .f32 := m ((c : Thread nD τ).loc main_arg19)
abbrev A20 (c : Dev nD) : FVec Ideal S64 .f32 := m ((c : Thread nD τ).loc main_arg20)
abbrev A21 (c : Dev nD) : FVec Ideal S64 .f32 := m ((c : Thread nD τ).loc main_arg21)

/-! ## Before the first region: the edge lists and the edge coefficients -/

theorem W1_row (c : Dev nD) : W1 m ρ c (Proc.devRef .tc main_v4) = row (A1 m c) := by
  show StableHlo.after hostOps0 (W0 m ρ c) (Proc.devRef .tc main_v4) = _
  after_results_simp
  rfl

theorem W1_col (c : Dev nD) : W1 m ρ c (Proc.devRef .tc main_v7) = col (A1 m c) := by
  show StableHlo.after hostOps0 (W0 m ρ c) (Proc.devRef .tc main_v7) = _
  after_results_simp
  rfl

theorem W1_wts (c : Dev nD) : W1 m ρ c (Proc.devRef .tc main_v9) = wts (A2 m c) := by
  show StableHlo.after hostOps0 (W0 m ρ c) (Proc.devRef .tc main_v9) = _
  after_results_simp
  rfl

theorem W1_pos (c : Dev nD) :
    W1 m ρ c (Proc.devRef .tc main_v14) = cmpf .ogt (deg (A1 m c) (A2 m c))
      (broadcastInDim S100000 ![] bcast_S_S100000 (constant S_ .f32 0x00000000#32)) := by
  show StableHlo.after hostOps0 (W0 m ρ c) (Proc.devRef .tc main_v14) = _
  after_results_simp
  rfl

theorem W1_rsq (c : Dev nD) :
    W1 m ρ c (Proc.devRef .tc main_v15) = Host.rsqrt (deg (A1 m c) (A2 m c)) := by
  show StableHlo.after hostOps0 (W0 m ρ c) (Proc.devRef .tc main_v15) = _
  after_results_simp
  rfl

theorem W1_zero (c : Dev nD) : W1 m ρ c (Proc.devRef .tc main_cst_2) = constant (F := Ideal) S_ .f32 0x00000000#32 := by
  show StableHlo.after hostOps0 (W0 m ρ c) (Proc.devRef .tc main_cst_2) = _
  after_results_simp

/-! Contents moved between a buffer's own type and the type a called function's operation names it at: the two
    types are the same, so the transport is the identity. -/
section Transport
variable {r : Ref sig .tc} {T : BufTy}
theorem toBuf16 (h1 : main_v16.ty = (⟨S100000, .f32⟩ : BufTy)) (h2 h3) (v : (⟨S100000, .f32⟩ : BufTy).Contents (Elt Ideal)) :
    (StableHlo.TRef.of (sig := sig) (T := ⟨S100000, .f32⟩) main_v16 h1 h2 h3).toBuf (Val := Elt Ideal) v = v := rfl
theorem ofBuf14 (h1 : main_v14.ty = (⟨S100000, .i1⟩ : BufTy)) (h2 h3) (v : (Proc.devRef (τ := τ) .tc main_v14).ty.Contents (Elt Ideal)) :
    (StableHlo.TRef.of (sig := sig) (T := ⟨S100000, .i1⟩) main_v14 h1 h2 h3).ofBuf (Val := Elt Ideal) v = v := rfl
theorem ofBuf15 (h1 : main_v15.ty = (⟨S100000, .f32⟩ : BufTy)) (h2 h3) (v : (Proc.devRef (τ := τ) .tc main_v15).ty.Contents (Elt Ideal)) :
    (StableHlo.TRef.of (sig := sig) (T := ⟨S100000, .f32⟩) main_v15 h1 h2 h3).ofBuf (Val := Elt Ideal) v = v := rfl
theorem toBufC1 (h1 : main_call0_v1.ty = (⟨S100000, .f32⟩ : BufTy)) (h2 h3) (v : (⟨S100000, .f32⟩ : BufTy).Contents (Elt Ideal)) :
    (StableHlo.TRef.of (sig := sig) (T := ⟨S100000, .f32⟩) main_call0_v1 h1 h2 h3).toBuf (Val := Elt Ideal) v = v := rfl
theorem ofBufC1 (h1 : main_call0_v1.ty = (⟨S100000, .f32⟩ : BufTy)) (h2 h3) (v : (Proc.devRef (τ := τ) .tc main_call0_v1).ty.Contents (Elt Ideal)) :
    (StableHlo.TRef.of (sig := sig) (T := ⟨S100000, .f32⟩) main_call0_v1 h1 h2 h3).ofBuf (Val := Elt Ideal) v = v := rfl
theorem toBufC0 (h1 : main_call0_v0.ty = (⟨S_, .f32⟩ : BufTy)) (h2 h3) (v : (⟨S_, .f32⟩ : BufTy).Contents (Elt Ideal)) :
    (StableHlo.TRef.of (sig := sig) (T := ⟨S_, .f32⟩) main_call0_v0 h1 h2 h3).toBuf (Val := Elt Ideal) v = v := rfl
theorem ofBufC0 (h1 : main_call0_v0.ty = (⟨S_, .f32⟩ : BufTy)) (h2 h3) (v : (Proc.devRef (τ := τ) .tc main_call0_v0).ty.Contents (Elt Ideal)) :
    (StableHlo.TRef.of (sig := sig) (T := ⟨S_, .f32⟩) main_call0_v0 h1 h2 h3).ofBuf (Val := Elt Ideal) v = v := rfl
theorem ofBufZ (h1 : main_cst_2.ty = (⟨S_, .f32⟩ : BufTy)) (h2 h3) (v : (Proc.devRef (τ := τ) .tc main_cst_2).ty.Contents (Elt Ideal)) :
    (StableHlo.TRef.of (sig := sig) (T := ⟨S_, .f32⟩) main_cst_2 h1 h2 h3).ofBuf (Val := Elt Ideal) v = v := rfl
end Transport

theorem W2_dinv (c : Dev nD) :
    W2 m ρ c (Proc.devRef .tc main_v16) = dinv (A1 m c) (A2 m c) := by
  have e14 := W1_pos m ρ c
  have e15 := W1_rsq m ρ c
  have e2 := W1_zero m ρ c
  show StableHlo.after hostOps0_1 (W1 m ρ c) (Proc.devRef .tc main_v16) = _
  generalize W1 m ρ c = V at e14 e15 e2 ⊢
  after_results
  rw [e14, e15, e2, toBuf16, ofBuf14, ofBuf15, ofBufC1, toBufC1, ofBufC0, toBufC0, ofBufZ]
  rfl

theorem W2_row (c : Dev nD) : W2 m ρ c (Proc.devRef .tc main_v4) = row (A1 m c) :=
  (W2_of m ρ c main_v4 (by decide)).trans (W1_row m ρ c)
theorem W2_col (c : Dev nD) : W2 m ρ c (Proc.devRef .tc main_v7) = col (A1 m c) :=
  (W2_of m ρ c main_v7 (by decide)).trans (W1_col m ρ c)
theorem W2_wts (c : Dev nD) : W2 m ρ c (Proc.devRef .tc main_v9) = wts (A2 m c) :=
  (W2_of m ρ c main_v9 (by decide)).trans (W1_wts m ρ c)

theorem W3_norm (c : Dev nD) : W3 m ρ c (Proc.devRef .tc main_v32) = norm (A1 m c) (A2 m c) := by
  have e4 := W2_row m ρ c
  have e7 := W2_col m ρ c
  have e9 := W2_wts m ρ c
  have e16 := W2_dinv m ρ c
  show StableHlo.after hostOps0_2 (W2 m ρ c) (Proc.devRef .tc main_v32) = _
  generalize W2 m ρ c = V at e4 e7 e9 e16 ⊢
  after_results_simp
  rw [e4, e7, e9, e16]
  rfl

theorem W3_row (c : Dev nD) : W3 m ρ c (Proc.devRef .tc main_v4) = row (A1 m c) :=
  (W3_of m ρ c main_v4 (by decide)).trans (W2_row m ρ c)
theorem W3_col (c : Dev nD) : W3 m ρ c (Proc.devRef .tc main_v7) = col (A1 m c) :=
  (W3_of m ρ c main_v7 (by decide)).trans (W2_col m ρ c)

/-- A buffer no host operation before the first region writes holds the launch memory there. -/
theorem W3_arg (c : Dev nD) (r : Ref sig .tc) (h0 : r ∉ wr0) (h1 : r ∉ wr0_1) (h2 : r ∉ wr0_2) :
    W3 m ρ c (Proc.devRef .tc r) = m ((c : Thread nD τ).loc r) :=
  (W3_of m ρ c r h2).trans ((W2_of m ρ c r h1).trans (W1_of m ρ c r h0))

/-! ## The first layer -/

theorem W4_xw (c : Dev nD) :
    W4 m ρ c (Proc.devRef .tc main_v33)
      = Host.dotGeneral Cert.ReferenceIdeal.dot_S100000x100_S100x64_S100000x64_1_0_0_1_n_n none (A0 m c) (A4 m c) := by
  rw [Cert.ReferenceIdeal.RefMM.dot100]
  refine (W4_arr m ρ c 2).trans ?_
  rw [Cert.KernelIdeal.RegMM0.final (V3 m ρ) c]
  show Cert.Spec.mm (W3 m ρ c (Proc.devRef .tc main_arg0)) (W3 m ρ c (Proc.devRef .tc main_arg4)) = _
  rw [W3_arg m ρ c main_arg0 (by decide) (by decide) (by decide), W3_arg m ρ c main_arg4 (by decide) (by decide) (by decide)]

theorem W4_row (c : Dev nD) : W4 m ρ c (Proc.devRef .tc main_v4) = row (A1 m c) :=
  (W4_of_ne m ρ c main_v4 (by decide)).trans (W3_row m ρ c)
theorem W4_col (c : Dev nD) : W4 m ρ c (Proc.devRef .tc main_v7) = col (A1 m c) :=
  (W4_of_ne m ρ c main_v7 (by decide)).trans (W3_col m ρ c)
theorem W4_norm (c : Dev nD) : W4 m ρ c (Proc.devRef .tc main_v32) = norm (A1 m c) (A2 m c) :=
  (W4_of_ne m ρ c main_v32 (by decide)).trans (W3_norm m ρ c)
theorem W4_arg (c : Dev nD) (r : Ref sig .tc) (hr : ∀ w, Pipeline.arrRef spec0 w ≠ r) (h0 : r ∉ wr0) (h1 : r ∉ wr0_1) (h2 : r ∉ wr0_2) :
    W4 m ρ c (Proc.devRef .tc r) = m ((c : Thread nD τ).loc r) :=
  (W4_of_ne m ρ c r hr).trans (W3_arg m ρ c r h0 h1 h2)

theorem W5_agg (c : Dev nD) :
    W5 m ρ c (Proc.devRef .tc main_v46) = agg (A1 m c) (A2 m c) (W4 m ρ c (Proc.devRef .tc main_v33)) := by
  have e4 := W4_row m ρ c
  have e7 := W4_col m ρ c
  have e32 := W4_norm m ρ c
  show StableHlo.after hostOps1 (W4 m ρ c) (Proc.devRef .tc main_v46) = _
  generalize W4 m ρ c = V at e4 e7 e32 ⊢
  after_results_simp
  rw [e4, e7, e32]
  rfl

/-! ## What the later boundaries keep -/
theorem W4_keep (c : Dev nD) (r : Ref sig .tc) (h0 : r ∉ wr0) (h1 : r ∉ wr0_1) (h2 : r ∉ wr0_2) (k4 : ∀ w, Pipeline.arrRef spec0 w ≠ r) :
    W4 m ρ c (Proc.devRef .tc r) = m ((c : Thread nD τ).loc r) :=
  (W4_of_ne m ρ c r k4).trans (W3_arg m ρ c r h0 h1 h2)
theorem W5_keep (c : Dev nD) (r : Ref sig .tc) (h0 : r ∉ wr0) (h1 : r ∉ wr0_1) (h2 : r ∉ wr0_2) (k4 : ∀ w, Pipeline.arrRef spec0 w ≠ r) (k5 : r ∉ wr1) :
    W5 m ρ c (Proc.devRef .tc r) = m ((c : Thread nD τ).loc r) :=
  (W5_of m ρ c r k5).trans (W4_keep m ρ c r h0 h1 h2 k4)
theorem W5_row (c : Dev nD) : W5 m ρ c (Proc.devRef .tc main_v4) = row (A1 m c) := (W5_of m ρ c main_v4 (by decide)).trans (W4_row m ρ c)
theorem W5_col (c : Dev nD) : W5 m ρ c (Proc.devRef .tc main_v7) = col (A1 m c) := (W5_of m ρ c main_v7 (by decide)).trans (W4_col m ρ c)
theorem W5_norm (c : Dev nD) : W5 m ρ c (Proc.devRef .tc main_v32) = norm (A1 m c) (A2 m c) := (W5_of m ρ c main_v32 (by decide)).trans (W4_norm m ρ c)
theorem W6_keep (c : Dev nD) (r : Ref sig .tc) (h0 : r ∉ wr0) (h1 : r ∉ wr0_1) (h2 : r ∉ wr0_2) (k4 : ∀ w, Pipeline.arrRef spec0 w ≠ r) (k5 : r ∉ wr1) (k6 : ∀ w, Pipeline.arrRef spec1 w ≠ r) :
    W6 m ρ c (Proc.devRef .tc r) = m ((c : Thread nD τ).loc r) :=
  (W6_of_ne m ρ c r k6).trans (W5_keep m ρ c r h0 h1 h2 k4 k5)
theorem W6_row (c : Dev nD) : W6 m ρ c (Proc.devRef .tc main_v4) = row (A1 m c) := (W6_of_ne m ρ c main_v4 (by decide)).trans (W5_row m ρ c)
theorem W6_col (c : Dev nD) : W6 m ρ c (Proc.devRef .tc main_v7) = col (A1 m c) := (W6_of_ne m ρ c main_v7 (by decide)).trans (W5_col m ρ c)
theorem W6_norm (c : Dev nD) : W6 m ρ c (Proc.devRef .tc main_v32) = norm (A1 m c) (A2 m c) := (W6_of_ne m ρ c main_v32 (by decide)).trans (W5_norm m ρ c)
theorem W7_keep (c : Dev nD) (r : Ref sig .tc) (h0 : r ∉ wr0) (h1 : r ∉ wr0_1) (h2 : r ∉ wr0_2) (k4 : ∀ w, Pipeline.arrRef spec0 w ≠ r) (k5 : r ∉ wr1) (k6 : ∀ w, Pipeline.arrRef spec1 w ≠ r) (k7 : ∀ w, Pipeline.arrRef spec2 w ≠ r) :
    W7 m ρ c (Proc.devRef .tc r) = m ((c : Thread nD τ).loc r) :=
  (W7_of_ne m ρ c r k7).trans (W6_keep m ρ c r h0 h1 h2 k4 k5 k6)
theorem W7_row (c : Dev nD) : W7 m ρ c (Proc.devRef .tc main_v4) = row (A1 m c) := (W7_of_ne m ρ c main_v4 (by decide)).trans (W6_row m ρ c)
theorem W7_col (c : Dev nD) : W7 m ρ c (Proc.devRef .tc main_v7) = col (A1 m c) := (W7_of_ne m ρ c main_v7 (by decide)).trans (W6_col m ρ c)
theorem W7_norm (c : Dev nD) : W7 m ρ c (Proc.devRef .tc main_v32) = norm (A1 m c) (A2 m c) := (W7_of_ne m ρ c main_v32 (by decide)).trans (W6_norm m ρ c)
theorem W8_keep (c : Dev nD) (r : Ref sig .tc) (h0 : r ∉ wr0) (h1 : r ∉ wr0_1) (h2 : r ∉ wr0_2) (k4 : ∀ w, Pipeline.arrRef spec0 w ≠ r) (k5 : r ∉ wr1) (k6 : ∀ w, Pipeline.arrRef spec1 w ≠ r) (k7 : ∀ w, Pipeline.arrRef spec2 w ≠ r) (k8 : r ∉ wr3) :
    W8 m ρ c (Proc.devRef .tc r) = m ((c : Thread nD τ).loc r) :=
  (W8_of m ρ c r k8).trans (W7_keep m ρ c r h0 h1 h2 k4 k5 k6 k7)
theorem W8_row (c : Dev nD) : W8 m ρ c (Proc.devRef .tc main_v4) = row (A1 m c) := (W8_of m ρ c main_v4 (by decide)).trans (W7_row m ρ c)
theorem W8_col (c : Dev nD) : W8 m ρ c (Proc.devRef .tc main_v7) = col (A1 m c) := (W8_of m ρ c main_v7 (by decide)).trans (W7_col m ρ c)
theorem W8_norm (c : Dev nD) : W8 m ρ c (Proc.devRef .tc main_v32) = norm (A1 m c) (A2 m c) := (W8_of m ρ c main_v32 (by decide)).trans (W7_norm m ρ c)
theorem W9_keep (c : Dev nD) (r : Ref sig .tc) (h0 : r ∉ wr0) (h1 : r ∉ wr0_1) (h2 : r ∉ wr0_2) (k4 : ∀ w, Pipeline.arrRef spec0 w ≠ r) (k5 : r ∉ wr1) (k6 : ∀ w, Pipeline.arrRef spec1 w ≠ r) (k7 : ∀ w, Pipeline.arrRef spec2 w ≠ r) (k8 : r ∉ wr3) (k9 : ∀ w, Pipeline.arrRef spec3 w ≠ r) :
    W9 m ρ c (Proc.devRef .tc r) = m ((c : Thread nD τ).loc r) :=
  (W9_of_ne m ρ c r k9).trans (W8_keep m ρ c r h0 h1 h2 k4 k5 k6 k7 k8)
theorem W9_row (c : Dev nD) : W9 m ρ c (Proc.devRef .tc main_v4) = row (A1 m c) := (W9_of_ne m ρ c main_v4 (by decide)).trans (W8_row m ρ c)
theorem W9_col (c : Dev nD) : W9 m ρ c (Proc.devRef .tc main_v7) = col (A1 m c) := (W9_of_ne m ρ c main_v7 (by decide)).trans (W8_col m ρ c)
theorem W9_norm (c : Dev nD) : W9 m ρ c (Proc.devRef .tc main_v32) = norm (A1 m c) (A2 m c) := (W9_of_ne m ρ c main_v32 (by decide)).trans (W8_norm m ρ c)
theorem W10_keep (c : Dev nD) (r : Ref sig .tc) (h0 : r ∉ wr0) (h1 : r ∉ wr0_1) (h2 : r ∉ wr0_2) (k4 : ∀ w, Pipeline.arrRef spec0 w ≠ r) (k5 : r ∉ wr1) (k6 : ∀ w, Pipeline.arrRef spec1 w ≠ r) (k7 : ∀ w, Pipeline.arrRef spec2 w ≠ r) (k8 : r ∉ wr3) (k9 : ∀ w, Pipeline.arrRef spec3 w ≠ r) (k10 : ∀ w, Pipeline.arrRef spec4 w ≠ r) :
    W10 m ρ c (Proc.devRef .tc r) = m ((c : Thread nD τ).loc r) :=
  (W10_of_ne m ρ c r k10).trans (W9_keep m ρ c r h0 h1 h2 k4 k5 k6 k7 k8 k9)
theorem W10_row (c : Dev nD) : W10 m ρ c (Proc.devRef .tc main_v4) = row (A1 m c) := (W10_of_ne m ρ c main_v4 (by decide)).trans (W9_row m ρ c)
theorem W10_col (c : Dev nD) : W10 m ρ c (Proc.devRef .tc main_v7) = col (A1 m c) := (W10_of_ne m ρ c main_v7 (by decide)).trans (W9_col m ρ c)
theorem W10_norm (c : Dev nD) : W10 m ρ c (Proc.devRef .tc main_v32) = norm (A1 m c) (A2 m c) := (W10_of_ne m ρ c main_v32 (by decide)).trans (W9_norm m ρ c)
theorem W11_keep (c : Dev nD) (r : Ref sig .tc) (h0 : r ∉ wr0) (h1 : r ∉ wr0_1) (h2 : r ∉ wr0_2) (k4 : ∀ w, Pipeline.arrRef spec0 w ≠ r) (k5 : r ∉ wr1) (k6 : ∀ w, Pipeline.arrRef spec1 w ≠ r) (k7 : ∀ w, Pipeline.arrRef spec2 w ≠ r) (k8 : r ∉ wr3) (k9 : ∀ w, Pipeline.arrRef spec3 w ≠ r) (k10 : ∀ w, Pipeline.arrRef spec4 w ≠ r) (k11 : r ∉ wr5) :
    W11 m ρ c (Proc.devRef .tc r) = m ((c : Thread nD τ).loc r) :=
  (W11_of m ρ c r k11).trans (W10_keep m ρ c r h0 h1 h2 k4 k5 k6 k7 k8 k9 k10)
theorem W12_keep (c : Dev nD) (r : Ref sig .tc) (h0 : r ∉ wr0) (h1 : r ∉ wr0_1) (h2 : r ∉ wr0_2) (k4 : ∀ w, Pipeline.arrRef spec0 w ≠ r) (k5 : r ∉ wr1) (k6 : ∀ w, Pipeline.arrRef spec1 w ≠ r) (k7 : ∀ w, Pipeline.arrRef spec2 w ≠ r) (k8 : r ∉ wr3) (k9 : ∀ w, Pipeline.arrRef spec3 w ≠ r) (k10 : ∀ w, Pipeline.arrRef spec4 w ≠ r) (k11 : r ∉ wr5) (k12 : ∀ w, Pipeline.arrRef spec5 w ≠ r) :
    W12 m ρ c (Proc.devRef .tc r) = m ((c : Thread nD τ).loc r) :=
  (W12_of_ne m ρ c r k12).trans (W11_keep m ρ c r h0 h1 h2 k4 k5 k6 k7 k8 k9 k10 k11)
theorem W13_keep (c : Dev nD) (r : Ref sig .tc) (h0 : r ∉ wr0) (h1 : r ∉ wr0_1) (h2 : r ∉ wr0_2) (k4 : ∀ w, Pipeline.arrRef spec0 w ≠ r) (k5 : r ∉ wr1) (k6 : ∀ w, Pipeline.arrRef spec1 w ≠ r) (k7 : ∀ w, Pipeline.arrRef spec2 w ≠ r) (k8 : r ∉ wr3) (k9 : ∀ w, Pipeline.arrRef spec3 w ≠ r) (k10 : ∀ w, Pipeline.arrRef spec4 w ≠ r) (k11 : r ∉ wr5) (k12 : ∀ w, Pipeline.arrRef spec5 w ≠ r) (k13 : r ∉ wr6) :
    W13 m ρ c (Proc.devRef .tc r) = m ((c : Thread nD τ).loc r) :=
  (W13_of m ρ c r k13).trans (W12_keep m ρ c r h0 h1 h2 k4 k5 k6 k7 k8 k9 k10 k11 k12)
theorem W14_keep (c : Dev nD) (r : Ref sig .tc) (h0 : r ∉ wr0) (h1 : r ∉ wr0_1) (h2 : r ∉ wr0_2) (k4 : ∀ w, Pipeline.arrRef spec0 w ≠ r) (k5 : r ∉ wr1) (k6 : ∀ w, Pipeline.arrRef spec1 w ≠ r) (k7 : ∀ w, Pipeline.arrRef spec2 w ≠ r) (k8 : r ∉ wr3) (k9 : ∀ w, Pipeline.arrRef spec3 w ≠ r) (k10 : ∀ w, Pipeline.arrRef spec4 w ≠ r) (k11 : r ∉ wr5) (k12 : ∀ w, Pipeline.arrRef spec5 w ≠ r) (k13 : r ∉ wr6) (k14 : ∀ w, Pipeline.arrRef spec6 w ≠ r) :
    W14 m ρ c (Proc.devRef .tc r) = m ((c : Thread nD τ).loc r) :=
  (W14_of_ne m ρ c r k14).trans (W13_keep m ρ c r h0 h1 h2 k4 k5 k6 k7 k8 k9 k10 k11 k12 k13)

theorem W5_b (c : Dev nD) : W5 m ρ c (Proc.devRef .tc main_v47) = shapeCast S1x64 (A5 m c) shapeCasts_S64_S1x64 := by
  have e := W4_arg m ρ c main_arg5 (by decide) (by decide) (by decide) (by decide)
  show StableHlo.after hostOps1 (W4 m ρ c) (Proc.devRef .tc main_v47) = _
  generalize W4 m ρ c = V at e ⊢
  after_results_simp
  rw [e]
  rfl

theorem W5_g (c : Dev nD) : W5 m ρ c (Proc.devRef .tc main_v48) = shapeCast S1x64 (A6 m c) shapeCasts_S64_S1x64 := by
  have e := W4_arg m ρ c main_arg6 (by decide) (by decide) (by decide) (by decide)
  show StableHlo.after hostOps1 (W4 m ρ c) (Proc.devRef .tc main_v48) = _
  generalize W4 m ρ c = V at e ⊢
  after_results_simp
  rw [e]
  rfl

theorem W5_bt (c : Dev nD) : W5 m ρ c (Proc.devRef .tc main_v49) = shapeCast S1x64 (A7 m c) shapeCasts_S64_S1x64 := by
  have e := W4_arg m ρ c main_arg7 (by decide) (by decide) (by decide) (by decide)
  show StableHlo.after hostOps1 (W4 m ρ c) (Proc.devRef .tc main_v49) = _
  generalize W4 m ρ c = V at e ⊢
  after_results_simp
  rw [e]
  rfl

theorem W5_mu (c : Dev nD) : W5 m ρ c (Proc.devRef .tc main_v50) = shapeCast S1x64 (A8 m c) shapeCasts_S64_S1x64 := by
  have e := W4_arg m ρ c main_arg8 (by decide) (by decide) (by decide) (by decide)
  show StableHlo.after hostOps1 (W4 m ρ c) (Proc.devRef .tc main_v50) = _
  generalize W4 m ρ c = V at e ⊢
  after_results_simp
  rw [e]
  rfl

theorem W5_var (c : Dev nD) : W5 m ρ c (Proc.devRef .tc main_v51) = shapeCast S1x64 (A9 m c) shapeCasts_S64_S1x64 := by
  have e := W4_arg m ρ c main_arg9 (by decide) (by decide) (by decide) (by decide)
  show StableHlo.after hostOps1 (W4 m ρ c) (Proc.devRef .tc main_v51) = _
  generalize W4 m ρ c = V at e ⊢
  after_results_simp
  rw [e]
  rfl

theorem W6_act (c : Dev nD) :
    W6 m ρ c (Proc.devRef .tc main_v52)
      = act (W5 m ρ c (Proc.devRef .tc main_v46)) (A5 m c) (A6 m c) (A7 m c) (A8 m c) (A9 m c) := by
  refine (W6_arr m ρ c 6).trans ?_
  rw [Cert.KernelIdeal.RegBN1.final (V5 m ρ) c]
  show Cert.Spec.bn (W5 m ρ c (Proc.devRef .tc main_v46)) (W5 m ρ c (Proc.devRef .tc main_v47)) (W5 m ρ c (Proc.devRef .tc main_v48))
    (W5 m ρ c (Proc.devRef .tc main_v49)) (W5 m ρ c (Proc.devRef .tc main_v50)) (W5 m ρ c (Proc.devRef .tc main_v51)) = _
  rw [W5_b, W5_g, W5_bt, W5_mu, W5_var]
  exact (Cert.ReferenceIdeal.RefBN.chain_eq _ _ _ _ _ _ _).symm

/-! ## Layer 2 -/

theorem W7_xw (c : Dev nD) :
    W7 m ρ c (Proc.devRef .tc main_v53)
      = Host.dotGeneral (φ₁ := .f32) (φ₂ := .f32) Cert.ReferenceIdeal.dot_S100000x64_S64x64_S100000x64_1_0_0_1_n_n none
          (W6 m ρ c (Proc.devRef .tc main_v52) : FVec Ideal S100000x64 .f32) (A10 m c) := by
  rw [Cert.ReferenceIdeal.RefMM.dot64]
  refine (W7_arr m ρ c 2).trans ?_
  rw [Cert.KernelIdeal.RegMM2.final (V6 m ρ) c]
  show Cert.Spec.mm (W6 m ρ c (Proc.devRef .tc main_v52)) (W6 m ρ c (Proc.devRef .tc main_arg10)) = _
  rw [W6_keep m ρ c main_arg10 (by decide) (by decide) (by decide) (by decide) (by decide) (by decide)]

theorem W8_agg (c : Dev nD) :
    W8 m ρ c (Proc.devRef .tc main_v66) = agg (A1 m c) (A2 m c) (W7 m ρ c (Proc.devRef .tc main_v53)) := by
  have e4 := W7_row m ρ c
  have e7 := W7_col m ρ c
  have e32 := W7_norm m ρ c
  show StableHlo.after hostOps3 (W7 m ρ c) (Proc.devRef .tc main_v66) = _
  generalize W7 m ρ c = V at e4 e7 e32 ⊢
  after_results_simp
  rw [e4, e7, e32]
  rfl

theorem W8_b (c : Dev nD) : W8 m ρ c (Proc.devRef .tc main_v67) = shapeCast S1x64 (A11 m c) shapeCasts_S64_S1x64 := by
  have e := W7_keep m ρ c main_arg11 (by decide) (by decide) (by decide) (by decide) (by decide) (by decide) (by decide)
  show StableHlo.after hostOps3 (W7 m ρ c) (Proc.devRef .tc main_v67) = _
  generalize W7 m ρ c = V at e ⊢
  after_results_simp
  rw [e]
  rfl

theorem W8_g (c : Dev nD) : W8 m ρ c (Proc.devRef .tc main_v68) = shapeCast S1x64 (A12 m c) shapeCasts_S64_S1x64 := by
  have e := W7_keep m ρ c main_arg12 (by decide) (by decide) (by decide) (by decide) (by decide) (by decide) (by decide)
  show StableHlo.after hostOps3 (W7 m ρ c) (Proc.devRef .tc main_v68) = _
  generalize W7 m ρ c = V at e ⊢
  after_results_simp
  rw [e]
  rfl

theorem W8_bt (c : Dev nD) : W8 m ρ c (Proc.devRef .tc main_v69) = shapeCast S1x64 (A13 m c) shapeCasts_S64_S1x64 := by
  have e := W7_keep m ρ c main_arg13 (by decide) (by decide) (by decide) (by decide) (by decide) (by decide) (by decide)
  show StableHlo.after hostOps3 (W7 m ρ c) (Proc.devRef .tc main_v69) = _
  generalize W7 m ρ c = V at e ⊢
  after_results_simp
  rw [e]
  rfl

theorem W8_mu (c : Dev nD) : W8 m ρ c (Proc.devRef .tc main_v70) = shapeCast S1x64 (A14 m c) shapeCasts_S64_S1x64 := by
  have e := W7_keep m ρ c main_arg14 (by decide) (by decide) (by decide) (by decide) (by decide) (by decide) (by decide)
  show StableHlo.after hostOps3 (W7 m ρ c) (Proc.devRef .tc main_v70) = _
  generalize W7 m ρ c = V at e ⊢
  after_results_simp
  rw [e]
  rfl

theorem W8_var (c : Dev nD) : W8 m ρ c (Proc.devRef .tc main_v71) = shapeCast S1x64 (A15 m c) shapeCasts_S64_S1x64 := by
  have e := W7_keep m ρ c main_arg15 (by decide) (by decide) (by decide) (by decide) (by decide) (by decide) (by decide)
  show StableHlo.after hostOps3 (W7 m ρ c) (Proc.devRef .tc main_v71) = _
  generalize W7 m ρ c = V at e ⊢
  after_results_simp
  rw [e]
  rfl

theorem W9_act (c : Dev nD) :
    W9 m ρ c (Proc.devRef .tc main_v72)
      = act (W8 m ρ c (Proc.devRef .tc main_v66)) (A11 m c) (A12 m c) (A13 m c) (A14 m c) (A15 m c) := by
  refine (W9_arr m ρ c 6).trans ?_
  rw [Cert.KernelIdeal.RegBN3.final (V8 m ρ) c]
  show Cert.Spec.bn (W8 m ρ c (Proc.devRef .tc main_v66)) (W8 m ρ c (Proc.devRef .tc main_v67)) (W8 m ρ c (Proc.devRef .tc main_v68)) (W8 m ρ c (Proc.devRef .tc main_v69)) (W8 m ρ c (Proc.devRef .tc main_v70)) (W8 m ρ c (Proc.devRef .tc main_v71)) = _
  rw [W8_b, W8_g, W8_bt, W8_mu, W8_var]
  exact (Cert.ReferenceIdeal.RefBN.chain_eq _ _ _ _ _ _ _).symm

/-! ## Layer 3 -/

theorem W10_xw (c : Dev nD) :
    W10 m ρ c (Proc.devRef .tc main_v73)
      = Host.dotGeneral (φ₁ := .f32) (φ₂ := .f32) Cert.ReferenceIdeal.dot_S100000x64_S64x64_S100000x64_1_0_0_1_n_n none
          (W9 m ρ c (Proc.devRef .tc main_v72) : FVec Ideal S100000x64 .f32) (A16 m c) := by
  rw [Cert.ReferenceIdeal.RefMM.dot64]
  refine (W10_arr m ρ c 2).trans ?_
  rw [Cert.KernelIdeal.RegMM4.final (V9 m ρ) c]
  show Cert.Spec.mm (W9 m ρ c (Proc.devRef .tc main_v72)) (W9 m ρ c (Proc.devRef .tc main_arg16)) = _
  rw [W9_keep m ρ c main_arg16 (by decide) (by decide) (by decide) (by decide) (by decide) (by decide) (by decide) (by decide) (by decide)]

theorem W11_agg (c : Dev nD) :
    W11 m ρ c (Proc.devRef .tc main_v86) = agg (A1 m c) (A2 m c) (W10 m ρ c (Proc.devRef .tc main_v73)) := by
  have e4 := W10_row m ρ c
  have e7 := W10_col m ρ c
  have e32 := W10_norm m ρ c
  show StableHlo.after hostOps5 (W10 m ρ c) (Proc.devRef .tc main_v86) = _
  generalize W10 m ρ c = V at e4 e7 e32 ⊢
  after_results_simp
  rw [e4, e7, e32]
  rfl

theorem W11_b (c : Dev nD) : W11 m ρ c (Proc.devRef .tc main_v87) = shapeCast S1x64 (A17 m c) shapeCasts_S64_S1x64 := by
  have e := W10_keep m ρ c main_arg17 (by decide) (by decide) (by decide) (by decide) (by decide) (by decide) (by decide) (by decide) (by decide) (by decide)
  show StableHlo.after hostOps5 (W10 m ρ c) (Proc.devRef .tc main_v87) = _
  generalize W10 m ρ c = V at e ⊢
  after_results_simp
  rw [e]
  rfl

theorem W11_g (c : Dev nD) : W11 m ρ c (Proc.devRef .tc main_v88) = shapeCast S1x64 (A18 m c) shapeCasts_S64_S1x64 := by
  have e := W10_keep m ρ c main_arg18 (by decide) (by decide) (by decide) (by decide) (by decide) (by decide) (by decide) (by decide) (by decide) (by decide)
  show StableHlo.after hostOps5 (W10 m ρ c) (Proc.devRef .tc main_v88) = _
  generalize W10 m ρ c = V at e ⊢
  after_results_simp
  rw [e]
  rfl

theorem W11_bt (c : Dev nD) : W11 m ρ c (Proc.devRef .tc main_v89) = shapeCast S1x64 (A19 m c) shapeCasts_S64_S1x64 := by
  have e := W10_keep m ρ c main_arg19 (by decide) (by decide) (by decide) (by decide) (by decide) (by decide) (by decide) (by decide) (by decide) (by decide)
  show StableHlo.after hostOps5 (W10 m ρ c) (Proc.devRef .tc main_v89) = _
  generalize W10 m ρ c = V at e ⊢
  after_results_simp
  rw [e]
  rfl

theorem W11_mu (c : Dev nD) : W11 m ρ c (Proc.devRef .tc main_v90) = shapeCast S1x64 (A20 m c) shapeCasts_S64_S1x64 := by
  have e := W10_keep m ρ c main_arg20 (by decide) (by decide) (by decide) (by decide) (by decide) (by decide) (by decide) (by decide) (by decide) (by decide)
  show StableHlo.after hostOps5 (W10 m ρ c) (Proc.devRef .tc main_v90) = _
  generalize W10 m ρ c = V at e ⊢
  after_results_simp
  rw [e]
  rfl

theorem W11_var (c : Dev nD) : W11 m ρ c (Proc.devRef .tc main_v91) = shapeCast S1x64 (A21 m c) shapeCasts_S64_S1x64 := by
  have e := W10_keep m ρ c main_arg21 (by decide) (by decide) (by decide) (by decide) (by decide) (by decide) (by decide) (by decide) (by decide) (by decide)
  show StableHlo.after hostOps5 (W10 m ρ c) (Proc.devRef .tc main_v91) = _
  generalize W10 m ρ c = V at e ⊢
  after_results_simp
  rw [e]
  rfl

theorem W12_act (c : Dev nD) :
    W12 m ρ c (Proc.devRef .tc main_v92)
      = act (W11 m ρ c (Proc.devRef .tc main_v86)) (A17 m c) (A18 m c) (A19 m c) (A20 m c) (A21 m c) := by
  refine (W12_arr m ρ c 6).trans ?_
  rw [Cert.KernelIdeal.RegBN5.final (V11 m ρ) c]
  show Cert.Spec.bn (W11 m ρ c (Proc.devRef .tc main_v86)) (W11 m ρ c (Proc.devRef .tc main_v87)) (W11 m ρ c (Proc.devRef .tc main_v88)) (W11 m ρ c (Proc.devRef .tc main_v89)) (W11 m ρ c (Proc.devRef .tc main_v90)) (W11 m ρ c (Proc.devRef .tc main_v91)) = _
  rw [W11_b, W11_g, W11_bt, W11_mu, W11_var]
  exact (Cert.ReferenceIdeal.RefBN.chain_eq _ _ _ _ _ _ _).symm

/-! ## The per-graph sums and the result -/

theorem W13_seg (c : Dev nD) :
    W13 m ρ c (Proc.devRef .tc main_v93) = shapeCast S100000x1 (A3 m c) shapeCasts_S100000_S100000x1 := by
  have e := W12_keep m ρ c main_arg3 (by decide) (by decide) (by decide) (by decide) (by decide) (by decide) (by decide) (by decide) (by decide) (by decide) (by decide) (by decide)
  show StableHlo.after hostOps6 (W12 m ρ c) (Proc.devRef .tc main_v93) = _
  generalize W12 m ρ c = V at e ⊢
  after_results
  rw [e]
  rfl

theorem W14_sums (c : Dev nD) :
    W14 m ρ c (Proc.devRef .tc main_v94)
      = Cert.Spec.pool (n := 100000) (p := 64) (G := 1024) (W12 m ρ c (Proc.devRef .tc main_v92))
          (shapeCast S100000x1 (A3 m c) shapeCasts_S100000_S100000x1) := by
  refine (W14_arr m ρ c 2).trans ?_
  rw [Cert.KernelIdeal.RegPool6.final (V13 m ρ) c]
  show Cert.Spec.pool (W13 m ρ c (Proc.devRef .tc main_v92)) (W13 m ρ c (Proc.devRef .tc main_v93)) = _
  rw [W13_seg, W13_of m ρ c main_v92 (by decide)]

theorem W15_result (c : Dev nD) :
    W15 m ρ c (Proc.devRef .tc main_v105)
      = tail (Cert.ReferenceIdeal.Mid.pool (W12 m ρ c (Proc.devRef .tc main_v92)) (A3 m c)) (A3 m c) := by
  have e3 := W14_keep m ρ c main_arg3 (by decide) (by decide) (by decide) (by decide) (by decide) (by decide) (by decide) (by decide) (by decide) (by decide) (by decide) (by decide) (by decide) (by decide)
  have e94 := W14_sums m ρ c
  show StableHlo.after hostOps7 (W14 m ρ c) (Proc.devRef .tc main_v105) = _
  generalize W14 m ρ c = V at e3 e94 ⊢
  after_results
  rw [e3, e94]
  unfold Cert.ReferenceIdeal.Mid.pool
  rw [Cert.ReferenceIdeal.RefPool.scatter_eq _ _ shapeCasts_S100000_S100000x1 slices_S1024x64_S1000x64_0_0]
  rfl

/-- The result buffer after the run: the reference's function of the argument arrays. -/
theorem result_eq (c : Dev nD) :
    W15 m ρ c (Proc.devRef .tc main_v105)
      = Cert.ReferenceIdeal.Mid.ref (A0 m c) (A1 m c) (A2 m c) (A3 m c) (A4 m c) (A5 m c) (A6 m c) (A7 m c) (A8 m c) (A9 m c) (A10 m c)
          (A11 m c) (A12 m c) (A13 m c) (A14 m c) (A15 m c) (A16 m c) (A17 m c) (A18 m c) (A19 m c) (A20 m c) (A21 m c) := by
  rw [W15_result, W12_act, W11_agg, W10_xw, W9_act, W8_agg, W7_xw, W6_act, W5_agg, W4_xw]
  rfl

end Cert.KernelIdeal.Chain

end
-- ==== Proof.EvalL1b.lean ====
/-
  The first layer's second half on the reference's side: from the edge lists, the edge coefficients and the
  argument arrays, the 39 host operations after the coefficients compute the projection x·W, gather a source row
  per edge, scale it by the edge's coefficient and add it into the target's row; then add the bias, subtract the
  mean, multiply by rsqrt(variance + ε) and by gamma, add beta; then take the maximum with zero.  The operations are
  read in three consecutive runs — aggregation, affine normalisation, clamp — each from whatever the run before left.
-/
import proofs.«431411_j11312943857689_1_alg».proof.Proof.RefOps
import proofs.«431411_j11312943857689_1_alg».proof.Proof.Mid
import Idealize.ShloMosaic.Lib.StableHlo.Run
import Idealize.ShloMosaic.Lib.Pipeline.Frame

set_option maxRecDepth 16384

noncomputable section

open Idealize.ShloMosaic Idealize.ShloMosaic.TcCoe Idealize.SL.Sem Idealize.ShloMosaic.StableHlo

namespace Cert.ReferenceIdeal.EvalL1b

open Cert.ReferenceIdeal Cert.ReferenceIdeal.Gen Cert.ReferenceIdeal.Mid

/-! ## The operations, in three runs -/

section Lists
variable {F : FTy → Type} [FloatOps F]

/-- The aggregation: the projection, the wrapped source indices, the gather, the scaling, the scatter-add. -/
abbrev aggOps : List (HloOp τ sig (Elt F)) :=
  [ binary main_arg0 main_arg4 main_v33 ((fun l r => Host.dotGeneral dot_S100000x100_S100x64_S100000x64_1_0_0_1_n_n none l r) : (⟨S100000x100, .f32⟩ : BufTy).Contents (Elt F) → (⟨S100x64, .f32⟩ : BufTy).Contents (Elt F) → (⟨S100000x64, .f32⟩ : BufTy).Contents (Elt F)),
    unary main_v32 main_v34 (broadcastInDim S1700000x1 ![0] bcast_S1700000_S1700000x1_0 : (⟨S1700000, .f32⟩ : BufTy).Contents (Elt F) → (⟨S1700000x1, .f32⟩ : BufTy).Contents (Elt F)),
    nullary main_c_6 (constantI S_ 32 0#32),
    unary main_c_6 main_v35 (broadcastInDim S1700000 ![] bcast_S_S1700000 : (⟨S_, .i32⟩ : BufTy).Contents (Elt F) → (⟨S1700000, .i32⟩ : BufTy).Contents (Elt F)),
    binary main_v4 main_v35 main_v36 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v37 (broadcastInDim S1700000 ![] bcast_S_S1700000 : (⟨S_, .i32⟩ : BufTy).Contents (Elt F) → (⟨S1700000, .i32⟩ : BufTy).Contents (Elt F)),
    binary main_v4 main_v37 main_v38 (addi : (⟨S1700000, .i32⟩ : BufTy).Contents (Elt F) → (⟨S1700000, .i32⟩ : BufTy).Contents (Elt F) → (⟨S1700000, .i32⟩ : BufTy).Contents (Elt F)),
    ternary main_v36 main_v38 main_v4 main_v39 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v39 main_v40 (broadcastInDim S1700000x1 ![0] bcast_S1700000_S1700000x1_0 : (⟨S1700000, .i32⟩ : BufTy).Contents (Elt F) → (⟨S1700000x1, .i32⟩ : BufTy).Contents (Elt F)),
    binary main_v33 main_v40 main_v41 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v34 main_v42 (broadcastInDim S1700000x64 ![0, 1] bcast_S1700000x1_S1700000x64_0_1 : (⟨S1700000x1, .f32⟩ : BufTy).Contents (Elt F) → (⟨S1700000x64, .f32⟩ : BufTy).Contents (Elt F)),
    binary main_v42 main_v41 main_v43 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v44 (broadcastInDim S100000x64 ![] bcast_S_S100000x64 : (⟨S_, .f32⟩ : BufTy).Contents (Elt F) → (⟨S100000x64, .f32⟩ : BufTy).Contents (Elt F)),
    unary main_v7 main_v45 (broadcastInDim S1700000x1 ![0] bcast_S1700000_S1700000x1_0 : (⟨S1700000, .i32⟩ : BufTy).Contents (Elt F) → (⟨S1700000x1, .i32⟩ : BufTy).Contents (Elt F)),
    ternary main_v44 main_v45 main_v43 main_v46 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- The affine normalisation: the five parameters repeated down the rows, and the arithmetic. -/
abbrev affOps : List (HloOp τ sig (Elt F)) :=
  [ unary main_arg5 main_v47 (broadcastInDim S1x64 ![1] bcast_S64_S1x64_1 : (⟨S64, .f32⟩ : BufTy).Contents (Elt F) → (⟨S1x64, .f32⟩ : BufTy).Contents (Elt F)),
    unary main_v47 main_v48 (broadcastInDim S100000x64 ![0, 1] bcast_S1x64_S100000x64_0_1 : (⟨S1x64, .f32⟩ : BufTy).Contents (Elt F) → (⟨S100000x64, .f32⟩ : BufTy).Contents (Elt F)),
    binary main_v46 main_v48 main_v49 (addf : (⟨S100000x64, .f32⟩ : BufTy).Contents (Elt F) → (⟨S100000x64, .f32⟩ : BufTy).Contents (Elt F) → (⟨S100000x64, .f32⟩ : BufTy).Contents (Elt F)),
    unary main_arg8 main_v50 (broadcastInDim S1x64 ![1] bcast_S64_S1x64_1 : (⟨S64, .f32⟩ : BufTy).Contents (Elt F) → (⟨S1x64, .f32⟩ : BufTy).Contents (Elt F)),
    unary main_v50 main_v51 (broadcastInDim S100000x64 ![0, 1] bcast_S1x64_S100000x64_0_1 : (⟨S1x64, .f32⟩ : BufTy).Contents (Elt F) → (⟨S100000x64, .f32⟩ : BufTy).Contents (Elt F)),
    binary main_v49 main_v51 main_v52 (subf : (⟨S100000x64, .f32⟩ : BufTy).Contents (Elt F) → (⟨S100000x64, .f32⟩ : BufTy).Contents (Elt F) → (⟨S100000x64, .f32⟩ : BufTy).Contents (Elt F)),
    nullary main_cst_9 (constant S_ .f32 0x3727C5AC#32),
    unary main_cst_9 main_v53 (broadcastInDim S64 ![] bcast_S_S64 : (⟨S_, .f32⟩ : BufTy).Contents (Elt F) → (⟨S64, .f32⟩ : BufTy).Contents (Elt F)),
    binary main_arg9 main_v53 main_v54 (addf : (⟨S64, .f32⟩ : BufTy).Contents (Elt F) → (⟨S64, .f32⟩ : BufTy).Contents (Elt F) → (⟨S64, .f32⟩ : BufTy).Contents (Elt F)),
    unary main_v54 main_v55 (Host.rsqrt : (⟨S64, .f32⟩ : BufTy).Contents (Elt F) → (⟨S64, .f32⟩ : BufTy).Contents (Elt F)),
    unary main_v55 main_v56 (broadcastInDim S1x64 ![1] bcast_S64_S1x64_1 : (⟨S64, .f32⟩ : BufTy).Contents (Elt F) → (⟨S1x64, .f32⟩ : BufTy).Contents (Elt F)),
    unary main_v56 main_v57 (broadcastInDim S100000x64 ![0, 1] bcast_S1x64_S100000x64_0_1 : (⟨S1x64, .f32⟩ : BufTy).Contents (Elt F) → (⟨S100000x64, .f32⟩ : BufTy).Contents (Elt F)),
    binary main_v52 main_v57 main_v58 (mulf : (⟨S100000x64, .f32⟩ : BufTy).Contents (Elt F) → (⟨S100000x64, .f32⟩ : BufTy).Contents (Elt F) → (⟨S100000x64, .f32⟩ : BufTy).Contents (Elt F)),
    unary main_arg6 main_v59 (broadcastInDim S1x64 ![1] bcast_S64_S1x64_1 : (⟨S64, .f32⟩ : BufTy).Contents (Elt F) → (⟨S1x64, .f32⟩ : BufTy).Contents (Elt F)),
    unary main_v59 main_v60 (broadcastInDim S100000x64 ![0, 1] bcast_S1x64_S100000x64_0_1 : (⟨S1x64, .f32⟩ : BufTy).Contents (Elt F) → (⟨S100000x64, .f32⟩ : BufTy).Contents (Elt F)),
    binary main_v58 main_v60 main_v61 (mulf : (⟨S100000x64, .f32⟩ : BufTy).Contents (Elt F) → (⟨S100000x64, .f32⟩ : BufTy).Contents (Elt F) → (⟨S100000x64, .f32⟩ : BufTy).Contents (Elt F)),
    unary main_arg7 main_v62 (broadcastInDim S1x64 ![1] bcast_S64_S1x64_1 : (⟨S64, .f32⟩ : BufTy).Contents (Elt F) → (⟨S1x64, .f32⟩ : BufTy).Contents (Elt F)),
    unary main_v62 main_v63 (broadcastInDim S100000x64 ![0, 1] bcast_S1x64_S100000x64_0_1 : (⟨S1x64, .f32⟩ : BufTy).Contents (Elt F) → (⟨S100000x64, .f32⟩ : BufTy).Contents (Elt F)),
    binary main_v61 main_v63 main_v64 (addf : (⟨S100000x64, .f32⟩ : BufTy).Contents (Elt F) → (⟨S100000x64, .f32⟩ : BufTy).Contents (Elt F) → (⟨S100000x64, .f32⟩ : BufTy).Contents (Elt F)) ]

/-- The clamp at zero, as the called function's three operations. -/
abbrev clampOps : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v64) (TRef.of (T := ⟨S100000x64, .f32⟩) main_call1_v0) (TRef.of (T := ⟨S100000x64, .f32⟩) main_v65) maximumf ]

/-- Operations 43 … 81 of the reference's program. -/
abbrev opsL1b : List (HloOp τ sig (Elt F)) :=
  [ binary main_arg0 main_arg4 main_v33 ((fun l r => Host.dotGeneral dot_S100000x100_S100x64_S100000x64_1_0_0_1_n_n none l r) : (⟨S100000x100, .f32⟩ : BufTy).Contents (Elt F) → (⟨S100x64, .f32⟩ : BufTy).Contents (Elt F) → (⟨S100000x64, .f32⟩ : BufTy).Contents (Elt F)),
    unary main_v32 main_v34 (broadcastInDim S1700000x1 ![0] bcast_S1700000_S1700000x1_0 : (⟨S1700000, .f32⟩ : BufTy).Contents (Elt F) → (⟨S1700000x1, .f32⟩ : BufTy).Contents (Elt F)),
    nullary main_c_6 (constantI S_ 32 0#32),
    unary main_c_6 main_v35 (broadcastInDim S1700000 ![] bcast_S_S1700000 : (⟨S_, .i32⟩ : BufTy).Contents (Elt F) → (⟨S1700000, .i32⟩ : BufTy).Contents (Elt F)),
    binary main_v4 main_v35 main_v36 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v37 (broadcastInDim S1700000 ![] bcast_S_S1700000 : (⟨S_, .i32⟩ : BufTy).Contents (Elt F) → (⟨S1700000, .i32⟩ : BufTy).Contents (Elt F)),
    binary main_v4 main_v37 main_v38 (addi : (⟨S1700000, .i32⟩ : BufTy).Contents (Elt F) → (⟨S1700000, .i32⟩ : BufTy).Contents (Elt F) → (⟨S1700000, .i32⟩ : BufTy).Contents (Elt F)),
    ternary main_v36 main_v38 main_v4 main_v39 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v39 main_v40 (broadcastInDim S1700000x1 ![0] bcast_S1700000_S1700000x1_0 : (⟨S1700000, .i32⟩ : BufTy).Contents (Elt F) → (⟨S1700000x1, .i32⟩ : BufTy).Contents (Elt F)),
    binary main_v33 main_v40 main_v41 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v34 main_v42 (broadcastInDim S1700000x64 ![0, 1] bcast_S1700000x1_S1700000x64_0_1 : (⟨S1700000x1, .f32⟩ : BufTy).Contents (Elt F) → (⟨S1700000x64, .f32⟩ : BufTy).Contents (Elt F)),
    binary main_v42 main_v41 main_v43 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v44 (broadcastInDim S100000x64 ![] bcast_S_S100000x64 : (⟨S_, .f32⟩ : BufTy).Contents (Elt F) → (⟨S100000x64, .f32⟩ : BufTy).Contents (Elt F)),
    unary main_v7 main_v45 (broadcastInDim S1700000x1 ![0] bcast_S1700000_S1700000x1_0 : (⟨S1700000, .i32⟩ : BufTy).Contents (Elt F) → (⟨S1700000x1, .i32⟩ : BufTy).Contents (Elt F)),
    ternary main_v44 main_v45 main_v43 main_v46 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg5 main_v47 (broadcastInDim S1x64 ![1] bcast_S64_S1x64_1 : (⟨S64, .f32⟩ : BufTy).Contents (Elt F) → (⟨S1x64, .f32⟩ : BufTy).Contents (Elt F)),
    unary main_v47 main_v48 (broadcastInDim S100000x64 ![0, 1] bcast_S1x64_S100000x64_0_1 : (⟨S1x64, .f32⟩ : BufTy).Contents (Elt F) → (⟨S100000x64, .f32⟩ : BufTy).Contents (Elt F)),
    binary main_v46 main_v48 main_v49 (addf : (⟨S100000x64, .f32⟩ : BufTy).Contents (Elt F) → (⟨S100000x64, .f32⟩ : BufTy).Contents (Elt F) → (⟨S100000x64, .f32⟩ : BufTy).Contents (Elt F)),
    unary main_arg8 main_v50 (broadcastInDim S1x64 ![1] bcast_S64_S1x64_1 : (⟨S64, .f32⟩ : BufTy).Contents (Elt F) → (⟨S1x64, .f32⟩ : BufTy).Contents (Elt F)),
    unary main_v50 main_v51 (broadcastInDim S100000x64 ![0, 1] bcast_S1x64_S100000x64_0_1 : (⟨S1x64, .f32⟩ : BufTy).Contents (Elt F) → (⟨S100000x64, .f32⟩ : BufTy).Contents (Elt F)),
    binary main_v49 main_v51 main_v52 (subf : (⟨S100000x64, .f32⟩ : BufTy).Contents (Elt F) → (⟨S100000x64, .f32⟩ : BufTy).Contents (Elt F) → (⟨S100000x64, .f32⟩ : BufTy).Contents (Elt F)),
    nullary main_cst_9 (constant S_ .f32 0x3727C5AC#32),
    unary main_cst_9 main_v53 (broadcastInDim S64 ![] bcast_S_S64 : (⟨S_, .f32⟩ : BufTy).Contents (Elt F) → (⟨S64, .f32⟩ : BufTy).Contents (Elt F)),
    binary main_arg9 main_v53 main_v54 (addf : (⟨S64, .f32⟩ : BufTy).Contents (Elt F) → (⟨S64, .f32⟩ : BufTy).Contents (Elt F) → (⟨S64, .f32⟩ : BufTy).Contents (Elt F)),
    unary main_v54 main_v55 (Host.rsqrt : (⟨S64, .f32⟩ : BufTy).Contents (Elt F) → (⟨S64, .f32⟩ : BufTy).Contents (Elt F)),
    unary main_v55 main_v56 (broadcastInDim S1x64 ![1] bcast_S64_S1x64_1 : (⟨S64, .f32⟩ : BufTy).Contents (Elt F) → (⟨S1x64, .f32⟩ : BufTy).Contents (Elt F)),
    unary main_v56 main_v57 (broadcastInDim S100000x64 ![0, 1] bcast_S1x64_S100000x64_0_1 : (⟨S1x64, .f32⟩ : BufTy).Contents (Elt F) → (⟨S100000x64, .f32⟩ : BufTy).Contents (Elt F)),
    binary main_v52 main_v57 main_v58 (mulf : (⟨S100000x64, .f32⟩ : BufTy).Contents (Elt F) → (⟨S100000x64, .f32⟩ : BufTy).Contents (Elt F) → (⟨S100000x64, .f32⟩ : BufTy).Contents (Elt F)),
    unary main_arg6 main_v59 (broadcastInDim S1x64 ![1] bcast_S64_S1x64_1 : (⟨S64, .f32⟩ : BufTy).Contents (Elt F) → (⟨S1x64, .f32⟩ : BufTy).Contents (Elt F)),
    unary main_v59 main_v60 (broadcastInDim S100000x64 ![0, 1] bcast_S1x64_S100000x64_0_1 : (⟨S1x64, .f32⟩ : BufTy).Contents (Elt F) → (⟨S100000x64, .f32⟩ : BufTy).Contents (Elt F)),
    binary main_v58 main_v60 main_v61 (mulf : (⟨S100000x64, .f32⟩ : BufTy).Contents (Elt F) → (⟨S100000x64, .f32⟩ : BufTy).Contents (Elt F) → (⟨S100000x64, .f32⟩ : BufTy).Contents (Elt F)),
    unary main_arg7 main_v62 (broadcastInDim S1x64 ![1] bcast_S64_S1x64_1 : (⟨S64, .f32⟩ : BufTy).Contents (Elt F) → (⟨S1x64, .f32⟩ : BufTy).Contents (Elt F)),
    unary main_v62 main_v63 (broadcastInDim S100000x64 ![0, 1] bcast_S1x64_S100000x64_0_1 : (⟨S1x64, .f32⟩ : BufTy).Contents (Elt F) → (⟨S100000x64, .f32⟩ : BufTy).Contents (Elt F)),
    binary main_v61 main_v63 main_v64 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v64) (TRef.of (T := ⟨S100000x64, .f32⟩) main_call1_v0) (TRef.of (T := ⟨S100000x64, .f32⟩) main_v65) maximumf ]

/-- They are the three runs in a row. -/
theorem opsL1b_cut : (opsL1b : List (HloOp τ sig (Elt F))) = aggOps ++ (affOps ++ clampOps) := rfl

end Lists

/-! ## Each run from whatever came before -/

/-- The aggregate of the projected rows. -/
theorem aggregate (V : Valuation τ sig (Elt Ideal)) (x0 : FVec Ideal S100000x100 .f32) (x1 : IVec S2x1600000 32)
    (x2 : FVec Ideal S1600000 .f32) (x4 : FVec Ideal S100x64 .f32)
    (er : V (Proc.devRef .tc main_v4) = row x1) (ec : V (Proc.devRef .tc main_v7) = col x1)
    (en : V (Proc.devRef .tc main_v32) = norm x1 x2)
    (e0 : V (Proc.devRef .tc main_arg0) = x0) (e4 : V (Proc.devRef .tc main_arg4) = x4) :
    after (aggOps (F := Ideal)) V (Proc.devRef .tc main_v46)
      = agg x1 x2 (Host.dotGeneral dot_S100000x100_S100x64_S100000x64_1_0_0_1_n_n none x0 x4) := by
  after_results_simp
  rw [er, ec, en, e0, e4]
  rfl

/-- Bias added, mean subtracted, times rsqrt(variance + ε), times gamma, plus beta. -/
theorem affine (V : Valuation τ sig (Elt Ideal)) (a : FVec Ideal S100000x64 .f32) (x5 x6 x7 x8 x9 : FVec Ideal S64 .f32)
    (ea : V (Proc.devRef .tc main_v46) = a)
    (e5 : V (Proc.devRef .tc main_arg5) = x5) (e6 : V (Proc.devRef .tc main_arg6) = x6) (e7 : V (Proc.devRef .tc main_arg7) = x7)
    (e8 : V (Proc.devRef .tc main_arg8) = x8) (e9 : V (Proc.devRef .tc main_arg9) = x9) :
    after (affOps (F := Ideal)) V (Proc.devRef .tc main_v64)
      = addf (mulf (mulf (subf (addf a (rows x5)) (rows x8))
          (rows (Host.rsqrt (addf x9 (broadcastInDim S64 ![] bcast_S_S64 (constant (F := Ideal) S_ .f32 0x3727C5AC#32))))))
          (rows x6)) (rows x7) := by
  after_results_simp
  rw [ea, e5, e6, e7, e8, e9]

/-! Contents moved between a buffer's own type and the type the called function's operation names it at: the two
    types are the same, so the move is the identity. -/
section Transport
theorem toBuf65 (h1 : main_v65.ty = (⟨S100000x64, .f32⟩ : BufTy)) (h2 h3) (v : (⟨S100000x64, .f32⟩ : BufTy).Contents (Elt Ideal)) :
    (TRef.of (sig := sig) (T := ⟨S100000x64, .f32⟩) main_v65 h1 h2 h3).toBuf (Val := Elt Ideal) v = v := rfl
theorem ofBuf64 (h1 : main_v64.ty = (⟨S100000x64, .f32⟩ : BufTy)) (h2 h3) (v : (Proc.devRef (τ := τ) .tc main_v64).ty.Contents (Elt Ideal)) :
    (TRef.of (sig := sig) (T := ⟨S100000x64, .f32⟩) main_v64 h1 h2 h3).ofBuf (Val := Elt Ideal) v = v := rfl
theorem toBufZeros (h1 : main_call1_v0.ty = (⟨S100000x64, .f32⟩ : BufTy)) (h2 h3) (v : (⟨S100000x64, .f32⟩ : BufTy).Contents (Elt Ideal)) :
    (TRef.of (sig := sig) (T := ⟨S100000x64, .f32⟩) main_call1_v0 h1 h2 h3).toBuf (Val := Elt Ideal) v = v := rfl
theorem ofBufZeros (h1 : main_call1_v0.ty = (⟨S100000x64, .f32⟩ : BufTy)) (h2 h3) (v : (Proc.devRef (τ := τ) .tc main_call1_v0).ty.Contents (Elt Ideal)) :
    (TRef.of (sig := sig) (T := ⟨S100000x64, .f32⟩) main_call1_v0 h1 h2 h3).ofBuf (Val := Elt Ideal) v = v := rfl
theorem toBufZero (h1 : main_call1_cst.ty = (⟨S_, .f32⟩ : BufTy)) (h2 h3) (v : (⟨S_, .f32⟩ : BufTy).Contents (Elt Ideal)) :
    (TRef.of (sig := sig) (T := ⟨S_, .f32⟩) main_call1_cst h1 h2 h3).toBuf (Val := Elt Ideal) v = v := rfl
theorem ofBufZero (h1 : main_call1_cst.ty = (⟨S_, .f32⟩ : BufTy)) (h2 h3) (v : (Proc.devRef (τ := τ) .tc main_call1_cst).ty.Contents (Elt Ideal)) :
    (TRef.of (sig := sig) (T := ⟨S_, .f32⟩) main_call1_cst h1 h2 h3).ofBuf (Val := Elt Ideal) v = v := rfl
end Transport

/-- The maximum with the zero array. -/
theorem clamp (V : Valuation τ sig (Elt Ideal)) (z : FVec Ideal S100000x64 .f32)
    (ez : V (Proc.devRef .tc main_v64) = z) :
    after (clampOps (F := Ideal)) V (Proc.devRef .tc main_v65)
      = maximumf z (broadcastInDim S100000x64 ![] bcast_S_S100000x64 (constant (F := Ideal) S_ .f32 0x00000000#32)) := by
  after_results
  rw [ez, toBuf65, ofBuf64, ofBufZeros, toBufZeros, ofBufZero, toBufZero]

/-! ## What the aggregation run leaves alone -/

abbrev wrAgg : List (Ref sig .tc) := [main_v33, main_v34, main_c_6, main_v35, main_v36, main_c_7, main_v37, main_v38, main_v39,
  main_v40, main_v41, main_v42, main_v43, main_cst_8, main_v44, main_v45, main_v46]
theorem writesAgg : (aggOps (F := Ideal)).Forall fun op => op.writes ⊆ (wrAgg.map (Proc.devRef (τ := τ) .tc)).toFinset := by
  simp only [aggOps, List.Forall, nullary_writes, unary_writes, binary_writes, ternary_writes, reshape_writes,
    Finset.singleton_subset_iff, List.mem_toFinset]
  repeat' apply And.intro
  all_goals exact List.mem_map_of_mem (by decide)

theorem agg_keeps (V : Valuation τ sig (Elt Ideal)) (r : Ref sig .tc) (h : r ∉ wrAgg) :
    after (aggOps (F := Ideal)) V (Proc.devRef .tc r) = V (Proc.devRef .tc r) :=
  after_of_writes_sub (aggOps (F := Ideal)) V writesAgg h

/-! ## The three runs in a row -/

theorem layer_b (U : Valuation τ sig (Elt Ideal)) (x0 : FVec Ideal S100000x100 .f32) (x1 : IVec S2x1600000 32) (x2 : FVec Ideal S1600000 .f32) (x4 : FVec Ideal S100x64 .f32) (x5 x6 x7 x8 x9 : FVec Ideal S64 .f32)
    (er : U (Proc.devRef .tc main_v4) = row x1) (ec : U (Proc.devRef .tc main_v7) = col x1) (en : U (Proc.devRef .tc main_v32) = norm x1 x2)
    (e0 : U (Proc.devRef .tc main_arg0) = x0) (e4 : U (Proc.devRef .tc main_arg4) = x4)
    (e5 : U (Proc.devRef .tc main_arg5) = x5) (e6 : U (Proc.devRef .tc main_arg6) = x6) (e7 : U (Proc.devRef .tc main_arg7) = x7) (e8 : U (Proc.devRef .tc main_arg8) = x8) (e9 : U (Proc.devRef .tc main_arg9) = x9) :
    StableHlo.after (opsL1b (F := Ideal)) U (Proc.devRef .tc main_v65) = h1 x0 x1 x2 x4 x5 x6 x7 x8 x9 := by
  rw [opsL1b_cut, after_append, after_append]
  have hagg := aggregate U x0 x1 x2 x4 er ec en e0 e4
  have k5 := (agg_keeps U main_arg5 (by decide)).trans e5
  have k6 := (agg_keeps U main_arg6 (by decide)).trans e6
  have k7 := (agg_keeps U main_arg7 (by decide)).trans e7
  have k8 := (agg_keeps U main_arg8 (by decide)).trans e8
  have k9 := (agg_keeps U main_arg9 (by decide)).trans e9
  have haff := affine (after (aggOps (F := Ideal)) U) _ x5 x6 x7 x8 x9 hagg k5 k6 k7 k8 k9
  exact (clamp (after (affOps (F := Ideal)) (after (aggOps (F := Ideal)) U)) _ haff).trans rfl

end Cert.ReferenceIdeal.EvalL1b

end
-- ==== Proof.EvalL1.lean ====
/-
  The reference's first layer, read off its operations.

  The layer's 82 operations fall in two halves.  The first 43 work on the graph alone: they list every edge's
  source and target (the given pairs, then one self loop per node) and its weight (the absolute given weight,
  then a one per self loop), add each edge's weight into its target node to get the weighted in-degree, take
  deg^(-1/2) where the degree is positive and zero elsewhere, and give every edge the coefficient
  dinv(source) · weight · dinv(target).  The last 39 project the node features, aggregate them along the edges
  with those coefficients, and apply bias, normalisation and relu; they read only the edge lists, the
  coefficients and the arguments, all of which the first half leaves in place.  So the layer's output is the
  second half's result on what the first half left, and the edge lists and weights, which the second half
  never writes, are still there at the end.
-/
import proofs.«431411_j11312943857689_1_alg».proof.Proof.RefOps
import proofs.«431411_j11312943857689_1_alg».proof.Proof.Mid
import proofs.«431411_j11312943857689_1_alg».proof.Proof.EvalL1b
import Idealize.ShloMosaic.Lib.StableHlo.Run

set_option maxRecDepth 16384

noncomputable section

open Idealize.ShloMosaic Idealize.ShloMosaic.TcCoe Idealize.SL.Sem Idealize.ShloMosaic.StableHlo

namespace Cert.ReferenceIdeal.EvalL1

open Cert.ReferenceIdeal Cert.ReferenceIdeal.Gen Cert.ReferenceIdeal.ValueP Cert.ReferenceIdeal.Mid

/-- Running one list of operations after another is running their concatenation. -/
theorem after_app : ∀ (l₁ l₂ : List (HloOp τ sig (Elt Ideal))) (V : Valuation τ sig (Elt Ideal)),
    StableHlo.after (l₁ ++ l₂) V = StableHlo.after l₂ (StableHlo.after l₁ V)
  | [], _, _ => rfl
  | op :: l₁, l₂, V => by rw [List.cons_append, StableHlo.after_cons, StableHlo.after_cons, after_app l₁ l₂]

/-! ## The first half of the layer, in three runs

Operations 0 … 19 build the edge lists (given pairs, then a self loop per node), the weights (absolute given
weights, then ones), the weighted in-degree, its positivity test and its inverse square root.  Operations
20 … 22 select the inverse square root where the degree is positive and zero elsewhere.  Operations 23 … 42
gather that at each edge's two ends and multiply by the edge's weight: the edge coefficients. -/

section Lists
variable {F : FTy → Type} [FloatOps F]

/-- Operations 0 … 19, at any float family. -/
abbrev edgesAt : List (HloOp τ sig (Elt F)) :=
  [ unary main_arg2 main_v0 (Host.absf : (⟨S1600000, .f32⟩ : BufTy).Contents (Elt F) → (⟨S1600000, .f32⟩ : BufTy).Contents (Elt F)),
    nullary main_v1 (iotaInDim S100000 32 0),
    unary main_arg1 main_v2 ((extractStridedSlice S1x1600000 ![0, 0] · slices_S2x1600000_S1x1600000_0_0) : (⟨S2x1600000, .i32⟩ : BufTy).Contents (Elt F) → (⟨S1x1600000, .i32⟩ : BufTy).Contents (Elt F)),
    reshape main_v2 main_v3 rfl shapeCasts_S1x1600000_S1600000,
    binary main_v3 main_v1 main_v4 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v5 ((extractStridedSlice S1x1600000 ![1, 0] · slices_S2x1600000_S1x1600000_1_0) : (⟨S2x1600000, .i32⟩ : BufTy).Contents (Elt F) → (⟨S1x1600000, .i32⟩ : BufTy).Contents (Elt F)),
    reshape main_v5 main_v6 rfl shapeCasts_S1x1600000_S1600000,
    binary main_v6 main_v1 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v8 (broadcastInDim S100000 ![] bcast_S_S100000 : (⟨S_, .f32⟩ : BufTy).Contents (Elt F) → (⟨S100000, .f32⟩ : BufTy).Contents (Elt F)),
    binary main_v0 main_v8 main_v9 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    nullary main_cst_0 (constant S_ .f32 0x00000000#32),
    unary main_cst_0 main_v10 (broadcastInDim S100000 ![] bcast_S_S100000 : (⟨S_, .f32⟩ : BufTy).Contents (Elt F) → (⟨S100000, .f32⟩ : BufTy).Contents (Elt F)),
    unary main_v7 main_v11 (broadcastInDim S1700000x1 ![0] bcast_S1700000_S1700000x1_0 : (⟨S1700000, .i32⟩ : BufTy).Contents (Elt F) → (⟨S1700000x1, .i32⟩ : BufTy).Contents (Elt F)),
    ternary main_v10 main_v11 main_v9 main_v12 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v13 (broadcastInDim S100000 ![] bcast_S_S100000 : (⟨S_, .f32⟩ : BufTy).Contents (Elt F) → (⟨S100000, .f32⟩ : BufTy).Contents (Elt F)),
    binary main_v12 main_v13 main_v14 (cmpf .ogt : (⟨S100000, .f32⟩ : BufTy).Contents (Elt F) → (⟨S100000, .f32⟩ : BufTy).Contents (Elt F) → (⟨S100000, .i1⟩ : BufTy).Contents (Elt F)),
    unary main_v12 main_v15 (Host.rsqrt : (⟨S100000, .f32⟩ : BufTy).Contents (Elt F) → (⟨S100000, .f32⟩ : BufTy).Contents (Elt F)),
    nullary main_cst_2 (constant S_ .f32 0x00000000#32) ]

/-- Operations 20 … 22, at any float family. -/
abbrev guardAt : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v14) (TRef.of (T := ⟨S100000, .f32⟩) main_v15) (TRef.of (T := ⟨S100000, .f32⟩) main_call0_v1) (TRef.of (T := ⟨S100000, .f32⟩) main_v16) select ]

/-- Operations 23 … 42, at any float family. -/
abbrev coeffsAt : List (HloOp τ sig (Elt F)) :=
  [ nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v4 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v19 (broadcastInDim S1700000 ![] bcast_S_S1700000 : (⟨S_, .i32⟩ : BufTy).Contents (Elt F) → (⟨S1700000, .i32⟩ : BufTy).Contents (Elt F)),
    binary main_v4 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v4 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v9 main_v24 (mulf : (⟨S1700000, .f32⟩ : BufTy).Contents (Elt F) → (⟨S1700000, .f32⟩ : BufTy).Contents (Elt F) → (⟨S1700000, .f32⟩ : BufTy).Contents (Elt F)),
    nullary main_c_4 (constantI S_ 32 0#32),
    unary main_c_4 main_v25 (broadcastInDim S1700000 ![] bcast_S_S1700000 : (⟨S_, .i32⟩ : BufTy).Contents (Elt F) → (⟨S1700000, .i32⟩ : BufTy).Contents (Elt F)),
    binary main_v7 main_v25 main_v26 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v27 (broadcastInDim S1700000 ![] bcast_S_S1700000 : (⟨S_, .i32⟩ : BufTy).Contents (Elt F) → (⟨S1700000, .i32⟩ : BufTy).Contents (Elt F)),
    binary main_v7 main_v27 main_v28 (addi : (⟨S1700000, .i32⟩ : BufTy).Contents (Elt F) → (⟨S1700000, .i32⟩ : BufTy).Contents (Elt F) → (⟨S1700000, .i32⟩ : BufTy).Contents (Elt F)),
    ternary main_v26 main_v28 main_v7 main_v29 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v29 main_v30 (broadcastInDim S1700000x1 ![0] bcast_S1700000_S1700000x1_0 : (⟨S1700000, .i32⟩ : BufTy).Contents (Elt F) → (⟨S1700000x1, .i32⟩ : BufTy).Contents (Elt F)),
    binary main_v16 main_v30 main_v31 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v24 main_v31 main_v32 (mulf : (⟨S1700000, .f32⟩ : BufTy).Contents (Elt F) → (⟨S1700000, .f32⟩ : BufTy).Contents (Elt F) → (⟨S1700000, .f32⟩ : BufTy).Contents (Elt F)) ]

end Lists

/-- The three runs over the extended reals. -/
abbrev edges : List (HloOp τ sig (Elt Ideal)) := edgesAt (F := Ideal)
abbrev guard : List (HloOp τ sig (Elt Ideal)) := guardAt (F := Ideal)
abbrev coeffs : List (HloOp τ sig (Elt Ideal)) := coeffsAt (F := Ideal)

/-- Operations 0 … 42. -/
abbrev opsL1a : List (HloOp τ sig (Elt Ideal)) := edges ++ (guard ++ coeffs)

/-! ## What each run writes -/

abbrev wrEdges : List (Ref sig .tc) := [main_v0, main_v1, main_v2, main_v3, main_v4, main_v5, main_v6, main_v7, main_cst, main_v8, main_v9, main_cst_0, main_v10, main_v11, main_v12, main_cst_1, main_v13, main_v14, main_v15, main_cst_2]
theorem writesEdges : edges.Forall fun op => op.writes ⊆ (wrEdges.map (Proc.devRef (τ := τ) .tc)).toFinset := by
  simp only [edges, edgesAt, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev wrGuard : List (Ref sig .tc) := [main_call0_v0, main_call0_v1, main_v16]
theorem writesGuard : guard.Forall fun op => op.writes ⊆ (wrGuard.map (Proc.devRef (τ := τ) .tc)).toFinset := by
  simp only [guard, guardAt, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev wrCoeffs : List (Ref sig .tc) := [main_c, main_v17, main_v18, main_c_3, main_v19, main_v20, main_v21, main_v22, main_v23, main_v24, main_c_4, main_v25, main_v26, main_c_5, main_v27, main_v28, main_v29, main_v30, main_v31, main_v32]
theorem writesCoeffs : coeffs.Forall fun op => op.writes ⊆ (wrCoeffs.map (Proc.devRef (τ := τ) .tc)).toFinset := by
  simp only [coeffs, coeffsAt, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev wrRest : List (Ref sig .tc) := [main_v33, main_v34, main_c_6, main_v35, main_v36, main_c_7, main_v37, main_v38, main_v39, main_v40, main_v41, main_v42, main_v43, main_cst_8, main_v44, main_v45, main_v46, main_v47, main_v48, main_v49, main_v50, main_v51, main_v52, main_cst_9, main_v53, main_v54, main_v55, main_v56, main_v57, main_v58, main_v59, main_v60, main_v61, main_v62, main_v63, main_v64, main_call1_cst, main_call1_v0, main_v65]
theorem writesRest : (EvalL1b.opsL1b (F := Ideal)).Forall fun op => op.writes ⊆ (wrRest.map (Proc.devRef (τ := τ) .tc)).toFinset := by
  simp only [EvalL1b.opsL1b, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

variable (V : Valuation τ sig (Elt Ideal))

/-- A buffer a run does not write holds afterwards what it held before. -/
theorem keepEdges (r : Ref sig .tc) (h : r ∉ wrEdges) :
    StableHlo.after edges V (Proc.devRef .tc r) = V (Proc.devRef .tc r) := StableHlo.after_of_writes_sub edges V writesEdges h
theorem keepGuard (r : Ref sig .tc) (h : r ∉ wrGuard) :
    StableHlo.after guard V (Proc.devRef .tc r) = V (Proc.devRef .tc r) := StableHlo.after_of_writes_sub guard V writesGuard h
theorem keepCoeffs (r : Ref sig .tc) (h : r ∉ wrCoeffs) :
    StableHlo.after coeffs V (Proc.devRef .tc r) = V (Proc.devRef .tc r) := StableHlo.after_of_writes_sub coeffs V writesCoeffs h
theorem keepRest (r : Ref sig .tc) (h : r ∉ wrRest) :
    StableHlo.after (EvalL1b.opsL1b (F := Ideal)) V (Proc.devRef .tc r) = V (Proc.devRef .tc r) :=
  StableHlo.after_of_writes_sub (EvalL1b.opsL1b (F := Ideal)) V writesRest h

/-! ## Operations 0 … 19 -/

theorem edges_row (x1 : IVec S2x1600000 32) (e1 : V (Proc.devRef .tc main_arg1) = x1) :
    StableHlo.after edges V (Proc.devRef .tc main_v4) = row x1 := by
  subst e1
  after_results_simp
  rfl

theorem edges_col (x1 : IVec S2x1600000 32) (e1 : V (Proc.devRef .tc main_arg1) = x1) :
    StableHlo.after edges V (Proc.devRef .tc main_v7) = col x1 := by
  subst e1
  after_results_simp
  rfl

theorem edges_wts (x2 : FVec Ideal S1600000 .f32) (e2 : V (Proc.devRef .tc main_arg2) = x2) :
    StableHlo.after edges V (Proc.devRef .tc main_v9) = wts x2 := by
  subst e2
  after_results_simp
  rfl

theorem edges_pos (x1 : IVec S2x1600000 32) (x2 : FVec Ideal S1600000 .f32)
    (e1 : V (Proc.devRef .tc main_arg1) = x1) (e2 : V (Proc.devRef .tc main_arg2) = x2) :
    StableHlo.after edges V (Proc.devRef .tc main_v14)
      = cmpf .ogt (deg x1 x2) (broadcastInDim S100000 ![] bcast_S_S100000 (constant (F := Ideal) S_ .f32 0x00000000#32)) := by
  subst e1 e2
  after_results_simp
  rfl

theorem edges_rsq (x1 : IVec S2x1600000 32) (x2 : FVec Ideal S1600000 .f32)
    (e1 : V (Proc.devRef .tc main_arg1) = x1) (e2 : V (Proc.devRef .tc main_arg2) = x2) :
    StableHlo.after edges V (Proc.devRef .tc main_v15) = Host.rsqrt (deg x1 x2) := by
  subst e1 e2
  after_results_simp
  rfl

theorem edges_zero :
    StableHlo.after edges V (Proc.devRef .tc main_cst_2) = constant (F := Ideal) S_ .f32 0x00000000#32 := by
  after_results_simp

/-! ## Operations 20 … 22

These are the operations of a called function, which names each buffer at the type of the value it holds; that
type is the buffer's own, so moving contents between the two is the identity. -/
section SameType
theorem to_v16 (h1 : main_v16.ty = (⟨S100000, .f32⟩ : BufTy)) (h2 h3) (v : (⟨S100000, .f32⟩ : BufTy).Contents (Elt Ideal)) :
    (StableHlo.TRef.of (sig := sig) (T := ⟨S100000, .f32⟩) main_v16 h1 h2 h3).toBuf (Val := Elt Ideal) v = v := rfl
theorem of_v14 (h1 : main_v14.ty = (⟨S100000, .i1⟩ : BufTy)) (h2 h3) (v : (Proc.devRef (τ := τ) .tc main_v14).ty.Contents (Elt Ideal)) :
    (StableHlo.TRef.of (sig := sig) (T := ⟨S100000, .i1⟩) main_v14 h1 h2 h3).ofBuf (Val := Elt Ideal) v = v := rfl
theorem of_v15 (h1 : main_v15.ty = (⟨S100000, .f32⟩ : BufTy)) (h2 h3) (v : (Proc.devRef (τ := τ) .tc main_v15).ty.Contents (Elt Ideal)) :
    (StableHlo.TRef.of (sig := sig) (T := ⟨S100000, .f32⟩) main_v15 h1 h2 h3).ofBuf (Val := Elt Ideal) v = v := rfl
theorem to_call_v1 (h1 : main_call0_v1.ty = (⟨S100000, .f32⟩ : BufTy)) (h2 h3) (v : (⟨S100000, .f32⟩ : BufTy).Contents (Elt Ideal)) :
    (StableHlo.TRef.of (sig := sig) (T := ⟨S100000, .f32⟩) main_call0_v1 h1 h2 h3).toBuf (Val := Elt Ideal) v = v := rfl
theorem of_call_v1 (h1 : main_call0_v1.ty = (⟨S100000, .f32⟩ : BufTy)) (h2 h3) (v : (Proc.devRef (τ := τ) .tc main_call0_v1).ty.Contents (Elt Ideal)) :
    (StableHlo.TRef.of (sig := sig) (T := ⟨S100000, .f32⟩) main_call0_v1 h1 h2 h3).ofBuf (Val := Elt Ideal) v = v := rfl
theorem to_call_v0 (h1 : main_call0_v0.ty = (⟨S_, .f32⟩ : BufTy)) (h2 h3) (v : (⟨S_, .f32⟩ : BufTy).Contents (Elt Ideal)) :
    (StableHlo.TRef.of (sig := sig) (T := ⟨S_, .f32⟩) main_call0_v0 h1 h2 h3).toBuf (Val := Elt Ideal) v = v := rfl
theorem of_call_v0 (h1 : main_call0_v0.ty = (⟨S_, .f32⟩ : BufTy)) (h2 h3) (v : (Proc.devRef (τ := τ) .tc main_call0_v0).ty.Contents (Elt Ideal)) :
    (StableHlo.TRef.of (sig := sig) (T := ⟨S_, .f32⟩) main_call0_v0 h1 h2 h3).ofBuf (Val := Elt Ideal) v = v := rfl
theorem of_zero (h1 : main_cst_2.ty = (⟨S_, .f32⟩ : BufTy)) (h2 h3) (v : (Proc.devRef (τ := τ) .tc main_cst_2).ty.Contents (Elt Ideal)) :
    (StableHlo.TRef.of (sig := sig) (T := ⟨S_, .f32⟩) main_cst_2 h1 h2 h3).ofBuf (Val := Elt Ideal) v = v := rfl
end SameType

theorem guard_dinv (x1 : IVec S2x1600000 32) (x2 : FVec Ideal S1600000 .f32)
    (e14 : V (Proc.devRef .tc main_v14)
      = cmpf .ogt (deg x1 x2) (broadcastInDim S100000 ![] bcast_S_S100000 (constant (F := Ideal) S_ .f32 0x00000000#32)))
    (e15 : V (Proc.devRef .tc main_v15) = Host.rsqrt (deg x1 x2))
    (ez : V (Proc.devRef .tc main_cst_2) = constant (F := Ideal) S_ .f32 0x00000000#32) :
    StableHlo.after guard V (Proc.devRef .tc main_v16) = dinv x1 x2 := by
  after_results
  rw [e14, e15, ez, to_v16, of_v14, of_v15, of_call_v1, to_call_v1, of_call_v0, to_call_v0, of_zero]
  rfl

/-! ## Operations 23 … 42 -/

theorem coeffs_norm (x1 : IVec S2x1600000 32) (x2 : FVec Ideal S1600000 .f32)
    (e4 : V (Proc.devRef .tc main_v4) = row x1) (e7 : V (Proc.devRef .tc main_v7) = col x1)
    (e9 : V (Proc.devRef .tc main_v9) = wts x2) (e16 : V (Proc.devRef .tc main_v16) = dinv x1 x2) :
    StableHlo.after coeffs V (Proc.devRef .tc main_v32) = norm x1 x2 := by
  after_results_simp
  rw [e4, e7, e9, e16]
  rfl

/-! ## The first half as a whole -/

theorem half_eq : StableHlo.after opsL1a V = StableHlo.after coeffs (StableHlo.after guard (StableHlo.after edges V)) := by
  show StableHlo.after (edges ++ (guard ++ coeffs)) V = _
  rw [after_app, after_app]

/-- A buffer none of the first 43 operations writes holds afterwards what it held before. -/
theorem half_keep (r : Ref sig .tc) (h0 : r ∉ wrEdges) (h1 : r ∉ wrGuard) (h2 : r ∉ wrCoeffs) :
    StableHlo.after opsL1a V (Proc.devRef .tc r) = V (Proc.devRef .tc r) := by
  rw [half_eq]
  exact (keepCoeffs _ r h2).trans ((keepGuard _ r h1).trans (keepEdges V r h0))

theorem half_row (x1 : IVec S2x1600000 32) (e1 : V (Proc.devRef .tc main_arg1) = x1) :
    StableHlo.after opsL1a V (Proc.devRef .tc main_v4) = row x1 := by
  rw [half_eq]
  exact (keepCoeffs _ main_v4 (by decide)).trans ((keepGuard _ main_v4 (by decide)).trans (edges_row V x1 e1))

theorem half_col (x1 : IVec S2x1600000 32) (e1 : V (Proc.devRef .tc main_arg1) = x1) :
    StableHlo.after opsL1a V (Proc.devRef .tc main_v7) = col x1 := by
  rw [half_eq]
  exact (keepCoeffs _ main_v7 (by decide)).trans ((keepGuard _ main_v7 (by decide)).trans (edges_col V x1 e1))

theorem half_wts (x2 : FVec Ideal S1600000 .f32) (e2 : V (Proc.devRef .tc main_arg2) = x2) :
    StableHlo.after opsL1a V (Proc.devRef .tc main_v9) = wts x2 := by
  rw [half_eq]
  exact (keepCoeffs _ main_v9 (by decide)).trans ((keepGuard _ main_v9 (by decide)).trans (edges_wts V x2 e2))

theorem half_norm (x1 : IVec S2x1600000 32) (x2 : FVec Ideal S1600000 .f32)
    (e1 : V (Proc.devRef .tc main_arg1) = x1) (e2 : V (Proc.devRef .tc main_arg2) = x2) :
    StableHlo.after opsL1a V (Proc.devRef .tc main_v32) = norm x1 x2 := by
  rw [half_eq]
  refine coeffs_norm _ x1 x2 ?_ ?_ ?_ ?_
  · exact (keepGuard _ main_v4 (by decide)).trans (edges_row V x1 e1)
  · exact (keepGuard _ main_v7 (by decide)).trans (edges_col V x1 e1)
  · exact (keepGuard _ main_v9 (by decide)).trans (edges_wts V x2 e2)
  · exact guard_dinv _ x1 x2 (edges_pos V x1 x2 e1 e2) (edges_rsq V x1 x2 e1 e2) (edges_zero V)

/-! ## The layer -/

theorem split : (opsL1 (F := Ideal)) = opsL1a ++ EvalL1b.opsL1b (F := Ideal) := rfl

/-- The first layer's operations leave the layer's output, and the edge lists and weights it was built from. -/
theorem layer (U : Valuation τ sig (Elt Ideal)) (x0 : FVec Ideal S100000x100 .f32) (x1 : IVec S2x1600000 32) (x2 : FVec Ideal S1600000 .f32) (x4 : FVec Ideal S100x64 .f32) (x5 x6 x7 x8 x9 : FVec Ideal S64 .f32)
    (e0 : U (Proc.devRef .tc main_arg0) = x0) (e1 : U (Proc.devRef .tc main_arg1) = x1) (e2 : U (Proc.devRef .tc main_arg2) = x2) (e4 : U (Proc.devRef .tc main_arg4) = x4)
    (e5 : U (Proc.devRef .tc main_arg5) = x5) (e6 : U (Proc.devRef .tc main_arg6) = x6) (e7 : U (Proc.devRef .tc main_arg7) = x7) (e8 : U (Proc.devRef .tc main_arg8) = x8) (e9 : U (Proc.devRef .tc main_arg9) = x9) :
    StableHlo.after (opsL1 (F := Ideal)) U (Proc.devRef .tc main_v65) = h1 x0 x1 x2 x4 x5 x6 x7 x8 x9
    ∧ StableHlo.after (opsL1 (F := Ideal)) U (Proc.devRef .tc main_v4) = row x1
    ∧ StableHlo.after (opsL1 (F := Ideal)) U (Proc.devRef .tc main_v7) = col x1
    ∧ StableHlo.after (opsL1 (F := Ideal)) U (Proc.devRef .tc main_v9) = wts x2 := by
  rw [split, after_app]
  refine ⟨?_, ?_, ?_, ?_⟩
  · exact EvalL1b.layer_b (StableHlo.after opsL1a U) x0 x1 x2 x4 x5 x6 x7 x8 x9
      (half_row U x1 e1) (half_col U x1 e1) (half_norm U x1 x2 e1 e2)
      ((half_keep U main_arg0 (by decide) (by decide) (by decide)).trans e0)
      ((half_keep U main_arg4 (by decide) (by decide) (by decide)).trans e4)
      ((half_keep U main_arg5 (by decide) (by decide) (by decide)).trans e5)
      ((half_keep U main_arg6 (by decide) (by decide) (by decide)).trans e6)
      ((half_keep U main_arg7 (by decide) (by decide) (by decide)).trans e7)
      ((half_keep U main_arg8 (by decide) (by decide) (by decide)).trans e8)
      ((half_keep U main_arg9 (by decide) (by decide) (by decide)).trans e9)
  · exact (keepRest _ main_v4 (by decide)).trans (half_row U x1 e1)
  · exact (keepRest _ main_v7 (by decide)).trans (half_col U x1 e1)
  · exact (keepRest _ main_v9 (by decide)).trans (half_wts U x2 e2)

end Cert.ReferenceIdeal.EvalL1

end
-- ==== Proof.EvalL2.lean ====
/-
  The reference's second layer, evaluated: the seventy-one host operations of the layer, cut into six runs —
  the weighted degree and its comparison and inverse root; the choice of the inverse root where the degree is
  positive; the edge coefficients; the projection, the gather, the scaling and the scatter-add; the bias and
  normalisation chain; the clip at zero — each read off the valuation it starts from, and then chained.
-/
import proofs.«431411_j11312943857689_1_alg».proof.Proof.RefOps
import proofs.«431411_j11312943857689_1_alg».proof.Proof.Mid
import Idealize.ShloMosaic.Lib.StableHlo.Run
import Idealize.ShloMosaic.Lib.Pipeline.Frame

set_option maxRecDepth 16384

noncomputable section

open Idealize.ShloMosaic Idealize.ShloMosaic.TcCoe Idealize.SL.Sem Idealize.ShloMosaic.StableHlo

namespace Cert.ReferenceIdeal.EvalL2

open Cert.ReferenceIdeal Cert.ReferenceIdeal.Gen Cert.ReferenceIdeal.ValueP Cert.ReferenceIdeal.Mid

/-! ## The six runs -/

section Runs
variable {F : FTy → Type} [FloatOps F]

/-- The weighted degree, whether it is positive, its inverse root, and a zero. -/
abbrev runDeg : List (HloOp τ sig (Elt F)) :=
  [ nullary main_cst_10 (constant S_ .f32 0x00000000#32),
    unary main_cst_10 main_v66 (broadcastInDim S100000 ![] bcast_S_S100000 : (⟨S_, .f32⟩ : BufTy).Contents (Elt F) → (⟨S100000, .f32⟩ : BufTy).Contents (Elt F)),
    unary main_v7 main_v67 (broadcastInDim S1700000x1 ![0] bcast_S1700000_S1700000x1_0 : (⟨S1700000, .i32⟩ : BufTy).Contents (Elt F) → (⟨S1700000x1, .i32⟩ : BufTy).Contents (Elt F)),
    ternary main_v66 main_v67 main_v9 main_v68 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v69 (broadcastInDim S100000 ![] bcast_S_S100000 : (⟨S_, .f32⟩ : BufTy).Contents (Elt F) → (⟨S100000, .f32⟩ : BufTy).Contents (Elt F)),
    binary main_v68 main_v69 main_v70 (cmpf .ogt : (⟨S100000, .f32⟩ : BufTy).Contents (Elt F) → (⟨S100000, .f32⟩ : BufTy).Contents (Elt F) → (⟨S100000, .i1⟩ : BufTy).Contents (Elt F)),
    unary main_v68 main_v71 (Host.rsqrt : (⟨S100000, .f32⟩ : BufTy).Contents (Elt F) → (⟨S100000, .f32⟩ : BufTy).Contents (Elt F)),
    nullary main_cst_12 (constant S_ .f32 0x00000000#32) ]

/-- The inverse root where the degree is positive, zero elsewhere. -/
abbrev runPick : List (HloOp τ sig (Elt F)) :=
  [ TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v70) (TRef.of (T := ⟨S100000, .f32⟩) main_v71) (TRef.of (T := ⟨S100000, .f32⟩) main_call2_v1) (TRef.of (T := ⟨S100000, .f32⟩) main_v72) select ]

/-- The edge coefficients. -/
abbrev runNorm : List (HloOp τ sig (Elt F)) :=
  [ nullary main_c_13 (constantI S_ 32 0#32),
    unary main_c_13 main_v73 (broadcastInDim S1700000 ![] bcast_S_S1700000 : (⟨S_, .i32⟩ : BufTy).Contents (Elt F) → (⟨S1700000, .i32⟩ : BufTy).Contents (Elt F)),
    binary main_v4 main_v73 main_v74 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v75 (broadcastInDim S1700000 ![] bcast_S_S1700000 : (⟨S_, .i32⟩ : BufTy).Contents (Elt F) → (⟨S1700000, .i32⟩ : BufTy).Contents (Elt F)),
    binary main_v4 main_v75 main_v76 (addi : (⟨S1700000, .i32⟩ : BufTy).Contents (Elt F) → (⟨S1700000, .i32⟩ : BufTy).Contents (Elt F) → (⟨S1700000, .i32⟩ : BufTy).Contents (Elt F)),
    ternary main_v74 main_v76 main_v4 main_v77 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v77 main_v78 (broadcastInDim S1700000x1 ![0] bcast_S1700000_S1700000x1_0 : (⟨S1700000, .i32⟩ : BufTy).Contents (Elt F) → (⟨S1700000x1, .i32⟩ : BufTy).Contents (Elt F)),
    binary main_v72 main_v78 main_v79 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v79 main_v9 main_v80 (mulf : (⟨S1700000, .f32⟩ : BufTy).Contents (Elt F) → (⟨S1700000, .f32⟩ : BufTy).Contents (Elt F) → (⟨S1700000, .f32⟩ : BufTy).Contents (Elt F)),
    nullary main_c_15 (constantI S_ 32 0#32),
    unary main_c_15 main_v81 (broadcastInDim S1700000 ![] bcast_S_S1700000 : (⟨S_, .i32⟩ : BufTy).Contents (Elt F) → (⟨S1700000, .i32⟩ : BufTy).Contents (Elt F)),
    binary main_v7 main_v81 main_v82 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v83 (broadcastInDim S1700000 ![] bcast_S_S1700000 : (⟨S_, .i32⟩ : BufTy).Contents (Elt F) → (⟨S1700000, .i32⟩ : BufTy).Contents (Elt F)),
    binary main_v7 main_v83 main_v84 (addi : (⟨S1700000, .i32⟩ : BufTy).Contents (Elt F) → (⟨S1700000, .i32⟩ : BufTy).Contents (Elt F) → (⟨S1700000, .i32⟩ : BufTy).Contents (Elt F)),
    ternary main_v82 main_v84 main_v7 main_v85 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v85 main_v86 (broadcastInDim S1700000x1 ![0] bcast_S1700000_S1700000x1_0 : (⟨S1700000, .i32⟩ : BufTy).Contents (Elt F) → (⟨S1700000x1, .i32⟩ : BufTy).Contents (Elt F)),
    binary main_v72 main_v86 main_v87 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v80 main_v87 main_v88 (mulf : (⟨S1700000, .f32⟩ : BufTy).Contents (Elt F) → (⟨S1700000, .f32⟩ : BufTy).Contents (Elt F) → (⟨S1700000, .f32⟩ : BufTy).Contents (Elt F)) ]

/-- The projection of the node rows and their aggregation along the edges. -/
abbrev runAgg : List (HloOp τ sig (Elt F)) :=
  [ binary main_v65 main_arg10 main_v89 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v88 main_v90 (broadcastInDim S1700000x1 ![0] bcast_S1700000_S1700000x1_0 : (⟨S1700000, .f32⟩ : BufTy).Contents (Elt F) → (⟨S1700000x1, .f32⟩ : BufTy).Contents (Elt F)),
    nullary main_c_17 (constantI S_ 32 0#32),
    unary main_c_17 main_v91 (broadcastInDim S1700000 ![] bcast_S_S1700000 : (⟨S_, .i32⟩ : BufTy).Contents (Elt F) → (⟨S1700000, .i32⟩ : BufTy).Contents (Elt F)),
    binary main_v4 main_v91 main_v92 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v93 (broadcastInDim S1700000 ![] bcast_S_S1700000 : (⟨S_, .i32⟩ : BufTy).Contents (Elt F) → (⟨S1700000, .i32⟩ : BufTy).Contents (Elt F)),
    binary main_v4 main_v93 main_v94 (addi : (⟨S1700000, .i32⟩ : BufTy).Contents (Elt F) → (⟨S1700000, .i32⟩ : BufTy).Contents (Elt F) → (⟨S1700000, .i32⟩ : BufTy).Contents (Elt F)),
    ternary main_v92 main_v94 main_v4 main_v95 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v95 main_v96 (broadcastInDim S1700000x1 ![0] bcast_S1700000_S1700000x1_0 : (⟨S1700000, .i32⟩ : BufTy).Contents (Elt F) → (⟨S1700000x1, .i32⟩ : BufTy).Contents (Elt F)),
    binary main_v89 main_v96 main_v97 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v90 main_v98 (broadcastInDim S1700000x64 ![0, 1] bcast_S1700000x1_S1700000x64_0_1 : (⟨S1700000x1, .f32⟩ : BufTy).Contents (Elt F) → (⟨S1700000x64, .f32⟩ : BufTy).Contents (Elt F)),
    binary main_v98 main_v97 main_v99 (mulf : (⟨S1700000x64, .f32⟩ : BufTy).Contents (Elt F) → (⟨S1700000x64, .f32⟩ : BufTy).Contents (Elt F) → (⟨S1700000x64, .f32⟩ : BufTy).Contents (Elt F)),
    nullary main_cst_19 (constant S_ .f32 0x00000000#32),
    unary main_cst_19 main_v100 (broadcastInDim S100000x64 ![] bcast_S_S100000x64 : (⟨S_, .f32⟩ : BufTy).Contents (Elt F) → (⟨S100000x64, .f32⟩ : BufTy).Contents (Elt F)),
    unary main_v7 main_v101 (broadcastInDim S1700000x1 ![0] bcast_S1700000_S1700000x1_0 : (⟨S1700000, .i32⟩ : BufTy).Contents (Elt F) → (⟨S1700000x1, .i32⟩ : BufTy).Contents (Elt F)),
    ternary main_v100 main_v101 main_v99 main_v102 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- Bias, mean, inverse root of the variance, scale and shift. -/
abbrev runAffine : List (HloOp τ sig (Elt F)) :=
  [ unary main_arg11 main_v103 (broadcastInDim S1x64 ![1] bcast_S64_S1x64_1 : (⟨S64, .f32⟩ : BufTy).Contents (Elt F) → (⟨S1x64, .f32⟩ : BufTy).Contents (Elt F)),
    unary main_v103 main_v104 (broadcastInDim S100000x64 ![0, 1] bcast_S1x64_S100000x64_0_1 : (⟨S1x64, .f32⟩ : BufTy).Contents (Elt F) → (⟨S100000x64, .f32⟩ : BufTy).Contents (Elt F)),
    binary main_v102 main_v104 main_v105 (addf : (⟨S100000x64, .f32⟩ : BufTy).Contents (Elt F) → (⟨S100000x64, .f32⟩ : BufTy).Contents (Elt F) → (⟨S100000x64, .f32⟩ : BufTy).Contents (Elt F)),
    unary main_arg14 main_v106 (broadcastInDim S1x64 ![1] bcast_S64_S1x64_1 : (⟨S64, .f32⟩ : BufTy).Contents (Elt F) → (⟨S1x64, .f32⟩ : BufTy).Contents (Elt F)),
    unary main_v106 main_v107 (broadcastInDim S100000x64 ![0, 1] bcast_S1x64_S100000x64_0_1 : (⟨S1x64, .f32⟩ : BufTy).Contents (Elt F) → (⟨S100000x64, .f32⟩ : BufTy).Contents (Elt F)),
    binary main_v105 main_v107 main_v108 (subf : (⟨S100000x64, .f32⟩ : BufTy).Contents (Elt F) → (⟨S100000x64, .f32⟩ : BufTy).Contents (Elt F) → (⟨S100000x64, .f32⟩ : BufTy).Contents (Elt F)),
    nullary main_cst_20 (constant S_ .f32 0x3727C5AC#32),
    unary main_cst_20 main_v109 (broadcastInDim S64 ![] bcast_S_S64 : (⟨S_, .f32⟩ : BufTy).Contents (Elt F) → (⟨S64, .f32⟩ : BufTy).Contents (Elt F)),
    binary main_arg15 main_v109 main_v110 (addf : (⟨S64, .f32⟩ : BufTy).Contents (Elt F) → (⟨S64, .f32⟩ : BufTy).Contents (Elt F) → (⟨S64, .f32⟩ : BufTy).Contents (Elt F)),
    unary main_v110 main_v111 (Host.rsqrt : (⟨S64, .f32⟩ : BufTy).Contents (Elt F) → (⟨S64, .f32⟩ : BufTy).Contents (Elt F)),
    unary main_v111 main_v112 (broadcastInDim S1x64 ![1] bcast_S64_S1x64_1 : (⟨S64, .f32⟩ : BufTy).Contents (Elt F) → (⟨S1x64, .f32⟩ : BufTy).Contents (Elt F)),
    unary main_v112 main_v113 (broadcastInDim S100000x64 ![0, 1] bcast_S1x64_S100000x64_0_1 : (⟨S1x64, .f32⟩ : BufTy).Contents (Elt F) → (⟨S100000x64, .f32⟩ : BufTy).Contents (Elt F)),
    binary main_v108 main_v113 main_v114 (mulf : (⟨S100000x64, .f32⟩ : BufTy).Contents (Elt F) → (⟨S100000x64, .f32⟩ : BufTy).Contents (Elt F) → (⟨S100000x64, .f32⟩ : BufTy).Contents (Elt F)),
    unary main_arg12 main_v115 (broadcastInDim S1x64 ![1] bcast_S64_S1x64_1 : (⟨S64, .f32⟩ : BufTy).Contents (Elt F) → (⟨S1x64, .f32⟩ : BufTy).Contents (Elt F)),
    unary main_v115 main_v116 (broadcastInDim S100000x64 ![0, 1] bcast_S1x64_S100000x64_0_1 : (⟨S1x64, .f32⟩ : BufTy).Contents (Elt F) → (⟨S100000x64, .f32⟩ : BufTy).Contents (Elt F)),
    binary main_v114 main_v116 main_v117 (mulf : (⟨S100000x64, .f32⟩ : BufTy).Contents (Elt F) → (⟨S100000x64, .f32⟩ : BufTy).Contents (Elt F) → (⟨S100000x64, .f32⟩ : BufTy).Contents (Elt F)),
    unary main_arg13 main_v118 (broadcastInDim S1x64 ![1] bcast_S64_S1x64_1 : (⟨S64, .f32⟩ : BufTy).Contents (Elt F) → (⟨S1x64, .f32⟩ : BufTy).Contents (Elt F)),
    unary main_v118 main_v119 (broadcastInDim S100000x64 ![0, 1] bcast_S1x64_S100000x64_0_1 : (⟨S1x64, .f32⟩ : BufTy).Contents (Elt F) → (⟨S100000x64, .f32⟩ : BufTy).Contents (Elt F)),
    binary main_v117 main_v119 main_v120 (addf : (⟨S100000x64, .f32⟩ : BufTy).Contents (Elt F) → (⟨S100000x64, .f32⟩ : BufTy).Contents (Elt F) → (⟨S100000x64, .f32⟩ : BufTy).Contents (Elt F)) ]

/-- The clip at zero. -/
abbrev runClip : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v120) (TRef.of (T := ⟨S100000x64, .f32⟩) main_call3_v0) (TRef.of (T := ⟨S100000x64, .f32⟩) main_v121) maximumf ]

/-- The layer's operations are the six runs in order. -/
theorem layer_runs : (opsL2 : List (HloOp τ sig (Elt F))) = runDeg ++ (runPick ++ (runNorm ++ (runAgg ++ (runAffine ++ runClip)))) := rfl

end Runs

/-! ## The degree -/

theorem deg_pos (U : Valuation τ sig (Elt Ideal)) (x1 : IVec S2x1600000 32) (x2 : FVec Ideal S1600000 .f32)
    (e7 : U (Proc.devRef .tc main_v7) = col x1) (e9 : U (Proc.devRef .tc main_v9) = wts x2) :
    StableHlo.after (runDeg (F := Ideal)) U (Proc.devRef .tc main_v70)
      = cmpf .ogt (deg x1 x2) (broadcastInDim S100000 ![] bcast_S_S100000 (constant S_ .f32 0x00000000#32)) := by
  after_results_simp
  rw [e7, e9]
  rfl

theorem deg_rsqrt (U : Valuation τ sig (Elt Ideal)) (x1 : IVec S2x1600000 32) (x2 : FVec Ideal S1600000 .f32)
    (e7 : U (Proc.devRef .tc main_v7) = col x1) (e9 : U (Proc.devRef .tc main_v9) = wts x2) :
    StableHlo.after (runDeg (F := Ideal)) U (Proc.devRef .tc main_v71) = Host.rsqrt (deg x1 x2) := by
  after_results_simp
  rw [e7, e9]
  rfl

theorem deg_zero (U : Valuation τ sig (Elt Ideal)) :
    StableHlo.after (runDeg (F := Ideal)) U (Proc.devRef .tc main_cst_12) = constant (F := Ideal) S_ .f32 0x00000000#32 := by
  after_results_simp

/-! Contents moved between a buffer's own type and the type a called function's operation names it at: the two
    types are the same, so the transport is the identity. -/
section Transport
theorem to72 (h1 : main_v72.ty = (⟨S100000, .f32⟩ : BufTy)) (h2 h3) (v : (⟨S100000, .f32⟩ : BufTy).Contents (Elt Ideal)) :
    (StableHlo.TRef.of (sig := sig) (T := ⟨S100000, .f32⟩) main_v72 h1 h2 h3).toBuf (Val := Elt Ideal) v = v := rfl
theorem of70 (h1 : main_v70.ty = (⟨S100000, .i1⟩ : BufTy)) (h2 h3) (v : (Proc.devRef (τ := τ) .tc main_v70).ty.Contents (Elt Ideal)) :
    (StableHlo.TRef.of (sig := sig) (T := ⟨S100000, .i1⟩) main_v70 h1 h2 h3).ofBuf (Val := Elt Ideal) v = v := rfl
theorem of71 (h1 : main_v71.ty = (⟨S100000, .f32⟩ : BufTy)) (h2 h3) (v : (Proc.devRef (τ := τ) .tc main_v71).ty.Contents (Elt Ideal)) :
    (StableHlo.TRef.of (sig := sig) (T := ⟨S100000, .f32⟩) main_v71 h1 h2 h3).ofBuf (Val := Elt Ideal) v = v := rfl
theorem toRow (h1 : main_call2_v1.ty = (⟨S100000, .f32⟩ : BufTy)) (h2 h3) (v : (⟨S100000, .f32⟩ : BufTy).Contents (Elt Ideal)) :
    (StableHlo.TRef.of (sig := sig) (T := ⟨S100000, .f32⟩) main_call2_v1 h1 h2 h3).toBuf (Val := Elt Ideal) v = v := rfl
theorem ofRow (h1 : main_call2_v1.ty = (⟨S100000, .f32⟩ : BufTy)) (h2 h3) (v : (Proc.devRef (τ := τ) .tc main_call2_v1).ty.Contents (Elt Ideal)) :
    (StableHlo.TRef.of (sig := sig) (T := ⟨S100000, .f32⟩) main_call2_v1 h1 h2 h3).ofBuf (Val := Elt Ideal) v = v := rfl
theorem toCell (h1 : main_call2_v0.ty = (⟨S_, .f32⟩ : BufTy)) (h2 h3) (v : (⟨S_, .f32⟩ : BufTy).Contents (Elt Ideal)) :
    (StableHlo.TRef.of (sig := sig) (T := ⟨S_, .f32⟩) main_call2_v0 h1 h2 h3).toBuf (Val := Elt Ideal) v = v := rfl
theorem ofCell (h1 : main_call2_v0.ty = (⟨S_, .f32⟩ : BufTy)) (h2 h3) (v : (Proc.devRef (τ := τ) .tc main_call2_v0).ty.Contents (Elt Ideal)) :
    (StableHlo.TRef.of (sig := sig) (T := ⟨S_, .f32⟩) main_call2_v0 h1 h2 h3).ofBuf (Val := Elt Ideal) v = v := rfl
theorem ofZero (h1 : main_cst_12.ty = (⟨S_, .f32⟩ : BufTy)) (h2 h3) (v : (Proc.devRef (τ := τ) .tc main_cst_12).ty.Contents (Elt Ideal)) :
    (StableHlo.TRef.of (sig := sig) (T := ⟨S_, .f32⟩) main_cst_12 h1 h2 h3).ofBuf (Val := Elt Ideal) v = v := rfl
end Transport

/-! ## The inverse root of the degree, where the degree is positive -/

theorem pick (U : Valuation τ sig (Elt Ideal)) (x1 : IVec S2x1600000 32) (x2 : FVec Ideal S1600000 .f32)
    (e70 : U (Proc.devRef .tc main_v70) = cmpf .ogt (deg x1 x2) (broadcastInDim S100000 ![] bcast_S_S100000 (constant S_ .f32 0x00000000#32)))
    (e71 : U (Proc.devRef .tc main_v71) = Host.rsqrt (deg x1 x2))
    (e12 : U (Proc.devRef .tc main_cst_12) = constant (F := Ideal) S_ .f32 0x00000000#32) :
    StableHlo.after (runPick (F := Ideal)) U (Proc.devRef .tc main_v72) = dinv x1 x2 := by
  after_results
  rw [e70, e71, e12, to72, of70, of71, ofRow, toRow, ofCell, toCell, ofZero]
  rfl

/-! ## The edge coefficients -/

theorem coeffs (U : Valuation τ sig (Elt Ideal)) (x1 : IVec S2x1600000 32) (x2 : FVec Ideal S1600000 .f32)
    (e4 : U (Proc.devRef .tc main_v4) = row x1) (e7 : U (Proc.devRef .tc main_v7) = col x1)
    (e9 : U (Proc.devRef .tc main_v9) = wts x2) (e72 : U (Proc.devRef .tc main_v72) = dinv x1 x2) :
    StableHlo.after (runNorm (F := Ideal)) U (Proc.devRef .tc main_v88) = norm x1 x2 := by
  after_results_simp
  rw [e4, e7, e9, e72]
  rfl

/-! ## The projection and the aggregation -/

theorem aggregate (U : Valuation τ sig (Elt Ideal)) (x1 : IVec S2x1600000 32) (x2 : FVec Ideal S1600000 .f32)
    (h : FVec Ideal S100000x64 .f32) (w : FVec Ideal S64x64 .f32)
    (e4 : U (Proc.devRef .tc main_v4) = row x1) (e7 : U (Proc.devRef .tc main_v7) = col x1)
    (e88 : U (Proc.devRef .tc main_v88) = norm x1 x2)
    (eh : U (Proc.devRef .tc main_v65) = h) (ew : U (Proc.devRef .tc main_arg10) = w) :
    StableHlo.after (runAgg (F := Ideal)) U (Proc.devRef .tc main_v102)
      = agg x1 x2 (Host.dotGeneral (φ₁ := .f32) (φ₂ := .f32) dot_S100000x64_S64x64_S100000x64_1_0_0_1_n_n none h w) := by
  after_results_simp
  rw [e4, e7, e88, eh, ew]
  rfl

/-! ## Bias, normalisation, scale and shift -/

theorem affine (U : Valuation τ sig (Elt Ideal)) (a : FVec Ideal S100000x64 .f32) (b g β μ v : FVec Ideal S64 .f32)
    (ea : U (Proc.devRef .tc main_v102) = a)
    (eb : U (Proc.devRef .tc main_arg11) = b) (eg : U (Proc.devRef .tc main_arg12) = g) (eβ : U (Proc.devRef .tc main_arg13) = β)
    (eμ : U (Proc.devRef .tc main_arg14) = μ) (ev : U (Proc.devRef .tc main_arg15) = v) :
    StableHlo.after (runAffine (F := Ideal)) U (Proc.devRef .tc main_v120)
      = addf (mulf (mulf (subf (addf a (rows b)) (rows μ))
          (rows (Host.rsqrt (addf v (broadcastInDim S64 ![] bcast_S_S64 (constant S_ .f32 0x3727C5AC#32))))))
          (rows g)) (rows β) := by
  after_results_simp
  rw [ea, eb, eg, eβ, eμ, ev]

/-! ## The clip at zero -/

section Transport
theorem to121 (h1 : main_v121.ty = (⟨S100000x64, .f32⟩ : BufTy)) (h2 h3) (v : (⟨S100000x64, .f32⟩ : BufTy).Contents (Elt Ideal)) :
    (StableHlo.TRef.of (sig := sig) (T := ⟨S100000x64, .f32⟩) main_v121 h1 h2 h3).toBuf (Val := Elt Ideal) v = v := rfl
theorem of120 (h1 : main_v120.ty = (⟨S100000x64, .f32⟩ : BufTy)) (h2 h3) (v : (Proc.devRef (τ := τ) .tc main_v120).ty.Contents (Elt Ideal)) :
    (StableHlo.TRef.of (sig := sig) (T := ⟨S100000x64, .f32⟩) main_v120 h1 h2 h3).ofBuf (Val := Elt Ideal) v = v := rfl
theorem toFloor (h1 : main_call3_v0.ty = (⟨S100000x64, .f32⟩ : BufTy)) (h2 h3) (v : (⟨S100000x64, .f32⟩ : BufTy).Contents (Elt Ideal)) :
    (StableHlo.TRef.of (sig := sig) (T := ⟨S100000x64, .f32⟩) main_call3_v0 h1 h2 h3).toBuf (Val := Elt Ideal) v = v := rfl
theorem ofFloor (h1 : main_call3_v0.ty = (⟨S100000x64, .f32⟩ : BufTy)) (h2 h3) (v : (Proc.devRef (τ := τ) .tc main_call3_v0).ty.Contents (Elt Ideal)) :
    (StableHlo.TRef.of (sig := sig) (T := ⟨S100000x64, .f32⟩) main_call3_v0 h1 h2 h3).ofBuf (Val := Elt Ideal) v = v := rfl
theorem toFloorCell (h1 : main_call3_cst.ty = (⟨S_, .f32⟩ : BufTy)) (h2 h3) (v : (⟨S_, .f32⟩ : BufTy).Contents (Elt Ideal)) :
    (StableHlo.TRef.of (sig := sig) (T := ⟨S_, .f32⟩) main_call3_cst h1 h2 h3).toBuf (Val := Elt Ideal) v = v := rfl
theorem ofFloorCell (h1 : main_call3_cst.ty = (⟨S_, .f32⟩ : BufTy)) (h2 h3) (v : (Proc.devRef (τ := τ) .tc main_call3_cst).ty.Contents (Elt Ideal)) :
    (StableHlo.TRef.of (sig := sig) (T := ⟨S_, .f32⟩) main_call3_cst h1 h2 h3).ofBuf (Val := Elt Ideal) v = v := rfl
end Transport

theorem clip (U : Valuation τ sig (Elt Ideal)) (y : FVec Ideal S100000x64 .f32)
    (ey : U (Proc.devRef .tc main_v120) = y) :
    StableHlo.after (runClip (F := Ideal)) U (Proc.devRef .tc main_v121)
      = maximumf y (broadcastInDim S100000x64 ![] bcast_S_S100000x64 (constant S_ .f32 0x00000000#32)) := by
  after_results
  rw [ey, to121, of120, ofFloor, toFloor, ofFloorCell, toFloorCell]

/-! ## What each run leaves alone -/

abbrev wrDeg : List (Ref sig .tc) := [main_cst_10, main_v66, main_v67, main_v68, main_cst_11, main_v69, main_v70, main_v71, main_cst_12]
theorem writesDeg : (runDeg : List (HloOp τ sig (Elt Ideal))).Forall fun op => op.writes ⊆ (wrDeg.map (Proc.devRef (τ := τ) .tc)).toFinset := by
  simp only [runDeg, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev wrPick : List (Ref sig .tc) := [main_call2_v0, main_call2_v1, main_v72]
theorem writesPick : (runPick : List (HloOp τ sig (Elt Ideal))).Forall fun op => op.writes ⊆ (wrPick.map (Proc.devRef (τ := τ) .tc)).toFinset := by
  simp only [runPick, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev wrNorm : List (Ref sig .tc) := [main_c_13, main_v73, main_v74, main_c_14, main_v75, main_v76, main_v77, main_v78, main_v79, main_v80, main_c_15, main_v81, main_v82, main_c_16, main_v83, main_v84, main_v85, main_v86, main_v87, main_v88]
theorem writesNorm : (runNorm : List (HloOp τ sig (Elt Ideal))).Forall fun op => op.writes ⊆ (wrNorm.map (Proc.devRef (τ := τ) .tc)).toFinset := by
  simp only [runNorm, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

abbrev wrAgg : List (Ref sig .tc) := [main_v89, main_v90, main_c_17, main_v91, main_v92, main_c_18, main_v93, main_v94, main_v95, main_v96, main_v97, main_v98, main_v99, main_cst_19, main_v100, main_v101, main_v102]
theorem writesAgg : (runAgg : List (HloOp τ sig (Elt Ideal))).Forall fun op => op.writes ⊆ (wrAgg.map (Proc.devRef (τ := τ) .tc)).toFinset := by
  simp only [runAgg, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

theorem keepDeg (U : Valuation τ sig (Elt Ideal)) (r : Ref sig .tc) (h : r ∉ wrDeg) :
    StableHlo.after (runDeg (F := Ideal)) U (Proc.devRef .tc r) = U (Proc.devRef .tc r) :=
  StableHlo.after_of_writes_sub runDeg U writesDeg h
theorem keepPick (U : Valuation τ sig (Elt Ideal)) (r : Ref sig .tc) (h : r ∉ wrPick) :
    StableHlo.after (runPick (F := Ideal)) U (Proc.devRef .tc r) = U (Proc.devRef .tc r) :=
  StableHlo.after_of_writes_sub runPick U writesPick h
theorem keepNorm (U : Valuation τ sig (Elt Ideal)) (r : Ref sig .tc) (h : r ∉ wrNorm) :
    StableHlo.after (runNorm (F := Ideal)) U (Proc.devRef .tc r) = U (Proc.devRef .tc r) :=
  StableHlo.after_of_writes_sub runNorm U writesNorm h
theorem keepAgg (U : Valuation τ sig (Elt Ideal)) (r : Ref sig .tc) (h : r ∉ wrAgg) :
    StableHlo.after (runAgg (F := Ideal)) U (Proc.devRef .tc r) = U (Proc.devRef .tc r) :=
  StableHlo.after_of_writes_sub runAgg U writesAgg h

/-! ## The layer -/

/-- The second layer's operations, run from any valuation that holds the edge lists, the edge weights, the first
    layer's output and the layer's parameters, leave the next layer's input: the bias, normalisation and clip of the
    aggregated projection. -/
theorem layer (U : Valuation τ sig (Elt Ideal)) (x1 : IVec S2x1600000 32) (x2 : FVec Ideal S1600000 .f32) (h : FVec Ideal S100000x64 .f32) (w : FVec Ideal S64x64 .f32) (b g β μ v : FVec Ideal S64 .f32)
    (e4 : U (Proc.devRef .tc main_v4) = row x1) (e7 : U (Proc.devRef .tc main_v7) = col x1) (e9 : U (Proc.devRef .tc main_v9) = wts x2)
    (eh : U (Proc.devRef .tc main_v65) = h) (ew : U (Proc.devRef .tc main_arg10) = w)
    (eb : U (Proc.devRef .tc main_arg11) = b) (eg : U (Proc.devRef .tc main_arg12) = g) (eβ : U (Proc.devRef .tc main_arg13) = β)
    (eμ : U (Proc.devRef .tc main_arg14) = μ) (ev : U (Proc.devRef .tc main_arg15) = v) :
    StableHlo.after (opsL2 (F := Ideal)) U (Proc.devRef .tc main_v121) = next h x1 x2 w b g β μ v := by
  rw [layer_runs, StableHlo.after_append, StableHlo.after_append, StableHlo.after_append, StableHlo.after_append,
    StableHlo.after_append]
  -- after the degree run
  have a70 := deg_pos U x1 x2 e7 e9
  have a71 := deg_rsqrt U x1 x2 e7 e9
  have a12 := deg_zero U
  have a4 := (keepDeg U main_v4 (by decide)).trans e4
  have a7 := (keepDeg U main_v7 (by decide)).trans e7
  have a9 := (keepDeg U main_v9 (by decide)).trans e9
  have ah := (keepDeg U main_v65 (by decide)).trans eh
  have aw := (keepDeg U main_arg10 (by decide)).trans ew
  have ab := (keepDeg U main_arg11 (by decide)).trans eb
  have ag := (keepDeg U main_arg12 (by decide)).trans eg
  have aβ := (keepDeg U main_arg13 (by decide)).trans eβ
  have aμ := (keepDeg U main_arg14 (by decide)).trans eμ
  have av := (keepDeg U main_arg15 (by decide)).trans ev
  generalize StableHlo.after (runDeg (F := Ideal)) U = U1 at a70 a71 a12 a4 a7 a9 ah aw ab ag aβ aμ av ⊢
  -- after the choice
  have b72 := pick U1 x1 x2 a70 a71 a12
  have b4 := (keepPick U1 main_v4 (by decide)).trans a4
  have b7 := (keepPick U1 main_v7 (by decide)).trans a7
  have b9 := (keepPick U1 main_v9 (by decide)).trans a9
  have bh := (keepPick U1 main_v65 (by decide)).trans ah
  have bw := (keepPick U1 main_arg10 (by decide)).trans aw
  have bb := (keepPick U1 main_arg11 (by decide)).trans ab
  have bg := (keepPick U1 main_arg12 (by decide)).trans ag
  have bβ := (keepPick U1 main_arg13 (by decide)).trans aβ
  have bμ := (keepPick U1 main_arg14 (by decide)).trans aμ
  have bv := (keepPick U1 main_arg15 (by decide)).trans av
  generalize StableHlo.after (runPick (F := Ideal)) U1 = U2 at b72 b4 b7 b9 bh bw bb bg bβ bμ bv ⊢
  -- after the coefficients
  have c88 := coeffs U2 x1 x2 b4 b7 b9 b72
  have c4 := (keepNorm U2 main_v4 (by decide)).trans b4
  have c7 := (keepNorm U2 main_v7 (by decide)).trans b7
  have ch := (keepNorm U2 main_v65 (by decide)).trans bh
  have cw := (keepNorm U2 main_arg10 (by decide)).trans bw
  have cb := (keepNorm U2 main_arg11 (by decide)).trans bb
  have cg := (keepNorm U2 main_arg12 (by decide)).trans bg
  have cβ := (keepNorm U2 main_arg13 (by decide)).trans bβ
  have cμ := (keepNorm U2 main_arg14 (by decide)).trans bμ
  have cv := (keepNorm U2 main_arg15 (by decide)).trans bv
  generalize StableHlo.after (runNorm (F := Ideal)) U2 = U3 at c88 c4 c7 ch cw cb cg cβ cμ cv ⊢
  -- after the aggregation
  have d102 := aggregate U3 x1 x2 h w c4 c7 c88 ch cw
  have db := (keepAgg U3 main_arg11 (by decide)).trans cb
  have dg := (keepAgg U3 main_arg12 (by decide)).trans cg
  have dβ := (keepAgg U3 main_arg13 (by decide)).trans cβ
  have dμ := (keepAgg U3 main_arg14 (by decide)).trans cμ
  have dv := (keepAgg U3 main_arg15 (by decide)).trans cv
  generalize StableHlo.after (runAgg (F := Ideal)) U3 = U4 at d102 db dg dβ dμ dv ⊢
  -- after the affine chain, and the clip
  have e120 := affine U4 _ b g β μ v d102 db dg dβ dμ dv
  generalize StableHlo.after (runAffine (F := Ideal)) U4 = U5 at e120 ⊢
  rw [clip U5 _ e120]
  rfl

end Cert.ReferenceIdeal.EvalL2

end
-- ==== Proof.EvalL3.lean ====
/-
  The reference's third layer, evaluated: from the edge lists, the weights, the second layer's output and the
  layer's parameters, the operations recompute the degrees and the edge coefficients, multiply the features by
  the layer's matrix, aggregate along the edges, and apply bias, normalisation and relu.  Cut into six short
  pieces, each piece's result is read off its operations; a buffer a piece does not write keeps its contents.
-/
import proofs.«431411_j11312943857689_1_alg».proof.Proof.RefOps
import proofs.«431411_j11312943857689_1_alg».proof.Proof.Mid
import Idealize.ShloMosaic.Lib.StableHlo.Run

set_option maxRecDepth 16384

noncomputable section

open Idealize.ShloMosaic Idealize.ShloMosaic.TcCoe Idealize.SL.Sem Idealize.ShloMosaic.StableHlo

namespace Cert.ReferenceIdeal.EvalL3

open Cert.ReferenceIdeal Cert.ReferenceIdeal.Gen Cert.ReferenceIdeal.ValueP Cert.ReferenceIdeal.Mid

/-! ## The stretch in six pieces -/

section Lists
variable {F : FTy → Type} [FloatOps F]

/-- The weighted in-degree, its comparison with zero, its reciprocal square root, and the zero the selection falls back to. -/
abbrev degOps : List (HloOp τ sig (Elt F)) :=
  [ nullary main_cst_21 (constant S_ .f32 0x00000000#32),
    unary main_cst_21 main_v122 (broadcastInDim S100000 ![] bcast_S_S100000 : (⟨S_, .f32⟩ : BufTy).Contents (Elt F) → (⟨S100000, .f32⟩ : BufTy).Contents (Elt F)),
    unary main_v7 main_v123 (broadcastInDim S1700000x1 ![0] bcast_S1700000_S1700000x1_0 : (⟨S1700000, .i32⟩ : BufTy).Contents (Elt F) → (⟨S1700000x1, .i32⟩ : BufTy).Contents (Elt F)),
    ternary main_v122 main_v123 main_v9 main_v124 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_22 (constant S_ .f32 0x00000000#32),
    unary main_cst_22 main_v125 (broadcastInDim S100000 ![] bcast_S_S100000 : (⟨S_, .f32⟩ : BufTy).Contents (Elt F) → (⟨S100000, .f32⟩ : BufTy).Contents (Elt F)),
    binary main_v124 main_v125 main_v126 (cmpf .ogt : (⟨S100000, .f32⟩ : BufTy).Contents (Elt F) → (⟨S100000, .f32⟩ : BufTy).Contents (Elt F) → (⟨S100000, .i1⟩ : BufTy).Contents (Elt F)),
    unary main_v124 main_v127 (Host.rsqrt : (⟨S100000, .f32⟩ : BufTy).Contents (Elt F) → (⟨S100000, .f32⟩ : BufTy).Contents (Elt F)),
    nullary main_cst_23 (constant S_ .f32 0x00000000#32) ]

/-- The selection of the reciprocal square root where the degree is positive and of zero elsewhere. -/
abbrev whereOps : List (HloOp τ sig (Elt F)) :=
  [ TRef.unary (TRef.of (T := ⟨S_, .f32⟩) main_cst_23) (TRef.of (T := ⟨S_, .f32⟩) main_call4_v0) id,
    TRef.unary (TRef.of (T := ⟨S_, .f32⟩) main_call4_v0) (TRef.of (T := ⟨S100000, .f32⟩) main_call4_v1) (broadcastInDim S100000 ![] bcast_S_S100000),
    TRef.ternary (TRef.of (T := ⟨S100000, .i1⟩) main_v126) (TRef.of (T := ⟨S100000, .f32⟩) main_v127) (TRef.of (T := ⟨S100000, .f32⟩) main_call4_v1) (TRef.of (T := ⟨S100000, .f32⟩) main_v128) select ]

/-- The edge coefficients: the selected values gathered at the (wrapped) sources, times the weights, times the same gathered at the (wrapped) targets. -/
abbrev normOps : List (HloOp τ sig (Elt F)) :=
  [ nullary main_c_24 (constantI S_ 32 0#32),
    unary main_c_24 main_v129 (broadcastInDim S1700000 ![] bcast_S_S1700000 : (⟨S_, .i32⟩ : BufTy).Contents (Elt F) → (⟨S1700000, .i32⟩ : BufTy).Contents (Elt F)),
    binary main_v4 main_v129 main_v130 (cmpi .slt : (⟨S1700000, .i32⟩ : BufTy).Contents (Elt F) → (⟨S1700000, .i32⟩ : BufTy).Contents (Elt F) → (⟨S1700000, .i1⟩ : BufTy).Contents (Elt F)),
    nullary main_c_25 (constantI S_ 32 100000#32),
    unary main_c_25 main_v131 (broadcastInDim S1700000 ![] bcast_S_S1700000 : (⟨S_, .i32⟩ : BufTy).Contents (Elt F) → (⟨S1700000, .i32⟩ : BufTy).Contents (Elt F)),
    binary main_v4 main_v131 main_v132 (addi : (⟨S1700000, .i32⟩ : BufTy).Contents (Elt F) → (⟨S1700000, .i32⟩ : BufTy).Contents (Elt F) → (⟨S1700000, .i32⟩ : BufTy).Contents (Elt F)),
    ternary main_v130 main_v132 main_v4 main_v133 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v133 main_v134 (broadcastInDim S1700000x1 ![0] bcast_S1700000_S1700000x1_0 : (⟨S1700000, .i32⟩ : BufTy).Contents (Elt F) → (⟨S1700000x1, .i32⟩ : BufTy).Contents (Elt F)),
    binary main_v128 main_v134 main_v135 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v135 main_v9 main_v136 (mulf : (⟨S1700000, .f32⟩ : BufTy).Contents (Elt F) → (⟨S1700000, .f32⟩ : BufTy).Contents (Elt F) → (⟨S1700000, .f32⟩ : BufTy).Contents (Elt F)),
    nullary main_c_26 (constantI S_ 32 0#32),
    unary main_c_26 main_v137 (broadcastInDim S1700000 ![] bcast_S_S1700000 : (⟨S_, .i32⟩ : BufTy).Contents (Elt F) → (⟨S1700000, .i32⟩ : BufTy).Contents (Elt F)),
    binary main_v7 main_v137 main_v138 (cmpi .slt : (⟨S1700000, .i32⟩ : BufTy).Contents (Elt F) → (⟨S1700000, .i32⟩ : BufTy).Contents (Elt F) → (⟨S1700000, .i1⟩ : BufTy).Contents (Elt F)),
    nullary main_c_27 (constantI S_ 32 100000#32),
    unary main_c_27 main_v139 (broadcastInDim S1700000 ![] bcast_S_S1700000 : (⟨S_, .i32⟩ : BufTy).Contents (Elt F) → (⟨S1700000, .i32⟩ : BufTy).Contents (Elt F)),
    binary main_v7 main_v139 main_v140 (addi : (⟨S1700000, .i32⟩ : BufTy).Contents (Elt F) → (⟨S1700000, .i32⟩ : BufTy).Contents (Elt F) → (⟨S1700000, .i32⟩ : BufTy).Contents (Elt F)),
    ternary main_v138 main_v140 main_v7 main_v141 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v141 main_v142 (broadcastInDim S1700000x1 ![0] bcast_S1700000_S1700000x1_0 : (⟨S1700000, .i32⟩ : BufTy).Contents (Elt F) → (⟨S1700000x1, .i32⟩ : BufTy).Contents (Elt F)),
    binary main_v128 main_v142 main_v143 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v136 main_v143 main_v144 (mulf : (⟨S1700000, .f32⟩ : BufTy).Contents (Elt F) → (⟨S1700000, .f32⟩ : BufTy).Contents (Elt F) → (⟨S1700000, .f32⟩ : BufTy).Contents (Elt F)) ]

/-- The product of the features with the layer's matrix, its rows gathered at the (wrapped) sources, scaled by the edge coefficients and added into the targets' rows. -/
abbrev aggOps : List (HloOp τ sig (Elt F)) :=
  [ binary main_v121 main_arg16 main_v145 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_v144 main_v146 (broadcastInDim S1700000x1 ![0] bcast_S1700000_S1700000x1_0 : (⟨S1700000, .f32⟩ : BufTy).Contents (Elt F) → (⟨S1700000x1, .f32⟩ : BufTy).Contents (Elt F)),
    nullary main_c_28 (constantI S_ 32 0#32),
    unary main_c_28 main_v147 (broadcastInDim S1700000 ![] bcast_S_S1700000 : (⟨S_, .i32⟩ : BufTy).Contents (Elt F) → (⟨S1700000, .i32⟩ : BufTy).Contents (Elt F)),
    binary main_v4 main_v147 main_v148 (cmpi .slt : (⟨S1700000, .i32⟩ : BufTy).Contents (Elt F) → (⟨S1700000, .i32⟩ : BufTy).Contents (Elt F) → (⟨S1700000, .i1⟩ : BufTy).Contents (Elt F)),
    nullary main_c_29 (constantI S_ 32 100000#32),
    unary main_c_29 main_v149 (broadcastInDim S1700000 ![] bcast_S_S1700000 : (⟨S_, .i32⟩ : BufTy).Contents (Elt F) → (⟨S1700000, .i32⟩ : BufTy).Contents (Elt F)),
    binary main_v4 main_v149 main_v150 (addi : (⟨S1700000, .i32⟩ : BufTy).Contents (Elt F) → (⟨S1700000, .i32⟩ : BufTy).Contents (Elt F) → (⟨S1700000, .i32⟩ : BufTy).Contents (Elt F)),
    ternary main_v148 main_v150 main_v4 main_v151 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v151 main_v152 (broadcastInDim S1700000x1 ![0] bcast_S1700000_S1700000x1_0 : (⟨S1700000, .i32⟩ : BufTy).Contents (Elt F) → (⟨S1700000x1, .i32⟩ : BufTy).Contents (Elt F)),
    binary main_v145 main_v152 main_v153 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v146 main_v154 (broadcastInDim S1700000x64 ![0, 1] bcast_S1700000x1_S1700000x64_0_1 : (⟨S1700000x1, .f32⟩ : BufTy).Contents (Elt F) → (⟨S1700000x64, .f32⟩ : BufTy).Contents (Elt F)),
    binary main_v154 main_v153 main_v155 (mulf : (⟨S1700000x64, .f32⟩ : BufTy).Contents (Elt F) → (⟨S1700000x64, .f32⟩ : BufTy).Contents (Elt F) → (⟨S1700000x64, .f32⟩ : BufTy).Contents (Elt F)),
    nullary main_cst_30 (constant S_ .f32 0x00000000#32),
    unary main_cst_30 main_v156 (broadcastInDim S100000x64 ![] bcast_S_S100000x64 : (⟨S_, .f32⟩ : BufTy).Contents (Elt F) → (⟨S100000x64, .f32⟩ : BufTy).Contents (Elt F)),
    unary main_v7 main_v157 (broadcastInDim S1700000x1 ![0] bcast_S1700000_S1700000x1_0 : (⟨S1700000, .i32⟩ : BufTy).Contents (Elt F) → (⟨S1700000x1, .i32⟩ : BufTy).Contents (Elt F)),
    ternary main_v156 main_v157 main_v155 main_v158 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- The bias, the subtraction of the mean, the scaling by the reciprocal square root of the variance plus epsilon, by gamma, and the addition of beta, each parameter repeated down the rows. -/
abbrev bnOps : List (HloOp τ sig (Elt F)) :=
  [ unary main_arg17 main_v159 (broadcastInDim S1x64 ![1] bcast_S64_S1x64_1 : (⟨S64, .f32⟩ : BufTy).Contents (Elt F) → (⟨S1x64, .f32⟩ : BufTy).Contents (Elt F)),
    unary main_v159 main_v160 (broadcastInDim S100000x64 ![0, 1] bcast_S1x64_S100000x64_0_1 : (⟨S1x64, .f32⟩ : BufTy).Contents (Elt F) → (⟨S100000x64, .f32⟩ : BufTy).Contents (Elt F)),
    binary main_v158 main_v160 main_v161 (addf : (⟨S100000x64, .f32⟩ : BufTy).Contents (Elt F) → (⟨S100000x64, .f32⟩ : BufTy).Contents (Elt F) → (⟨S100000x64, .f32⟩ : BufTy).Contents (Elt F)),
    unary main_arg20 main_v162 (broadcastInDim S1x64 ![1] bcast_S64_S1x64_1 : (⟨S64, .f32⟩ : BufTy).Contents (Elt F) → (⟨S1x64, .f32⟩ : BufTy).Contents (Elt F)),
    unary main_v162 main_v163 (broadcastInDim S100000x64 ![0, 1] bcast_S1x64_S100000x64_0_1 : (⟨S1x64, .f32⟩ : BufTy).Contents (Elt F) → (⟨S100000x64, .f32⟩ : BufTy).Contents (Elt F)),
    binary main_v161 main_v163 main_v164 (subf : (⟨S100000x64, .f32⟩ : BufTy).Contents (Elt F) → (⟨S100000x64, .f32⟩ : BufTy).Contents (Elt F) → (⟨S100000x64, .f32⟩ : BufTy).Contents (Elt F)),
    nullary main_cst_31 (constant S_ .f32 0x3727C5AC#32),
    unary main_cst_31 main_v165 (broadcastInDim S64 ![] bcast_S_S64 : (⟨S_, .f32⟩ : BufTy).Contents (Elt F) → (⟨S64, .f32⟩ : BufTy).Contents (Elt F)),
    binary main_arg21 main_v165 main_v166 (addf : (⟨S64, .f32⟩ : BufTy).Contents (Elt F) → (⟨S64, .f32⟩ : BufTy).Contents (Elt F) → (⟨S64, .f32⟩ : BufTy).Contents (Elt F)),
    unary main_v166 main_v167 (Host.rsqrt : (⟨S64, .f32⟩ : BufTy).Contents (Elt F) → (⟨S64, .f32⟩ : BufTy).Contents (Elt F)),
    unary main_v167 main_v168 (broadcastInDim S1x64 ![1] bcast_S64_S1x64_1 : (⟨S64, .f32⟩ : BufTy).Contents (Elt F) → (⟨S1x64, .f32⟩ : BufTy).Contents (Elt F)),
    unary main_v168 main_v169 (broadcastInDim S100000x64 ![0, 1] bcast_S1x64_S100000x64_0_1 : (⟨S1x64, .f32⟩ : BufTy).Contents (Elt F) → (⟨S100000x64, .f32⟩ : BufTy).Contents (Elt F)),
    binary main_v164 main_v169 main_v170 (mulf : (⟨S100000x64, .f32⟩ : BufTy).Contents (Elt F) → (⟨S100000x64, .f32⟩ : BufTy).Contents (Elt F) → (⟨S100000x64, .f32⟩ : BufTy).Contents (Elt F)),
    unary main_arg18 main_v171 (broadcastInDim S1x64 ![1] bcast_S64_S1x64_1 : (⟨S64, .f32⟩ : BufTy).Contents (Elt F) → (⟨S1x64, .f32⟩ : BufTy).Contents (Elt F)),
    unary main_v171 main_v172 (broadcastInDim S100000x64 ![0, 1] bcast_S1x64_S100000x64_0_1 : (⟨S1x64, .f32⟩ : BufTy).Contents (Elt F) → (⟨S100000x64, .f32⟩ : BufTy).Contents (Elt F)),
    binary main_v170 main_v172 main_v173 (mulf : (⟨S100000x64, .f32⟩ : BufTy).Contents (Elt F) → (⟨S100000x64, .f32⟩ : BufTy).Contents (Elt F) → (⟨S100000x64, .f32⟩ : BufTy).Contents (Elt F)),
    unary main_arg19 main_v174 (broadcastInDim S1x64 ![1] bcast_S64_S1x64_1 : (⟨S64, .f32⟩ : BufTy).Contents (Elt F) → (⟨S1x64, .f32⟩ : BufTy).Contents (Elt F)),
    unary main_v174 main_v175 (broadcastInDim S100000x64 ![0, 1] bcast_S1x64_S100000x64_0_1 : (⟨S1x64, .f32⟩ : BufTy).Contents (Elt F) → (⟨S100000x64, .f32⟩ : BufTy).Contents (Elt F)),
    binary main_v173 main_v175 main_v176 (addf : (⟨S100000x64, .f32⟩ : BufTy).Contents (Elt F) → (⟨S100000x64, .f32⟩ : BufTy).Contents (Elt F) → (⟨S100000x64, .f32⟩ : BufTy).Contents (Elt F)) ]

/-- The maximum with zero. -/
abbrev reluOps : List (HloOp τ sig (Elt F)) :=
  [ TRef.nullary (TRef.of (T := ⟨S_, .f32⟩) main_call5_cst) (constant S_ .f32 0x00000000#32),
    TRef.unary (TRef.of (T := ⟨S_, .f32⟩) main_call5_cst) (TRef.of (T := ⟨S100000x64, .f32⟩) main_call5_v0) (broadcastInDim S100000x64 ![] bcast_S_S100000x64),
    TRef.binary (TRef.of (T := ⟨S100000x64, .f32⟩) main_v176) (TRef.of (T := ⟨S100000x64, .f32⟩) main_call5_v0) (TRef.of (T := ⟨S100000x64, .f32⟩) main_v177) maximumf ]

/-- The third layer's operations are these six pieces in order. -/
theorem split : (opsL3 : List (HloOp τ sig (Elt F))) = degOps ++ (whereOps ++ (normOps ++ (aggOps ++ (bnOps ++ reluOps)))) := rfl

end Lists

/-- Running two lists one after the other is running the second from where the first ends. -/
theorem after_cat : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_cat l₁ l₂]

/-! ## What each piece leaves alone -/

abbrev wr_degOps : List (Ref sig .tc) := [main_cst_21, main_v122, main_v123, main_v124, main_cst_22, main_v125, main_v126, main_v127, main_cst_23]
theorem writes_degOps : (degOps (F := Ideal)).Forall fun op => op.writes ⊆ ((wr_degOps).map (Proc.devRef (τ := τ) .tc)).toFinset := by
  simp only [degOps, List.Forall, StableHlo.nullary_writes, StableHlo.unary_writes, StableHlo.binary_writes, StableHlo.ternary_writes, Finset.singleton_subset_iff, List.mem_toFinset]
  repeat' apply And.intro
  all_goals exact List.mem_map_of_mem (by decide)
/-- A buffer these operations do not write keeps its contents. -/
theorem keep_degOps (V : Valuation τ sig (Elt Ideal)) (r : Ref sig .tc) (h : r ∉ wr_degOps) :
    after (degOps (F := Ideal)) V (Proc.devRef .tc r) = V (Proc.devRef .tc r) :=
  after_of_writes_sub (degOps (F := Ideal)) V writes_degOps h

abbrev wr_whereOps : List (Ref sig .tc) := [main_call4_v0, main_call4_v1, main_v128]
theorem writes_whereOps : (whereOps (F := Ideal)).Forall fun op => op.writes ⊆ ((wr_whereOps).map (Proc.devRef (τ := τ) .tc)).toFinset := by
  simp only [whereOps, List.Forall, StableHlo.nullary_writes, StableHlo.unary_writes, StableHlo.binary_writes, StableHlo.ternary_writes, Finset.singleton_subset_iff, List.mem_toFinset]
  repeat' apply And.intro
  all_goals exact List.mem_map_of_mem (by decide)
/-- A buffer these operations do not write keeps its contents. -/
theorem keep_whereOps (V : Valuation τ sig (Elt Ideal)) (r : Ref sig .tc) (h : r ∉ wr_whereOps) :
    after (whereOps (F := Ideal)) V (Proc.devRef .tc r) = V (Proc.devRef .tc r) :=
  after_of_writes_sub (whereOps (F := Ideal)) V writes_whereOps h

abbrev wr_normOps : List (Ref sig .tc) := [main_c_24, main_v129, main_v130, main_c_25, main_v131, main_v132, main_v133, main_v134, main_v135, main_v136, main_c_26, main_v137, main_v138, main_c_27, main_v139, main_v140, main_v141, main_v142, main_v143, main_v144]
theorem writes_normOps : (normOps (F := Ideal)).Forall fun op => op.writes ⊆ ((wr_normOps).map (Proc.devRef (τ := τ) .tc)).toFinset := by
  simp only [normOps, List.Forall, StableHlo.nullary_writes, StableHlo.unary_writes, StableHlo.binary_writes, StableHlo.ternary_writes, Finset.singleton_subset_iff, List.mem_toFinset]
  repeat' apply And.intro
  all_goals exact List.mem_map_of_mem (by decide)
/-- A buffer these operations do not write keeps its contents. -/
theorem keep_normOps (V : Valuation τ sig (Elt Ideal)) (r : Ref sig .tc) (h : r ∉ wr_normOps) :
    after (normOps (F := Ideal)) V (Proc.devRef .tc r) = V (Proc.devRef .tc r) :=
  after_of_writes_sub (normOps (F := Ideal)) V writes_normOps h

abbrev wr_aggOps : List (Ref sig .tc) := [main_v145, main_v146, main_c_28, main_v147, main_v148, main_c_29, main_v149, main_v150, main_v151, main_v152, main_v153, main_v154, main_v155, main_cst_30, main_v156, main_v157, main_v158]
theorem writes_aggOps : (aggOps (F := Ideal)).Forall fun op => op.writes ⊆ ((wr_aggOps).map (Proc.devRef (τ := τ) .tc)).toFinset := by
  simp only [aggOps, List.Forall, StableHlo.nullary_writes, StableHlo.unary_writes, StableHlo.binary_writes, StableHlo.ternary_writes, Finset.singleton_subset_iff, List.mem_toFinset]
  repeat' apply And.intro
  all_goals exact List.mem_map_of_mem (by decide)
/-- A buffer these operations do not write keeps its contents. -/
theorem keep_aggOps (V : Valuation τ sig (Elt Ideal)) (r : Ref sig .tc) (h : r ∉ wr_aggOps) :
    after (aggOps (F := Ideal)) V (Proc.devRef .tc r) = V (Proc.devRef .tc r) :=
  after_of_writes_sub (aggOps (F := Ideal)) V writes_aggOps h

/-! ## Contents moved between a buffer's own type and the type a called function's operation names it at: the two
    types are the same, so the move is the identity. -/
section Transport
theorem toBuf128 (h1 : main_v128.ty = (⟨S100000, .f32⟩ : BufTy)) (h2 h3) (v : (⟨S100000, .f32⟩ : BufTy).Contents (Elt Ideal)) :
    (TRef.of (sig := sig) (T := ⟨S100000, .f32⟩) main_v128 h1 h2 h3).toBuf (Val := Elt Ideal) v = v := rfl
theorem ofBuf126 (h1 : main_v126.ty = (⟨S100000, .i1⟩ : BufTy)) (h2 h3) (v : (Proc.devRef (τ := τ) .tc main_v126).ty.Contents (Elt Ideal)) :
    (TRef.of (sig := sig) (T := ⟨S100000, .i1⟩) main_v126 h1 h2 h3).ofBuf (Val := Elt Ideal) v = v := rfl
theorem ofBuf127 (h1 : main_v127.ty = (⟨S100000, .f32⟩ : BufTy)) (h2 h3) (v : (Proc.devRef (τ := τ) .tc main_v127).ty.Contents (Elt Ideal)) :
    (TRef.of (sig := sig) (T := ⟨S100000, .f32⟩) main_v127 h1 h2 h3).ofBuf (Val := Elt Ideal) v = v := rfl
theorem toBufW1 (h1 : main_call4_v1.ty = (⟨S100000, .f32⟩ : BufTy)) (h2 h3) (v : (⟨S100000, .f32⟩ : BufTy).Contents (Elt Ideal)) :
    (TRef.of (sig := sig) (T := ⟨S100000, .f32⟩) main_call4_v1 h1 h2 h3).toBuf (Val := Elt Ideal) v = v := rfl
theorem ofBufW1 (h1 : main_call4_v1.ty = (⟨S100000, .f32⟩ : BufTy)) (h2 h3) (v : (Proc.devRef (τ := τ) .tc main_call4_v1).ty.Contents (Elt Ideal)) :
    (TRef.of (sig := sig) (T := ⟨S100000, .f32⟩) main_call4_v1 h1 h2 h3).ofBuf (Val := Elt Ideal) v = v := rfl
theorem toBufW0 (h1 : main_call4_v0.ty = (⟨S_, .f32⟩ : BufTy)) (h2 h3) (v : (⟨S_, .f32⟩ : BufTy).Contents (Elt Ideal)) :
    (TRef.of (sig := sig) (T := ⟨S_, .f32⟩) main_call4_v0 h1 h2 h3).toBuf (Val := Elt Ideal) v = v := rfl
theorem ofBufW0 (h1 : main_call4_v0.ty = (⟨S_, .f32⟩ : BufTy)) (h2 h3) (v : (Proc.devRef (τ := τ) .tc main_call4_v0).ty.Contents (Elt Ideal)) :
    (TRef.of (sig := sig) (T := ⟨S_, .f32⟩) main_call4_v0 h1 h2 h3).ofBuf (Val := Elt Ideal) v = v := rfl
theorem ofBufZ23 (h1 : main_cst_23.ty = (⟨S_, .f32⟩ : BufTy)) (h2 h3) (v : (Proc.devRef (τ := τ) .tc main_cst_23).ty.Contents (Elt Ideal)) :
    (TRef.of (sig := sig) (T := ⟨S_, .f32⟩) main_cst_23 h1 h2 h3).ofBuf (Val := Elt Ideal) v = v := rfl
theorem toBuf177 (h1 : main_v177.ty = (⟨S100000x64, .f32⟩ : BufTy)) (h2 h3) (v : (⟨S100000x64, .f32⟩ : BufTy).Contents (Elt Ideal)) :
    (TRef.of (sig := sig) (T := ⟨S100000x64, .f32⟩) main_v177 h1 h2 h3).toBuf (Val := Elt Ideal) v = v := rfl
theorem ofBuf176 (h1 : main_v176.ty = (⟨S100000x64, .f32⟩ : BufTy)) (h2 h3) (v : (Proc.devRef (τ := τ) .tc main_v176).ty.Contents (Elt Ideal)) :
    (TRef.of (sig := sig) (T := ⟨S100000x64, .f32⟩) main_v176 h1 h2 h3).ofBuf (Val := Elt Ideal) v = v := rfl
theorem toBufR0 (h1 : main_call5_v0.ty = (⟨S100000x64, .f32⟩ : BufTy)) (h2 h3) (v : (⟨S100000x64, .f32⟩ : BufTy).Contents (Elt Ideal)) :
    (TRef.of (sig := sig) (T := ⟨S100000x64, .f32⟩) main_call5_v0 h1 h2 h3).toBuf (Val := Elt Ideal) v = v := rfl
theorem ofBufR0 (h1 : main_call5_v0.ty = (⟨S100000x64, .f32⟩ : BufTy)) (h2 h3) (v : (Proc.devRef (τ := τ) .tc main_call5_v0).ty.Contents (Elt Ideal)) :
    (TRef.of (sig := sig) (T := ⟨S100000x64, .f32⟩) main_call5_v0 h1 h2 h3).ofBuf (Val := Elt Ideal) v = v := rfl
theorem toBufRc (h1 : main_call5_cst.ty = (⟨S_, .f32⟩ : BufTy)) (h2 h3) (v : (⟨S_, .f32⟩ : BufTy).Contents (Elt Ideal)) :
    (TRef.of (sig := sig) (T := ⟨S_, .f32⟩) main_call5_cst h1 h2 h3).toBuf (Val := Elt Ideal) v = v := rfl
theorem ofBufRc (h1 : main_call5_cst.ty = (⟨S_, .f32⟩ : BufTy)) (h2 h3) (v : (Proc.devRef (τ := τ) .tc main_call5_cst).ty.Contents (Elt Ideal)) :
    (TRef.of (sig := sig) (T := ⟨S_, .f32⟩) main_call5_cst h1 h2 h3).ofBuf (Val := Elt Ideal) v = v := rfl
end Transport

/-! ## What each piece computes -/

section Pieces
variable (V : Valuation τ sig (Elt Ideal)) (x1 : IVec S2x1600000 32) (x2 : FVec Ideal S1600000 .f32)

/-- Is the degree positive? -/
theorem deg_pos (e7 : V (Proc.devRef .tc main_v7) = col x1) (e9 : V (Proc.devRef .tc main_v9) = wts x2) :
    after (degOps (F := Ideal)) V (Proc.devRef .tc main_v126)
      = cmpf .ogt (deg x1 x2) (broadcastInDim S100000 ![] bcast_S_S100000 (constant (F := Ideal) S_ .f32 0x00000000#32)) := by
  after_results_simp
  rw [e7, e9]
  rfl

/-- The degree's reciprocal square root. -/
theorem deg_rsqrt (e7 : V (Proc.devRef .tc main_v7) = col x1) (e9 : V (Proc.devRef .tc main_v9) = wts x2) :
    after (degOps (F := Ideal)) V (Proc.devRef .tc main_v127) = Host.rsqrt (deg x1 x2) := by
  after_results_simp
  rw [e7, e9]
  rfl

/-- The zero the selection falls back to. -/
theorem deg_zero : after (degOps (F := Ideal)) V (Proc.devRef .tc main_cst_23) = constant (F := Ideal) S_ .f32 0x00000000#32 := by
  after_results_simp

/-- The selection is deg^(-1/2) where the degree is positive and zero elsewhere. -/
theorem where_dinv
    (e126 : V (Proc.devRef .tc main_v126)
      = cmpf .ogt (deg x1 x2) (broadcastInDim S100000 ![] bcast_S_S100000 (constant (F := Ideal) S_ .f32 0x00000000#32)))
    (e127 : V (Proc.devRef .tc main_v127) = Host.rsqrt (deg x1 x2))
    (e23 : V (Proc.devRef .tc main_cst_23) = constant (F := Ideal) S_ .f32 0x00000000#32) :
    after (whereOps (F := Ideal)) V (Proc.devRef .tc main_v128) = dinv x1 x2 := by
  after_results
  rw [e126, e127, e23, toBuf128, ofBuf126, ofBuf127, ofBufW1, toBufW1, ofBufW0, toBufW0, ofBufZ23]
  rfl

/-- The edge coefficients. -/
theorem norm_eq (e4 : V (Proc.devRef .tc main_v4) = row x1) (e7 : V (Proc.devRef .tc main_v7) = col x1)
    (e9 : V (Proc.devRef .tc main_v9) = wts x2) (e128 : V (Proc.devRef .tc main_v128) = dinv x1 x2) :
    after (normOps (F := Ideal)) V (Proc.devRef .tc main_v144) = norm x1 x2 := by
  after_results_simp
  rw [e4, e7, e9, e128]
  rfl

/-- The aggregate of the projected features. -/
theorem agg_eq (h : FVec Ideal S100000x64 .f32) (w : FVec Ideal S64x64 .f32)
    (e4 : V (Proc.devRef .tc main_v4) = row x1) (e7 : V (Proc.devRef .tc main_v7) = col x1)
    (e144 : V (Proc.devRef .tc main_v144) = norm x1 x2)
    (eh : V (Proc.devRef .tc main_v121) = h) (ew : V (Proc.devRef .tc main_arg16) = w) :
    after (aggOps (F := Ideal)) V (Proc.devRef .tc main_v158)
      = agg x1 x2 (Host.dotGeneral (φ₁ := .f32) (φ₂ := .f32) dot_S100000x64_S64x64_S100000x64_1_0_0_1_n_n none h w) := by
  after_results_simp
  rw [e4, e7, e144, eh, ew]
  rfl

/-- The normalised aggregate, before the maximum with zero. -/
theorem bn_eq (a : FVec Ideal S100000x64 .f32) (b g β μ v : FVec Ideal S64 .f32)
    (ea : V (Proc.devRef .tc main_v158) = a) (eb : V (Proc.devRef .tc main_arg17) = b)
    (eg : V (Proc.devRef .tc main_arg18) = g) (eβ : V (Proc.devRef .tc main_arg19) = β)
    (eμ : V (Proc.devRef .tc main_arg20) = μ) (ev : V (Proc.devRef .tc main_arg21) = v) :
    after (bnOps (F := Ideal)) V (Proc.devRef .tc main_v176)
      = addf (mulf (mulf (subf (addf a (rows b)) (rows μ))
          (rows (Host.rsqrt (addf v (broadcastInDim S64 ![] bcast_S_S64 (constant (F := Ideal) S_ .f32 0x3727C5AC#32))))))
          (rows g)) (rows β) := by
  after_results_simp
  rw [ea, eb, eg, eβ, eμ, ev]

/-- The maximum with zero. -/
theorem relu_eq (p : FVec Ideal S100000x64 .f32) (e176 : V (Proc.devRef .tc main_v176) = p) :
    after (reluOps (F := Ideal)) V (Proc.devRef .tc main_v177)
      = maximumf p (broadcastInDim S100000x64 ![] bcast_S_S100000x64 (constant (F := Ideal) S_ .f32 0x00000000#32)) := by
  after_results
  rw [e176, toBuf177, ofBuf176, ofBufR0, toBufR0, ofBufRc, toBufRc]

end Pieces

/-! ## What the first pieces together leave alone -/

section Kept
variable (U : Valuation τ sig (Elt Ideal)) (r : Ref sig .tc)

theorem keep2 (h1 : r ∉ wr_degOps) (h2 : r ∉ wr_whereOps) :
    after (whereOps (F := Ideal)) (after (degOps (F := Ideal)) U) (Proc.devRef .tc r) = U (Proc.devRef .tc r) :=
  (keep_whereOps _ r h2).trans (keep_degOps U r h1)

theorem keep3 (h1 : r ∉ wr_degOps) (h2 : r ∉ wr_whereOps) (h3 : r ∉ wr_normOps) :
    after (normOps (F := Ideal)) (after (whereOps (F := Ideal)) (after (degOps (F := Ideal)) U)) (Proc.devRef .tc r)
      = U (Proc.devRef .tc r) :=
  (keep_normOps _ r h3).trans (keep2 U r h1 h2)

theorem keep4 (h1 : r ∉ wr_degOps) (h2 : r ∉ wr_whereOps) (h3 : r ∉ wr_normOps) (h4 : r ∉ wr_aggOps) :
    after (aggOps (F := Ideal)) (after (normOps (F := Ideal)) (after (whereOps (F := Ideal)) (after (degOps (F := Ideal)) U)))
        (Proc.devRef .tc r)
      = U (Proc.devRef .tc r) :=
  (keep_aggOps _ r h4).trans (keep3 U r h1 h2 h3)

end Kept

/-! ## The layer -/

/-- From a state holding the edge lists, the weights, the second layer's output and the third layer's parameters,
    the third layer's operations leave in their last buffer the layer's function of them. -/
theorem layer (U : Valuation τ sig (Elt Ideal)) (x1 : IVec S2x1600000 32) (x2 : FVec Ideal S1600000 .f32) (h : FVec Ideal S100000x64 .f32) (w : FVec Ideal S64x64 .f32) (b g β μ v : FVec Ideal S64 .f32)
    (e4 : U (Proc.devRef .tc main_v4) = row x1) (e7 : U (Proc.devRef .tc main_v7) = col x1) (e9 : U (Proc.devRef .tc main_v9) = wts x2)
    (eh : U (Proc.devRef .tc main_v121) = h) (ew : U (Proc.devRef .tc main_arg16) = w)
    (eb : U (Proc.devRef .tc main_arg17) = b) (eg : U (Proc.devRef .tc main_arg18) = g) (eβ : U (Proc.devRef .tc main_arg19) = β)
    (eμ : U (Proc.devRef .tc main_arg20) = μ) (ev : U (Proc.devRef .tc main_arg21) = v) :
    StableHlo.after (opsL3 (F := Ideal)) U (Proc.devRef .tc main_v177) = next h x1 x2 w b g β μ v := by
  rw [split, after_cat, after_cat, after_cat, after_cat, after_cat]
  -- the degree's sign test, its reciprocal square root and the fallback zero; then the selection
  have a126 := deg_pos U x1 x2 e7 e9
  have a127 := deg_rsqrt U x1 x2 e7 e9
  have a23 := deg_zero U
  have b128 := where_dinv _ x1 x2 a126 a127 a23
  -- the edge coefficients, from the edge lists and weights the first two pieces left alone
  have c144 := norm_eq _ x1 x2 ((keep2 U main_v4 (by decide) (by decide)).trans e4) ((keep2 U main_v7 (by decide) (by decide)).trans e7) ((keep2 U main_v9 (by decide) (by decide)).trans e9) b128
  -- the aggregate of the projected features
  have d158 := agg_eq _ x1 x2 h w ((keep3 U main_v4 (by decide) (by decide) (by decide)).trans e4) ((keep3 U main_v7 (by decide) (by decide) (by decide)).trans e7) c144
    ((keep3 U main_v121 (by decide) (by decide) (by decide)).trans eh) ((keep3 U main_arg16 (by decide) (by decide) (by decide)).trans ew)
  -- bias and normalisation, then the maximum with zero
  have e176 := bn_eq _ _ b g β μ v d158 ((keep4 U main_arg17 (by decide) (by decide) (by decide) (by decide)).trans eb) ((keep4 U main_arg18 (by decide) (by decide) (by decide) (by decide)).trans eg)
    ((keep4 U main_arg19 (by decide) (by decide) (by decide) (by decide)).trans eβ) ((keep4 U main_arg20 (by decide) (by decide) (by decide) (by decide)).trans eμ) ((keep4 U main_arg21 (by decide) (by decide) (by decide) (by decide)).trans ev)
  exact (relu_eq _ _ e176).trans rfl

end Cert.ReferenceIdeal.EvalL3

end
-- ==== Proof.EvalT.lean ====
/-
  The last stretch of the reference, evaluated: from the third layer's output and the segment words it leaves the
  per-graph sums of the node rows beside those sums divided by max(node count, 1).  With it, the buffers each of the
  four stretches of the reference writes: a buffer a stretch does not write holds afterwards what it held before.
-/
import proofs.«431411_j11312943857689_1_alg».proof.Proof.RefOps
import proofs.«431411_j11312943857689_1_alg».proof.Proof.Mid
import Idealize.ShloMosaic.Lib.StableHlo.Run
import Idealize.ShloMosaic.Lib.Pipeline.Frame

set_option maxRecDepth 16384

noncomputable section

open Idealize.ShloMosaic Idealize.ShloMosaic.TcCoe Idealize.SL.Sem Idealize.ShloMosaic.StableHlo

namespace Cert.ReferenceIdeal.EvalT

open Cert.ReferenceIdeal Cert.ReferenceIdeal.Gen Cert.ReferenceIdeal.ValueP Cert.ReferenceIdeal.Mid

/-! ## The last stretch in three cuts -/

/-- The per-graph sums: the zero array, the segment words as a column, the scatter-add. -/
abbrev opsTsum {F : FTy → Type} [FloatOps F] : List (HloOp τ sig (Elt F)) :=
  [ nullary main_cst_32 (constant S_ .f32 0x00000000#32),
    unary main_cst_32 main_v178 (broadcastInDim S1000x64 ![] bcast_S_S1000x64 : (⟨S_, .f32⟩ : BufTy).Contents (Elt F) → (⟨S1000x64, .f32⟩ : BufTy).Contents (Elt F)),
    unary main_arg3 main_v179 (broadcastInDim S100000x1 ![0] bcast_S100000_S100000x1_0 : (⟨S100000, .i32⟩ : BufTy).Contents (Elt F) → (⟨S100000x1, .i32⟩ : BufTy).Contents (Elt F)),
    ternary main_v178 main_v179 main_v177 main_v180 ((fun x i u => Host.scatterAdd scatter_S1000x64_S100000x1_S100000x64_1_0_0_1 x i u) : (⟨S1000x64, .f32⟩ : BufTy).Contents (Elt F) → (⟨S100000x1, .i32⟩ : BufTy).Contents (Elt F) → (⟨S100000x64, .f32⟩ : BufTy).Contents (Elt F) → (⟨S1000x64, .f32⟩ : BufTy).Contents (Elt F)) ]

/-- The node counts (a scatter-add of ones), their maximum with one, and the sums divided by it. -/
abbrev opsTmean {F : FTy → Type} [FloatOps F] : List (HloOp τ sig (Elt F)) :=
  [ nullary main_cst_33 (constant S_ .f32 0x3F800000#32),
    unary main_cst_33 main_v181 (broadcastInDim S100000 ![] bcast_S_S100000 : (⟨S_, .f32⟩ : BufTy).Contents (Elt F) → (⟨S100000, .f32⟩ : BufTy).Contents (Elt F)),
    nullary main_cst_34 (constant S_ .f32 0x00000000#32),
    unary main_cst_34 main_v182 (broadcastInDim S1000 ![] bcast_S_S1000 : (⟨S_, .f32⟩ : BufTy).Contents (Elt F) → (⟨S1000, .f32⟩ : BufTy).Contents (Elt F)),
    unary main_arg3 main_v183 (broadcastInDim S100000x1 ![0] bcast_S100000_S100000x1_0 : (⟨S100000, .i32⟩ : BufTy).Contents (Elt F) → (⟨S100000x1, .i32⟩ : BufTy).Contents (Elt F)),
    ternary main_v182 main_v183 main_v181 main_v184 ((fun x i u => Host.scatterAdd scatter_S1000_S100000x1_S100000_n_0_0_1 x i u) : (⟨S1000, .f32⟩ : BufTy).Contents (Elt F) → (⟨S100000x1, .i32⟩ : BufTy).Contents (Elt F) → (⟨S100000, .f32⟩ : BufTy).Contents (Elt F) → (⟨S1000, .f32⟩ : BufTy).Contents (Elt F)),
    nullary main_cst_35 (constant S_ .f32 0x3F800000#32),
    unary main_cst_35 main_v185 (broadcastInDim S1000 ![] bcast_S_S1000 : (⟨S_, .f32⟩ : BufTy).Contents (Elt F) → (⟨S1000, .f32⟩ : BufTy).Contents (Elt F)),
    binary main_v184 main_v185 main_v186 (maximumf : (⟨S1000, .f32⟩ : BufTy).Contents (Elt F) → (⟨S1000, .f32⟩ : BufTy).Contents (Elt F) → (⟨S1000, .f32⟩ : BufTy).Contents (Elt F)),
    unary main_v186 main_v187 (broadcastInDim S1000x1 ![0] bcast_S1000_S1000x1_0 : (⟨S1000, .f32⟩ : BufTy).Contents (Elt F) → (⟨S1000x1, .f32⟩ : BufTy).Contents (Elt F)),
    unary main_v187 main_v188 (broadcastInDim S1000x64 ![0, 1] bcast_S1000x1_S1000x64_0_1 : (⟨S1000x1, .f32⟩ : BufTy).Contents (Elt F) → (⟨S1000x64, .f32⟩ : BufTy).Contents (Elt F)),
    binary main_v180 main_v188 main_v189 (Host.divf : (⟨S1000x64, .f32⟩ : BufTy).Contents (Elt F) → (⟨S1000x64, .f32⟩ : BufTy).Contents (Elt F) → (⟨S1000x64, .f32⟩ : BufTy).Contents (Elt F)) ]

/-- The means and the sums side by side. -/
abbrev opsTcat {F : FTy → Type} [FloatOps F] : List (HloOp τ sig (Elt F)) :=
  [ binary main_v189 main_v180 main_v190 ((fun a b => concatenate S1000x128 1 [⟨S1000x64, a⟩, ⟨S1000x64, b⟩] concatenates_S1000x64_S1000x64_S1000x128_d1) : (⟨S1000x64, .f32⟩ : BufTy).Contents (Elt F) → (⟨S1000x64, .f32⟩ : BufTy).Contents (Elt F) → (⟨S1000x128, .f32⟩ : BufTy).Contents (Elt F)) ]

theorem opsT_cut {F : FTy → Type} [FloatOps F] :
    (opsT (F := F)) = opsTsum ++ (opsTmean ++ opsTcat) := rfl

/-- The denominator of the means: the node count of every graph, at least one, repeated along the row. -/
abbrev counts (x3 : IVec S100000 32) : FVec Ideal S1000x64 .f32 :=
  broadcastInDim S1000x64 ![0, 1] bcast_S1000x1_S1000x64_0_1 (broadcastInDim S1000x1 ![0] bcast_S1000_S1000x1_0
    (maximumf (Host.scatterAdd scatter_S1000_S100000x1_S100000_n_0_0_1 (broadcastInDim S1000 ![] bcast_S_S1000 (constant S_ .f32 0x00000000#32))
      (segCol x3) (broadcastInDim S100000 ![] bcast_S_S100000 (constant S_ .f32 0x3F800000#32)))
      (broadcastInDim S1000 ![] bcast_S_S1000 (constant S_ .f32 0x3F800000#32))))

theorem sum_v180 (V : Valuation τ sig (Elt Ideal)) (x3 : IVec S100000 32) (s : FVec Ideal S100000x64 .f32)
    (e3 : V (Proc.devRef .tc main_arg3) = x3) (es : V (Proc.devRef .tc main_v177) = s) :
    StableHlo.after (opsTsum (F := Ideal)) V (Proc.devRef .tc main_v180) = Cert.ReferenceIdeal.Mid.pool s x3 := by
  after_results_simp
  rw [e3, es]
  rfl

theorem sum_arg3 (V : Valuation τ sig (Elt Ideal)) :
    StableHlo.after (opsTsum (F := Ideal)) V (Proc.devRef .tc main_arg3) = V (Proc.devRef .tc main_arg3) := by
  after_results_simp

theorem mean_v189 (V : Valuation τ sig (Elt Ideal)) (x3 : IVec S100000 32) (p : FVec Ideal S1000x64 .f32)
    (e3 : V (Proc.devRef .tc main_arg3) = x3) (e180 : V (Proc.devRef .tc main_v180) = p) :
    StableHlo.after (opsTmean (F := Ideal)) V (Proc.devRef .tc main_v189) = Host.divf p (counts x3) := by
  after_results_simp
  rw [e3, e180]

theorem mean_v180 (V : Valuation τ sig (Elt Ideal)) :
    StableHlo.after (opsTmean (F := Ideal)) V (Proc.devRef .tc main_v180) = V (Proc.devRef .tc main_v180) := by
  after_results_simp

theorem cat_v190 (V : Valuation τ sig (Elt Ideal)) (a b : FVec Ideal S1000x64 .f32)
    (ea : V (Proc.devRef .tc main_v189) = a) (eb : V (Proc.devRef .tc main_v180) = b) :
    StableHlo.after (opsTcat (F := Ideal)) V (Proc.devRef .tc main_v190)
      = concatenate S1000x128 1 [⟨S1000x64, a⟩, ⟨S1000x64, b⟩] concatenates_S1000x64_S1000x64_S1000x128_d1 := by
  after_results
  rw [ea, eb]

/-- After the last stretch the result buffer holds the means and the sums of the per-graph pooling of the third
    layer's output, side by side. -/
theorem result (U : Valuation τ sig (Elt Ideal)) (x3 : IVec S100000 32) (s : FVec Ideal S100000x64 .f32)
    (e3 : U (Proc.devRef .tc main_arg3) = x3) (es : U (Proc.devRef .tc main_v177) = s) :
    StableHlo.after (opsT (F := Ideal)) U (Proc.devRef .tc main_v190) = tail (Cert.ReferenceIdeal.Mid.pool s x3) x3 := by
  have h180 := sum_v180 U x3 s e3 es
  have h3 := (sum_arg3 U).trans e3
  rw [opsT_cut, StableHlo.after_append, StableHlo.after_append]
  generalize StableHlo.after (opsTsum (F := Ideal)) U = V at h180 h3 ⊢
  have k189 := mean_v189 V x3 _ h3 h180
  have k180 := (mean_v180 V).trans h180
  generalize StableHlo.after (opsTmean (F := Ideal)) V = W at k189 k180 ⊢
  rw [cat_v190 W _ _ k189 k180]
  rfl

/-! ## The buffers each stretch writes -/

/-- The result buffers of the first stretch's operations, in order. -/
abbrev wrL1 : List (Ref sig .tc) := [main_v0, main_v1, main_v2, main_v3, main_v4, main_v5, main_v6, main_v7, main_cst, main_v8, main_v9, main_cst_0, main_v10, main_v11, main_v12, main_cst_1, main_v13, main_v14, main_v15, main_cst_2, main_call0_v0, main_call0_v1, main_v16, main_c, main_v17, main_v18, main_c_3, main_v19, main_v20, main_v21, main_v22, main_v23, main_v24, main_c_4, main_v25, main_v26, main_c_5, main_v27, main_v28, main_v29, main_v30, main_v31, main_v32, main_v33, main_v34, main_c_6, main_v35, main_v36, main_c_7, main_v37, main_v38, main_v39, main_v40, main_v41, main_v42, main_v43, main_cst_8, main_v44, main_v45, main_v46, main_v47, main_v48, main_v49, main_v50, main_v51, main_v52, main_cst_9, main_v53, main_v54, main_v55, main_v56, main_v57, main_v58, main_v59, main_v60, main_v61, main_v62, main_v63, main_v64, main_call1_cst, main_call1_v0, main_v65]
theorem writesL1 : (opsL1 (F := Ideal)).Forall fun op => op.writes ⊆ (wrL1.map (Proc.devRef (τ := τ) .tc)).toFinset := by
  simp only [opsL1, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The result buffers of the second stretch's operations, in order. -/
abbrev wrL2 : List (Ref sig .tc) := [main_cst_10, main_v66, main_v67, main_v68, main_cst_11, main_v69, main_v70, main_v71, main_cst_12, main_call2_v0, main_call2_v1, main_v72, main_c_13, main_v73, main_v74, main_c_14, main_v75, main_v76, main_v77, main_v78, main_v79, main_v80, main_c_15, main_v81, main_v82, main_c_16, main_v83, main_v84, main_v85, main_v86, main_v87, main_v88, main_v89, main_v90, main_c_17, main_v91, main_v92, main_c_18, main_v93, main_v94, main_v95, main_v96, main_v97, main_v98, main_v99, main_cst_19, main_v100, main_v101, main_v102, main_v103, main_v104, main_v105, main_v106, main_v107, main_v108, main_cst_20, main_v109, main_v110, main_v111, main_v112, main_v113, main_v114, main_v115, main_v116, main_v117, main_v118, main_v119, main_v120, main_call3_cst, main_call3_v0, main_v121]
theorem writesL2 : (opsL2 (F := Ideal)).Forall fun op => op.writes ⊆ (wrL2.map (Proc.devRef (τ := τ) .tc)).toFinset := by
  simp only [opsL2, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The result buffers of the third stretch's operations, in order. -/
abbrev wrL3 : List (Ref sig .tc) := [main_cst_21, main_v122, main_v123, main_v124, main_cst_22, main_v125, main_v126, main_v127, main_cst_23, main_call4_v0, main_call4_v1, main_v128, main_c_24, main_v129, main_v130, main_c_25, main_v131, main_v132, main_v133, main_v134, main_v135, main_v136, main_c_26, main_v137, main_v138, main_c_27, main_v139, main_v140, main_v141, main_v142, main_v143, main_v144, main_v145, main_v146, main_c_28, main_v147, main_v148, main_c_29, main_v149, main_v150, main_v151, main_v152, main_v153, main_v154, main_v155, main_cst_30, main_v156, main_v157, main_v158, main_v159, main_v160, main_v161, main_v162, main_v163, main_v164, main_cst_31, main_v165, main_v166, main_v167, main_v168, main_v169, main_v170, main_v171, main_v172, main_v173, main_v174, main_v175, main_v176, main_call5_cst, main_call5_v0, main_v177]
theorem writesL3 : (opsL3 (F := Ideal)).Forall fun op => op.writes ⊆ (wrL3.map (Proc.devRef (τ := τ) .tc)).toFinset := by
  simp only [opsL3, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

/-- The result buffers of the last stretch's operations, in order. -/
abbrev wrT : List (Ref sig .tc) := [main_cst_32, main_v178, main_v179, main_v180, main_cst_33, main_v181, main_cst_34, main_v182, main_v183, main_v184, main_cst_35, main_v185, main_v186, main_v187, main_v188, main_v189, main_v190]
theorem writesT : (opsT (F := Ideal)).Forall fun op => op.writes ⊆ (wrT.map (Proc.devRef (τ := τ) .tc)).toFinset := by
  simp only [opsT, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)

end Cert.ReferenceIdeal.EvalT

end
-- ==== Proof.RefEval.lean ====
/-
  The reference's run, evaluated.  Its 241 host operations are run as four consecutive stretches — the edge
  coefficients with the first layer, the second layer, the third layer, and the pooling with the result — each
  evaluated from whatever the stretch before left; no stretch writes an argument array or an edge list that a later
  one reads.  The result buffer ends at `Mid.ref` of the argument arrays.
-/
import proofs.«431411_j11312943857689_1_alg».proof.Proof.RefOps
import proofs.«431411_j11312943857689_1_alg».proof.Proof.Mid
import proofs.«431411_j11312943857689_1_alg».proof.Proof.EvalL1
import proofs.«431411_j11312943857689_1_alg».proof.Proof.EvalL2
import proofs.«431411_j11312943857689_1_alg».proof.Proof.EvalL3
import proofs.«431411_j11312943857689_1_alg».proof.Proof.EvalT
import Idealize.ShloMosaic.Lib.StableHlo.Run
import Idealize.ShloMosaic.Lib.Pipeline.Frame

set_option maxRecDepth 16384

noncomputable section

open Idealize.ShloMosaic Idealize.ShloMosaic.TcCoe Idealize.SL.Sem Idealize.ShloMosaic.StableHlo

namespace Cert.ReferenceIdeal.Eval

open Cert.ReferenceIdeal Cert.ReferenceIdeal.Gen Cert.ReferenceIdeal.ValueP Cert.ReferenceIdeal.Mid Cert.ReferenceIdeal.EvalT

variable (m : (ℓ : Loc nD τ sig) → Buf (Elt Ideal) ℓ) (ρ : Dev nD → PrngReg)

/-- The contents after the first, second and third stretch. -/
abbrev U0 (c : Dev nD) : Valuation τ sig (Elt Ideal) := launchContents m c
def U1 (c : Dev nD) : Valuation τ sig (Elt Ideal) := after (opsL1 (F := Ideal)) (U0 m c)
def U2 (c : Dev nD) : Valuation τ sig (Elt Ideal) := after (opsL2 (F := Ideal)) (U1 m c)
def U3 (c : Dev nD) : Valuation τ sig (Elt Ideal) := after (opsL3 (F := Ideal)) (U2 m c)

theorem after_ops (c : Dev nD) : after (ops (F := Ideal)) (U0 m c) = after (opsT (F := Ideal)) (U3 m c) := by
  rw [ops_split, after_append, after_append, after_append]; rfl

/-! What a stretch does not write it keeps. -/
theorem U1_of (c : Dev nD) (r : Ref sig .tc) (h : r ∉ wrL1) : U1 m c (Proc.devRef .tc r) = m ((c.tc : Thread nD τ).loc r) :=
  after_of_writes_sub _ _ writesL1 h
theorem U2_of (c : Dev nD) (r : Ref sig .tc) (h : r ∉ wrL2) : U2 m c (Proc.devRef .tc r) = U1 m c (Proc.devRef .tc r) :=
  after_of_writes_sub _ _ writesL2 h
theorem U3_of (c : Dev nD) (r : Ref sig .tc) (h : r ∉ wrL3) : U3 m c (Proc.devRef .tc r) = U2 m c (Proc.devRef .tc r) :=
  after_of_writes_sub _ _ writesL3 h
theorem UT_of (c : Dev nD) (r : Ref sig .tc) (h : r ∉ wrT) :
    after (opsT (F := Ideal)) (U3 m c) (Proc.devRef .tc r) = U3 m c (Proc.devRef .tc r) :=
  after_of_writes_sub _ _ writesT h

/-- An argument array reads the launch memory after the whole run. -/
theorem arg_kept (c : Dev nD) (r : Ref sig .tc) (h1 : r ∉ wrL1) (h2 : r ∉ wrL2) (h3 : r ∉ wrL3) (h4 : r ∉ wrT) :
    after (ops (F := Ideal)) (U0 m c) (Proc.devRef .tc r) = m ((c.tc : Thread nD τ).loc r) := by
  rw [after_ops, UT_of m c r h4, U3_of m c r h3, U2_of m c r h2, U1_of m c r h1]

/-! The three layers. -/
theorem U1_h (c : Dev nD) :
    U1 m c (Proc.devRef .tc main_v65) = h1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (Cert.ReferenceIdeal.EvalL1.layer (U0 m c) _ _ _ _ _ _ _ _ _ rfl rfl rfl rfl rfl rfl rfl rfl rfl).1
theorem U1_row (c : Dev nD) : U1 m c (Proc.devRef .tc main_v4) = row (m ((c.tc : Thread nD τ).loc main_arg1)) :=
  (Cert.ReferenceIdeal.EvalL1.layer (U0 m c) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) rfl rfl rfl rfl rfl rfl rfl rfl rfl).2.1
theorem U1_col (c : Dev nD) : U1 m c (Proc.devRef .tc main_v7) = col (m ((c.tc : Thread nD τ).loc main_arg1)) :=
  (Cert.ReferenceIdeal.EvalL1.layer (U0 m c) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) rfl rfl rfl rfl rfl rfl rfl rfl rfl).2.2.1
theorem U1_wts (c : Dev nD) : U1 m c (Proc.devRef .tc main_v9) = wts (m ((c.tc : Thread nD τ).loc main_arg2)) :=
  (Cert.ReferenceIdeal.EvalL1.layer (U0 m c) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) rfl rfl rfl rfl rfl rfl rfl rfl rfl).2.2.2

theorem U2_h (c : Dev nD) :
    U2 m c (Proc.devRef .tc main_v121)
      = next (h1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg1)) (m ((c.tc : Thread nD τ).loc main_arg2)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  Cert.ReferenceIdeal.EvalL2.layer (U1 m c) _ _ _ _ _ _ _ _ _ (U1_row m c) (U1_col m c) (U1_wts m c) (U1_h m c)
    (U1_of m c main_arg10 (by decide)) (U1_of m c main_arg11 (by decide)) (U1_of m c main_arg12 (by decide))
    (U1_of m c main_arg13 (by decide)) (U1_of m c main_arg14 (by decide)) (U1_of m c main_arg15 (by decide))

theorem U3_h (c : Dev nD) :
    U3 m c (Proc.devRef .tc main_v177)
      = next (next (h1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg1)) (m ((c.tc : Thread nD τ).loc main_arg2)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))) (m ((c.tc : Thread nD τ).loc main_arg1)) (m ((c.tc : Thread nD τ).loc main_arg2)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) :=
  Cert.ReferenceIdeal.EvalL3.layer (U2 m c) _ _ _ _ _ _ _ _ _
    ((U2_of m c main_v4 (by decide)).trans (U1_row m c)) ((U2_of m c main_v7 (by decide)).trans (U1_col m c))
    ((U2_of m c main_v9 (by decide)).trans (U1_wts m c)) (U2_h m c)
    ((U2_of m c main_arg16 (by decide)).trans (U1_of m c main_arg16 (by decide)))
    ((U2_of m c main_arg17 (by decide)).trans (U1_of m c main_arg17 (by decide)))
    ((U2_of m c main_arg18 (by decide)).trans (U1_of m c main_arg18 (by decide)))
    ((U2_of m c main_arg19 (by decide)).trans (U1_of m c main_arg19 (by decide)))
    ((U2_of m c main_arg20 (by decide)).trans (U1_of m c main_arg20 (by decide)))
    ((U2_of m c main_arg21 (by decide)).trans (U1_of m c main_arg21 (by decide)))

/-- The result buffer after the run: `Mid.ref` of the argument arrays. -/
theorem result_eq (c : Dev nD) :
    after (ops (F := Ideal)) (U0 m c) (Proc.devRef .tc main_v190)
      = ref (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) := by
  rw [after_ops]
  exact Cert.ReferenceIdeal.EvalT.result (U3 m c) _ _
    ((U3_of m c main_arg3 (by decide)).trans ((U2_of m c main_arg3 (by decide)).trans (U1_of m c main_arg3 (by decide))))
    (U3_h m c)

/-- The reference's run: it terminates, nothing faulting, with the result at `Mid.ref` of the argument arrays and
    the argument arrays as launched. -/
theorem ref_run : θ_run defs (onTc (τ := τ) (main (F := Ideal))) ⟨m, fun _ => 0, ρ⟩ fun r => ∀ c : Dev nD,
      r.2.mem ((c.tc : Thread nD τ).loc main_v190) = ref (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c => ⟨(h c main_v190).trans (result_eq m c),
      (h c main_arg0).trans (arg_kept m c main_arg0 (by decide) (by decide) (by decide) (by decide)),
      (h c main_arg1).trans (arg_kept m c main_arg1 (by decide) (by decide) (by decide) (by decide)),
      (h c main_arg2).trans (arg_kept m c main_arg2 (by decide) (by decide) (by decide) (by decide)),
      (h c main_arg3).trans (arg_kept m c main_arg3 (by decide) (by decide) (by decide) (by decide)),
      (h c main_arg4).trans (arg_kept m c main_arg4 (by decide) (by decide) (by decide) (by decide)),
      (h c main_arg5).trans (arg_kept m c main_arg5 (by decide) (by decide) (by decide) (by decide)),
      (h c main_arg6).trans (arg_kept m c main_arg6 (by decide) (by decide) (by decide) (by decide)),
      (h c main_arg7).trans (arg_kept m c main_arg7 (by decide) (by decide) (by decide) (by decide)),
      (h c main_arg8).trans (arg_kept m c main_arg8 (by decide) (by decide) (by decide) (by decide)),
      (h c main_arg9).trans (arg_kept m c main_arg9 (by decide) (by decide) (by decide) (by decide)),
      (h c main_arg10).trans (arg_kept m c main_arg10 (by decide) (by decide) (by decide) (by decide)),
      (h c main_arg11).trans (arg_kept m c main_arg11 (by decide) (by decide) (by decide) (by decide)),
      (h c main_arg12).trans (arg_kept m c main_arg12 (by decide) (by decide) (by decide) (by decide)),
      (h c main_arg13).trans (arg_kept m c main_arg13 (by decide) (by decide) (by decide) (by decide)),
      (h c main_arg14).trans (arg_kept m c main_arg14 (by decide) (by decide) (by decide) (by decide)),
      (h c main_arg15).trans (arg_kept m c main_arg15 (by decide) (by decide) (by decide) (by decide)),
      (h c main_arg16).trans (arg_kept m c main_arg16 (by decide) (by decide) (by decide) (by decide)),
      (h c main_arg17).trans (arg_kept m c main_arg17 (by decide) (by decide) (by decide) (by decide)),
      (h c main_arg18).trans (arg_kept m c main_arg18 (by decide) (by decide) (by decide) (by decide)),
      (h c main_arg19).trans (arg_kept m c main_arg19 (by decide) (by decide) (by decide) (by decide)),
      (h c main_arg20).trans (arg_kept m c main_arg20 (by decide) (by decide) (by decide) (by decide)),
      (h c main_arg21).trans (arg_kept m c main_arg21 (by decide) (by decide) (by decide) (by decide))⟩)
    (run_raw (F := Ideal) m ρ)

end Cert.ReferenceIdeal.Eval

end
-- ==== Proof.lean ====
/-
  The certificate of a three-layer graph convolution network with mean-and-sum pooling.

  Both programs compute, on the extended reals, the same function of the twenty-two argument arrays.  The edge
  lists (given edges plus one self loop per node), the weighted degrees and the symmetric edge coefficients
  deg(source)^(-1/2) · weight · deg(target)^(-1/2) are the same host operations on both sides.  Per layer the
  kernel multiplies the node features by the weight matrix tile by tile (twenty row tiles; a sum over the inner
  axis, so the tiling is immaterial), lets the host gather, scale and scatter-add along the edges, and applies
  bias, batch normalisation and relu tile by tile with one-row parameters, where the reference broadcasts the
  parameters over the whole array: entry by entry the same arithmetic.  The per-graph sum is, in the kernel, the
  product of the transposed indicator matrix of the segment words with the node rows, accumulated over fifty
  blocks of rows into 1024 rows of which the first thousand are kept; in the reference it is a scatter-add into a
  thousand rows.  Over the extended reals 0 · y = 0 and 1 · y = y for every y, so the indicator product is the sum
  over exactly the rows whose word is the graph's number — the scatter-add's sum; words outside 0 … 999 contribute
  to neither.  No law used needs finiteness, so the precondition is never opened.

  The reference's frame is its run with the result dropped; the ideal pass rewrote nothing, so `preserves` is `True`.
-/
import proofs.«431411_j11312943857689_1_alg».proof.Defs
import proofs.«431411_j11312943857689_1_alg».proof.Proof.Gen.Kernel.Frame
import proofs.«431411_j11312943857689_1_alg».proof.Proof.Gen.KernelIdeal.Frame
import proofs.«431411_j11312943857689_1_alg».proof.Proof.Gen.Pre_finite_inputs
import proofs.«431411_j11312943857689_1_alg».proof.Proof.KRun
import proofs.«431411_j11312943857689_1_alg».proof.Proof.Chain
import proofs.«431411_j11312943857689_1_alg».proof.Proof.RefEval
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Eval.ref_run m ρ)

theorem preserves : Cert.preserves_Kernel_KernelIdeal := trivial

/-- Both runs end with the result at the reference's function `Mid.ref` of the argument arrays, which agree. -/
theorem algebraic : Cert.algebraic_KernelIdeal_ReferenceIdeal := by
  intro m ρ m' ρ' _ hagree
  refine ⟨fun c => Cert.ReferenceIdeal.Mid.ref (Cert.KernelIdeal.Chain.A0 m c) (Cert.KernelIdeal.Chain.A1 m c) (Cert.KernelIdeal.Chain.A2 m c)
    (Cert.KernelIdeal.Chain.A3 m c) (Cert.KernelIdeal.Chain.A4 m c) (Cert.KernelIdeal.Chain.A5 m c) (Cert.KernelIdeal.Chain.A6 m c)
    (Cert.KernelIdeal.Chain.A7 m c) (Cert.KernelIdeal.Chain.A8 m c) (Cert.KernelIdeal.Chain.A9 m c) (Cert.KernelIdeal.Chain.A10 m c)
    (Cert.KernelIdeal.Chain.A11 m c) (Cert.KernelIdeal.Chain.A12 m c) (Cert.KernelIdeal.Chain.A13 m c) (Cert.KernelIdeal.Chain.A14 m c)
    (Cert.KernelIdeal.Chain.A15 m c) (Cert.KernelIdeal.Chain.A16 m c) (Cert.KernelIdeal.Chain.A17 m c) (Cert.KernelIdeal.Chain.A18 m c)
    (Cert.KernelIdeal.Chain.A19 m c) (Cert.KernelIdeal.Chain.A20 m c) (Cert.KernelIdeal.Chain.A21 m c), ?_, ?_⟩
  · exact (θ_run Cert.KernelIdeal.defs _ _).mono
      (fun _ h c => ⟨(h c).1.trans (Cert.KernelIdeal.Chain.result_eq m ρ c), (h c).2⟩)
      (Cert.KernelIdeal.Run.run_result (F := Ideal) m ρ)
  · refine (θ_run Cert.ReferenceIdeal.defs _ _).mono (fun _ h c => ⟨(h c).1.trans ?_, (h c).2⟩)
      (Cert.ReferenceIdeal.Eval.ref_run m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
